-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x128 : Shape := ⟨2, ![128, 128]⟩
abbrev S1x256 : Shape := ⟨2, ![1, 256]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S1024x128 .f32) (main_arg1 : IVec S1024x1024 32) (main_arg2 : FVec F S128x128 .f32) (main_arg3 : FVec F S1x256 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  main_v13
-- ==== Kernel.lean ====
abbrev S1024x128 : Shape := ⟨2, ![1024, 128]⟩
abbrev S1024x1024 : Shape := ⟨2, ![1024, 1024]⟩
abbrev S128x128 : Shape := ⟨2, ![128, 128]⟩
abbrev S1x256 : Shape := ⟨2, ![1, 256]⟩
abbrev S1x128 : Shape := ⟨2, ![1, 128]⟩
abbrev S256x1024 : Shape := ⟨2, ![256, 1024]⟩
abbrev S256x128 : Shape := ⟨2, ![256, 128]⟩
abbrev S1x1024 : Shape := ⟨2, ![1, 1024]⟩
abbrev S256x1 : Shape := ⟨2, ![256, 1]⟩
abbrev S256 : Shape := ⟨1, ![256]⟩

abbrev nBuf : Space → Nat
  | .hbm => 7
  | .vmem => 10
  | .smem => 0
  | _ => 0

abbrev bufTy : (tb : Table) → Fin (tcTables nBuf tb) → BufTy
  | .hbm, ⟨0, _⟩ => ⟨S1024x128, .f32⟩
  | .hbm, ⟨1, _⟩ => ⟨S1024x1024, .i32⟩
  | .hbm, ⟨2, _⟩ => ⟨S128x128, .f32⟩
  | .hbm, ⟨3, _⟩ => ⟨S1x256, .f32⟩
  | .hbm, ⟨4, _⟩ => ⟨S1x128, .f32⟩
  | .hbm, ⟨5, _⟩ => ⟨S1x128, .f32⟩
  | .hbm, ⟨6, _⟩ => ⟨S1024x128, .f32⟩
  | .local _ .vmem, ⟨0, _⟩ => ⟨S1024x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S256x1024, .i32⟩
  | .local _ .vmem, ⟨5, _⟩ => ⟨S256x1024, .i32⟩
  | .local _ .vmem, ⟨6, _⟩ => ⟨S256x128, .f32⟩
  | .local _ .vmem, ⟨7, _⟩ => ⟨S256x128, .f32⟩
  | .local _ .vmem, ⟨8, _⟩ => ⟨S1024x128, .f32⟩
  | .local _ .vmem, ⟨9, _⟩ => ⟨S1x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1x256_S1x128_0_0 : S1x256.Slices ![0, 0] S1x128
  slices_S1x256_S1x128_0_128 : S1x256.Slices ![0, 128] S1x128
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S256x128 : 0 < S256x128.numel
  broadcasts_S256x1_S256x1024 : S256x1.Broadcasts S256x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x128 : S256x1.Broadcasts S256x128
  inb_S256x128_S256x128_0_0 : ∀ a, (![0, 0] : Fin 2 → Nat) a + S256x128.size a ≤ S256x128.size a
  dot_S1024x128_S128x128_S1024x128_1_0_0_1_n_n_wf : DotDims.WF S1024x128 S128x128 S1024x128 [1] [0] [0] [1] [] []
  dot_S1x128_S1024x128_S1x1024_1_1_0_0_n_n_wf : DotDims.WF S1x128 S1024x128 S1x1024 [1] [1] [0] [0] [] []
  dot_S256x128_S1x128_S256x1_1_1_0_0_n_n_wf : DotDims.WF S256x128 S1x128 S256x1 [1] [1] [0] [0] [] []
  dot_S256x1024_S1024x128_S256x128_1_0_0_1_n_n_wf : DotDims.WF S256x1024 S1024x128 S256x128 [1] [0] [0] [1] [] []
  hrank0 : 0 < grid0.rank
  k0_off1_inb : ∀ i : grid0.Coords, ∀ a, (k0_off1 i) a + S256x128.size a ≤ S1024x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S1024x1024.size a
  hwx0_4 : ∀ i : grid0.Coords, EltTy.bits .i32 = 32 ∨ (Rect.block (s := S1024x1024) S256x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S1024x128.size a
  hwx0_5 : ∀ i : grid0.Coords, EltTy.bits .f32 = 32 ∨ (Rect.block (s := S1024x128) S256x128.size (cc0_transform_5 i) (hinb0_5 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1x128_S1024x128_S1x1024_1_1_0_0_n_n : DotDims S1x128 S1024x128 S1x1024 where
  lhsContracting := [1]
  rhsContracting := [1]
  lhsNonContracting := [0]
  rhsNonContracting := [0]
  lhsBatch := []
  rhsBatch := []
  wf := dot_S1x128_S1024x128_S1x1024_1_1_0_0_n_n_wf
def dot_S256x128_S1x128_S256x1_1_1_0_0_n_n : DotDims S256x128 S1x128 S256x1 where
  lhsContracting := [1]
  rhsContracting := [1]
  lhsNonContracting := [0]
  rhsNonContracting := [0]
  lhsBatch := []
  rhsBatch := []
  wf := dot_S256x128_S1x128_S256x1_1_1_0_0_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024 : Shape := ⟨2, ![1024, 1024]⟩
abbrev S128x128 : Shape := ⟨2, ![128, 128]⟩
abbrev S1x256 : Shape := ⟨2, ![1, 256]⟩
abbrev S_ : Shape := ⟨0, ![]⟩
abbrev S1048576 : Shape := ⟨1, ![1048576]⟩
abbrev S1048576x1 : Shape := ⟨2, ![1048576, 1]⟩
abbrev S1048576x128 : Shape := ⟨2, ![1048576, 128]⟩
abbrev S1048576x256 : Shape := ⟨2, ![1048576, 256]⟩
abbrev S256x1048576 : Shape := ⟨2, ![256, 1048576]⟩
abbrev S1x1048576 : Shape := ⟨2, ![1, 1048576]⟩
abbrev S1024 : Shape := ⟨1, ![1024]⟩
abbrev S1024x1 : Shape := ⟨2, ![1024, 1]⟩

abbrev nBuf : Space → Nat
  | .hbm => 208
  | .vmem => 0
  | .smem => 0
  | _ => 0

abbrev hbmTy0_0 (i : Nat) : BufTy := match i % 128 with
  | 0 => ⟨S1024x128, .f32⟩
  | 1 => ⟨S1024x1024, .i32⟩
  | 2 => ⟨S128x128, .f32⟩
  | 3 => ⟨S1x256, .f32⟩
  | 4 => ⟨S_, .i32⟩
  | 5 => ⟨S1024x1024, .i32⟩
  | 6 => ⟨S1024x1024, .i1⟩
  | 7 => ⟨S1048576, .i1⟩
  | 8 => ⟨S1048576, .i32⟩
  | 9 => ⟨S_, .i32⟩
  | 10 => ⟨S_, .i32⟩
  | 11 => ⟨S1048576, .i32⟩
  | 12 => ⟨S_, .i32⟩
  | 13 => ⟨S1048576, .i32⟩
  | 14 => ⟨S_, .i32⟩
  | 15 => ⟨S_, .i32⟩
  | 16 => ⟨S1048576, .i32⟩
  | 17 => ⟨S1048576, .i32⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S1048576x1, .i32⟩
  | 26 => ⟨S_, .i32⟩
  | 27 => ⟨S1048576, .i32⟩
  | 28 => ⟨S1048576, .i32⟩
  | 29 => ⟨S_, .i32⟩
  | 30 => ⟨S_, .i32⟩
  | 31 => ⟨S1048576, .i32⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S1048576, .i32⟩
  | 40 => ⟨S1048576, .i32⟩
  | 41 => ⟨S_, .i32⟩
  | 42 => ⟨S1048576, .i32⟩
  | 43 => ⟨S1048576, .i1⟩
  | 44 => ⟨S1048576, .i1⟩
  | 45 => ⟨S_, .i32⟩
  | 46 => ⟨S1048576, .i32⟩
  | 47 => ⟨S1048576, .i32⟩
  | 48 => ⟨S1048576, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i1⟩
  | 63 => ⟨S_, .i32⟩
  | 64 => ⟨S_, .i1⟩
  | 65 => ⟨S1048576, .i1⟩
  | 66 => ⟨S1048576, .i1⟩
  | 67 => ⟨S1048576, .i1⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S1048576, .i32⟩
  | 79 => ⟨S1048576, .i32⟩
  | 80 => ⟨S_, .i32⟩
  | 81 => ⟨S1048576, .i32⟩
  | 82 => ⟨S1048576, .i1⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S1048576, .i32⟩
  | 95 => ⟨S1048576, .i32⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i1⟩
  | 102 => ⟨S_, .i32⟩
  | 103 => ⟨S_, .i1⟩
  | 104 => ⟨S1048576, .i1⟩
  | 105 => ⟨S1048576, .i1⟩
  | 106 => ⟨S1048576, .i1⟩
  | 107 => ⟨S1048576, .i32⟩
  | 108 => ⟨S1048576, .i32⟩
  | 109 => ⟨S1048576, .i32⟩
  | 110 => ⟨S1048576, .i32⟩
  | 111 => ⟨S1024x1024, .i32⟩
  | 112 => ⟨S_, .i32⟩
  | 113 => ⟨S_, .i32⟩
  | 114 => ⟨S1048576, .i32⟩
  | 115 => ⟨S1048576, .i1⟩
  | 116 => ⟨S_, .i32⟩
  | 117 => ⟨S_, .i32⟩
  | 118 => ⟨S1048576, .i32⟩
  | 119 => ⟨S1048576, .i32⟩
  | 120 => ⟨S_, .i32⟩
  | 121 => ⟨S_, .i32⟩
  | 122 => ⟨S1048576, .i32⟩
  | 123 => ⟨S1048576, .i32⟩
  | 124 => ⟨S1048576, .i32⟩
  | 125 => ⟨S_, .i32⟩
  | 126 => ⟨S1024x1024, .i32⟩
  | 127 => ⟨S1024x1024, .i1⟩
  | _ => ⟨S1024x128, .f32⟩

abbrev hbmTy0_1 (i : Nat) : BufTy := match i % 128 with
  | 0 => ⟨S1024x1024, .i32⟩
  | 1 => ⟨S_, .i32⟩
  | 2 => ⟨S_, .i32⟩
  | 3 => ⟨S1048576, .i32⟩
  | 4 => ⟨S1048576, .i1⟩
  | 5 => ⟨S1024x128, .f32⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i32⟩
  | 12 => ⟨S1048576, .i32⟩
  | 13 => ⟨S1048576x1, .i32⟩
  | 14 => ⟨S1048576x128, .f32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S1048576x1, .i32⟩
  | 23 => ⟨S1048576x128, .f32⟩
  | 24 => ⟨S1048576x256, .f32⟩
  | 25 => ⟨S256x1048576, .f32⟩
  | 26 => ⟨S1x1048576, .f32⟩
  | 27 => ⟨S1048576, .f32⟩
  | 28 => ⟨S_, .f32⟩
  | 29 => ⟨S_, .f32⟩
  | 30 => ⟨S1048576, .f32⟩
  | 31 => ⟨S1048576, .i1⟩
  | 32 => ⟨S_, .f32⟩
  | 33 => ⟨S1048576, .f32⟩
  | 34 => ⟨S1048576, .f32⟩
  | 35 => ⟨S1048576, .f32⟩
  | 36 => ⟨S1048576, .f32⟩
  | 37 => ⟨S1048576, .f32⟩
  | 38 => ⟨S_, .f32⟩
  | 39 => ⟨S_, .f32⟩
  | 40 => ⟨S1048576, .f32⟩
  | 41 => ⟨S1048576, .f32⟩
  | 42 => ⟨S_, .f32⟩
  | 43 => ⟨S1024, .f32⟩
  | 44 => ⟨S1048576x1, .i32⟩
  | 45 => ⟨S1024, .f32⟩
  | 46 => ⟨S1024x1, .f32⟩
  | 47 => ⟨S1048576x1, .f32⟩
  | 48 => ⟨S_, .i32⟩
  | 49 => ⟨S1048576, .i32⟩
  | 50 => ⟨S1048576, .i1⟩
  | 51 => ⟨S_, .i32⟩
  | 52 => ⟨S1048576, .i32⟩
  | 53 => ⟨S1048576, .i32⟩
  | 54 => ⟨S1048576, .i32⟩
  | 55 => ⟨S1048576x1, .i32⟩
  | 56 => ⟨S1048576x128, .f32⟩
  | 57 => ⟨S1048576x128, .f32⟩
  | 58 => ⟨S1048576x128, .f32⟩
  | 59 => ⟨S_, .f32⟩
  | 60 => ⟨S1024x128, .f32⟩
  | 61 => ⟨S1048576x1, .i32⟩
  | 62 => ⟨S1024x128, .f32⟩
  | 63 => ⟨S1024x128, .f32⟩
  | 64 => ⟨S1024x128, .f32⟩
  | 65 => ⟨S_, .f32⟩
  | 66 => ⟨S1024x128, .f32⟩
  | 67 => ⟨S1024x128, .i1⟩
  | 68 => ⟨S_, .f32⟩
  | 69 => ⟨S1024x128, .f32⟩
  | 70 => ⟨S1024x128, .i1⟩
  | 71 => ⟨S_, .f32⟩
  | 72 => ⟨S_, .f32⟩
  | 73 => ⟨S1024x128, .f32⟩
  | 74 => ⟨S1024x128, .f32⟩
  | 75 => ⟨S1024x128, .f32⟩
  | 76 => ⟨S_, .f32⟩
  | 77 => ⟨S1024x128, .f32⟩
  | 78 => ⟨S1024x128, .f32⟩
  | 79 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_call0_c : Ref sig .tc := ⟨.hbm, 9, rfl⟩
abbrev main_call0_call0_v0 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_call2_call0_c : Ref sig .tc := ⟨.hbm, 29, rfl⟩
abbrev main_call2_call0_v0 : Ref sig .tc := ⟨.hbm, 30, rfl⟩
abbrev main_v13 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v14 : Ref sig .tc := ⟨.hbm, 48, rfl⟩
abbrev main_c_6 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v15 : Ref sig .tc := ⟨.hbm, 70, rfl⟩
abbrev main_c_7 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_v7 : Ref sig .tc := ⟨.hbm, 79, rfl⟩
abbrev main_call5_c : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_c_0 : Ref sig .tc := ⟨.hbm, 84, rfl⟩
abbrev main_call5_v11 : Ref sig .tc := ⟨.hbm, 85, rfl⟩
abbrev main_call5_v12 : Ref sig .tc := ⟨.hbm, 86, rfl⟩
abbrev main_v16 : Ref sig .tc := ⟨.hbm, 87, rfl⟩
abbrev main_c_8 : Ref sig .tc := ⟨.hbm, 88, rfl⟩
abbrev main_call6_v0 : Ref sig .tc := ⟨.hbm, 89, rfl⟩
abbrev main_call6_c : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_1 : Ref sig .tc := ⟨.hbm, 96, rfl⟩
abbrev main_call6_v5 : Ref sig .tc := ⟨.hbm, 97, rfl⟩
abbrev main_call6_v6 : Ref sig .tc := ⟨.hbm, 98, rfl⟩
abbrev main_call6_c_2 : Ref sig .tc := ⟨.hbm, 99, rfl⟩
abbrev main_call6_v7 : Ref sig .tc := ⟨.hbm, 100, rfl⟩
abbrev main_call6_v8 : Ref sig .tc := ⟨.hbm, 101, rfl⟩
abbrev main_call6_c_3 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_c_9 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_c_10 : Ref sig .tc := ⟨.hbm, 116, rfl⟩
abbrev main_call7_v0 : Ref sig .tc := ⟨.hbm, 117, rfl⟩
abbrev main_call7_v1 : Ref sig .tc := ⟨.hbm, 118, rfl⟩
abbrev main_v23 : Ref sig .tc := ⟨.hbm, 119, rfl⟩
abbrev main_c_11 : Ref sig .tc := ⟨.hbm, 120, rfl⟩
abbrev main_call8_v0 : Ref sig .tc := ⟨.hbm, 121, rfl⟩
abbrev main_call8_v1 : Ref sig .tc := ⟨.hbm, 122, rfl⟩
abbrev main_v24 : Ref sig .tc := ⟨.hbm, 123, rfl⟩
abbrev main_v25 : Ref sig .tc := ⟨.hbm, 124, rfl⟩
abbrev main_call9_c : Ref sig .tc := ⟨.hbm, 125, rfl⟩
abbrev main_call9_v0 : Ref sig .tc := ⟨.hbm, 126, rfl⟩
abbrev main_call9_v1 : Ref sig .tc := ⟨.hbm, 127, rfl⟩
abbrev main_call9_v2 : Ref sig .tc := ⟨.hbm, 128, rfl⟩
abbrev main_call9_c_0 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_c_12 : Ref sig .tc := ⟨.hbm, 134, rfl⟩
abbrev main_v30 : Ref sig .tc := ⟨.hbm, 135, rfl⟩
abbrev main_v31 : Ref sig .tc := ⟨.hbm, 136, rfl⟩
abbrev main_c_13 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_c_14 : Ref sig .tc := ⟨.hbm, 143, rfl⟩
abbrev main_v37 : Ref sig .tc := ⟨.hbm, 144, rfl⟩
abbrev main_v38 : Ref sig .tc := ⟨.hbm, 145, rfl⟩
abbrev main_c_15 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_cst : Ref sig .tc := ⟨.hbm, 156, rfl⟩
abbrev main_call10_cst : Ref sig .tc := ⟨.hbm, 157, rfl⟩
abbrev main_call10_v0 : Ref sig .tc := ⟨.hbm, 158, rfl⟩
abbrev main_call10_v1 : Ref sig .tc := ⟨.hbm, 159, rfl⟩
abbrev main_call10_v2 : Ref sig .tc := ⟨.hbm, 160, rfl⟩
abbrev main_call10_v3 : Ref sig .tc := ⟨.hbm, 161, rfl⟩
abbrev main_call10_v4 : Ref sig .tc := ⟨.hbm, 162, rfl⟩
abbrev main_v48 : Ref sig .tc := ⟨.hbm, 163, rfl⟩
abbrev main_v49 : Ref sig .tc := ⟨.hbm, 164, rfl⟩
abbrev main_v50 : Ref sig .tc := ⟨.hbm, 165, rfl⟩
abbrev main_cst_16 : Ref sig .tc := ⟨.hbm, 166, rfl⟩
abbrev main_call11_v0 : Ref sig .tc := ⟨.hbm, 167, rfl⟩
abbrev main_call11_v1 : Ref sig .tc := ⟨.hbm, 168, rfl⟩
abbrev main_v51 : Ref sig .tc := ⟨.hbm, 169, rfl⟩
abbrev main_cst_17 : Ref sig .tc := ⟨.hbm, 170, rfl⟩
abbrev main_v52 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_c_18 : Ref sig .tc := ⟨.hbm, 176, rfl⟩
abbrev main_v57 : Ref sig .tc := ⟨.hbm, 177, rfl⟩
abbrev main_v58 : Ref sig .tc := ⟨.hbm, 178, rfl⟩
abbrev main_c_19 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_cst_20 : Ref sig .tc := ⟨.hbm, 187, rfl⟩
abbrev main_v66 : Ref sig .tc := ⟨.hbm, 188, rfl⟩
abbrev main_v67 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_call12_cst : Ref sig .tc := ⟨.hbm, 193, rfl⟩
abbrev main_call12_v0 : Ref sig .tc := ⟨.hbm, 194, rfl⟩
abbrev main_call12_v1 : Ref sig .tc := ⟨.hbm, 195, rfl⟩
abbrev main_call12_cst_0 : Ref sig .tc := ⟨.hbm, 196, rfl⟩
abbrev main_call12_v2 : Ref sig .tc := ⟨.hbm, 197, rfl⟩
abbrev main_call12_v3 : Ref sig .tc := ⟨.hbm, 198, rfl⟩
abbrev main_call12_cst_1 : Ref sig .tc := ⟨.hbm, 199, rfl⟩
abbrev main_call12_call0_v0 : Ref sig .tc := ⟨.hbm, 200, rfl⟩
abbrev main_call12_call0_v1 : Ref sig .tc := ⟨.hbm, 201, rfl⟩
abbrev main_call12_v4 : Ref sig .tc := ⟨.hbm, 202, rfl⟩
abbrev main_call12_v5 : Ref sig .tc := ⟨.hbm, 203, rfl⟩
abbrev main_call12_cst_2 : Ref sig .tc := ⟨.hbm, 204, rfl⟩
abbrev main_call12_v6 : Ref sig .tc := ⟨.hbm, 205, rfl⟩
abbrev main_call12_v7 : Ref sig .tc := ⟨.hbm, 206, rfl⟩
abbrev main_v71 : Ref sig .tc := ⟨.hbm, 207, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1024x1024_S_d0_1 : S1024x1024.ReducesTo [0, 1] S_
  concatenates_S1048576x128_S1048576x128_S1048576x256_d1 : Shape.Concatenates [S1048576x128, S1048576x128] S1048576x256 1
  transposes_S1048576x256_S256x1048576_1_0 : S1048576x256.Transposes [1, 0] S256x1048576
  shapeCasts_S1x1048576_S1048576 : S1x1048576.ShapeCasts S1048576
  bcast_S_S1024 : S_.BroadcastsInDim S1024 (![] : Fin 0 → Fin S1024.rank)
  bcast_S1024_S1024x1_0 : S1024.BroadcastsInDim S1024x1 (![0] : Fin 1 → Fin S1024x1.rank)
  bcast_S1048576x1_S1048576x128_0_1 : S1048576x1.BroadcastsInDim S1048576x128 (![0, 1] : Fin 2 → Fin S1048576x128.rank)
  bcast_S_S1024x128 : S_.BroadcastsInDim S1024x128 (![] : Fin 0 → Fin S1024x128.rank)
  bcast_S1024x1_S1024x128_0_1 : S1024x1.BroadcastsInDim S1024x128 (![0, 1] : Fin 2 → Fin S1024x128.rank)
  scatter_S1048576_S1048576x1_S1048576_n_0_0_1_wf : ScatterDims.WF S1048576 S1048576x1 S1048576 [] [0] [0] 1
  dot_S1024x128_S128x128_S1024x128_1_0_0_1_n_n_wf : DotDims.WF S1024x128 S128x128 S1024x128 [1] [0] [0] [1] [] []
  gather_S1024x128_S1048576x1_S1048576x128_1_0_n_n_0_1_1128_wf : GatherDims.WF S1024x128 S1048576x1 S1048576x128 [1] [0] [] [0] [] 1 ![1, 128]
  dot_S1x256_S256x1048576_S1x1048576_1_0_0_1_n_n_wf : DotDims.WF S1x256 S256x1048576 S1x1048576 [1] [0] [0] [1] [] []
  scatter_S1024_S1048576x1_S1048576_n_0_0_1_wf : ScatterDims.WF S1024 S1048576x1 S1048576 [] [0] [0] 1
  scatter_S1024x128_S1048576x1_S1048576x128_1_0_0_1_wf : ScatterDims.WF S1024x128 S1048576x1 S1048576x128 [1] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf
def dot_S1x256_S256x1048576_S1x1048576_1_0_0_1_n_n : DotDims S1x256 S256x1048576 S1x1048576 where
  lhsContracting := [1]
  rhsContracting := [0]
  lhsNonContracting := [0]
  rhsNonContracting := [1]
  lhsBatch := []
  rhsBatch := []
  wf := dot_S1x256_S256x1048576_S1x1048576_1_0_0_1_n_n_wf
def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf

class Facts : Prop extends Facts₀ where

variable [Facts]
-- ==== Proof.Spec.lean ====
/-
  The graph-attention layer as mathematics over the extended reals, in the two forms the two programs compute.

  DENSE form (the kernel): with `h = x · W`, `f i = Σ_d h[i,d] · a[d]`, `g j = Σ_d a[128 + d] · h[j,d]`,
  the weight `E i j = exp (- leaky (f i + g j))` where `adj[i,j] ≠ 0` and `0` elsewhere, the result is
  `elu ((Σ_j E i j · h[j,d]) / (Σ_j E i j))`.

  EDGE-LIST form (the reference): over an enumeration `k ↦ (src k, dst k)` of `n²` slots of which the `valid`
  ones are the edges, the score is `Σ_{c < 256} a[c] · [h[src k]; h[dst k]][c]`, the weight `e k` is
  `exp (- leaky score)` on valid slots and `0` elsewhere, and the result is
  `elu ((0 + Σ_{k : src k = i} e k · h[dst k, d]) / (0 + Σ_{k : src k = i} e k))`.
-/
import Idealize.ShloMosaic.PureOps.Ideal
import Idealize.ShloMosaic.Lib.ValueIdx
import Mathlib.Data.Nat.Count

noncomputable section

namespace Cert.Spec

open Idealize.ShloMosaic Idealize.ShloMosaic.ValueIdx
open scoped BigOperators

/-- The shapes, spelt out. -/
abbrev SX : Shape := ⟨2, ![1024, 128]⟩
abbrev SA : Shape := ⟨2, ![1024, 1024]⟩
abbrev SW : Shape := ⟨2, ![128, 128]⟩
abbrev Sa : Shape := ⟨2, ![1, 256]⟩

/-- The number of slots of the edge list: `1024 · 1024`. -/
abbrev NE : Nat := 1048576

/-- The leaky slope: the f32 nearest to `0.01`. -/
def slope : EReal := Ideal.ofBits .f32 0x3C23D70A#32

/-- `leaky_relu`. -/
def leaky (s : EReal) : EReal := Scalar.select (Ideal.cmp .oge s 0) s (slope * s)

/-- The attention weight of a score. -/
def act (s : EReal) : EReal := Ideal.exp (-(leaky s))

/-- `elu` with `α = 1`. -/
def elu (q : EReal) : EReal := Scalar.select (Ideal.cmp .ogt q 0) q (Ideal.exp q - 1)

section
variable (x : SX.Idx → EReal) (adj : SA.Idx → BitVec 32) (W : SW.Idx → EReal) (a : Sa.Idx → EReal)

/-- Whether flat position `p` (row `p / 1024`, column `p % 1024`) of `adj` is nonzero; `false` beyond the array. -/
def maskB (p : Nat) : Bool :=
  if hp : p < 1048576 then decide (adj (ix2 (⟨p / 1024, by omega⟩ : Fin 1024) (⟨p % 1024, Nat.mod_lt _ (by norm_num)⟩ : Fin 1024)) ≠ 0#32) else false

/-- The same as a predicate on the naturals. -/
abbrev maskP : Nat → Prop := fun p => maskB adj p = true

/-- The number of nonzeros of `adj`. -/
def cntN : Nat := Nat.count (maskP adj) NE

/-- `h = x · W`. -/
def h (i : Fin 1024) (d : Fin 128) : EReal := ∑ k : Fin 128, x (ix2 i k) * W (ix2 k d)

/-- The first half of `a`. -/
def a1 (d : Fin 128) : EReal := a (ix2 (0 : Fin 1) (⟨d.val, by omega⟩ : Fin 256))
/-- The second half of `a`. -/
def a2 (d : Fin 128) : EReal := a (ix2 (0 : Fin 1) (⟨128 + d.val, by omega⟩ : Fin 256))

/-- `f i = h[i,:] · a1`. -/
def fsc (i : Fin 1024) : EReal := ∑ d : Fin 128, h x W i d * a1 a d
/-- `g j = a2 · h[j,:]`. -/
def gsc (j : Fin 1024) : EReal := ∑ d : Fin 128, a2 a d * h x W j d

/-- The dense weight. -/
def E (i j : Fin 1024) : EReal :=
  Scalar.select (IntOp.cmpi .ne (adj (ix2 i j)) 0#32) (act (fsc x W a i + gsc x W a j)) 0

def den (i : Fin 1024) : EReal := ∑ j : Fin 1024, E x adj W a i j
def num (i : Fin 1024) (d : Fin 128) : EReal := ∑ j : Fin 1024, E x adj W a i j * h x W j d

/-- The dense form's result at row `i`, column `d`. -/
def outK (i : Fin 1024) (d : Fin 128) : EReal := elu (Ideal.div (num x adj W a i d) (den x adj W a i))

/-! ### The edge-list form -/

variable (src dst : Fin NE → Fin 1024) (valid : Fin NE → Prop) [DecidablePred valid]

/-- The concatenated row `[h[s]; h[t]]` at position `c < 256`. -/
def cat (s t : Fin 1024) (c : Fin 256) : EReal :=
  if hc : c.val < 128 then h x W s ⟨c.val, hc⟩ else h x W t ⟨c.val - 128, by omega⟩

/-- The edge score. -/
def scoreR (k : Fin NE) : EReal := ∑ c : Fin 256, a (ix2 (0 : Fin 1) c) * cat x W (src k) (dst k) c

/-- The edge weight. -/
def eR (k : Fin NE) : EReal := if valid k then act (scoreR x W a src dst k) else 0

def denR (i : Fin 1024) : EReal := 0 + ∑ k ∈ Finset.univ.filter (fun k : Fin NE => src k = i), eR x W a src dst valid k
def numR (i : Fin 1024) (d : Fin 128) : EReal :=
  0 + ∑ k ∈ Finset.univ.filter (fun k : Fin NE => src k = i), eR x W a src dst valid k * h x W (dst k) d

/-- The edge-list form's result at row `i`, column `d`. -/
def outR (i : Fin 1024) (d : Fin 128) : EReal :=
  elu (Ideal.div (numR x W a src dst valid i d) (denR x W a src dst valid i))

end

end Cert.Spec

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.LibDotNT.lean ====
/-
  A matrix product against a transposed right operand, read at an index.

  For a contraction of an M×K matrix with an N×K matrix along their second axes (the left operand's axis 1 against
  the right operand's axis 1, no batch axes), the entry at row r and column c is the sum over k of A[r, k] · B[c, k].
  Stated for ANY dimension-number record with those axis lists, on the extended reals, for the kernel's matrix
  product into a zero accumulator and for the host's dot product.
-/
import Idealize.ShloMosaic.Lib.ValueIdx
import Idealize.ShloMosaic.PureOps.Ideal.Laws

noncomputable section

namespace DotNT

open Idealize.ShloMosaic Idealize.ShloMosaic.ValueIdx

variable {M K N : Nat} {φ₁ φ₂ : FTy}

/-- The axis lists of a product against a transposed right operand. -/
structure IsNT (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- A pair index read at an axis known to be the first is its first coordinate. -/
private theorem pair_at_zero {n0 n1 : Nat} (a : Fin n0) (b : Fin n1) (p : Nat) (hp : p < 2) (h : p = 0) :
    ((ix2 a b : (⟨2, ![n0, n1]⟩ : Shape).Idx) ⟨p, hp⟩).val = a.val := by subst h; rfl

/-- A pair index read at an axis known to be the second is its second coordinate. -/
private theorem pair_at_one {n0 n1 : Nat} (a : Fin n0) (b : Fin n1) (p : Nat) (hp : p < 2) (h : p = 1) :
    ((ix2 a b : (⟨2, ![n0, n1]⟩ : Shape).Idx) ⟨p, hp⟩).val = b.val := by subst h; rfl

/-- Two pair indices with equal coordinates are equal. -/
private theorem pair_ext {n0 n1 : Nat} (i : (⟨2, ![n0, n1]⟩ : Shape).Idx) (a : Fin n0) (b : Fin n1)
    (h0 : (i 0).val = a.val) (h1 : (i 1).val = b.val) : i = ix2 a b := by
  funext ax
  match ax with
  | ⟨0, _⟩ => exact Fin.ext h0
  | ⟨1, _⟩ => exact Fin.ext h1

variable (d : DotDims ⟨2, ![M, K]⟩ ⟨2, ![N, K]⟩ ⟨2, ![M, N]⟩) (hd : IsNT d)

include hd

/-- One axis is contracted. -/
private theorem contr_rank : d.contr.rank = 1 := by
  rw [d.rank_contr, hd.lc]; rfl

private theorem contr_pos : 0 < d.contr.rank := by rw [contr_rank d hd]; exact Nat.one_pos

/-- Its extent is K, the left operand's second extent. -/
private theorem contr_size : d.contr.size ⟨0, contr_pos d hd⟩ = K := by
  have h := d.size_contr 0 (by rw [hd.lc]; exact Nat.one_pos)
  rw [h]
  simp [hd.lc]

/-- The contraction index as its one coordinate, a number below K. -/
private def coord : d.contr.Idx ≃ Fin K := contrEquiv1 d K (contr_rank d hd) (contr_size d hd)

private theorem coord_val (q : d.contr.Idx) : (coord d hd q).val = (q ⟨0, contr_pos d hd⟩).val := rfl

/-- The left operand's row is the result's row. -/
private theorem lhs_row (r : Fin M) (c : Fin N) (q : d.contr.Idx) : (d.lhsIdx (ix2 r c) q 0).val = r.val := by
  have hb : (0 : Fin 2) ∉ d.lhsBatch := by rw [hd.lb]; exact List.not_mem_nil
  have hn : (0 : Fin 2) ∈ d.lhsNonContracting := by rw [hd.ln]; exact List.mem_singleton.mpr rfl
  unfold DotDims.lhsIdx
  rw [dif_neg hb, dif_pos hn]
  simp only [Fin.val_cast]
  exact pair_at_zero r c _ _ (by simp [hd.lb, hd.ln])

/-- The left operand's column is the contraction coordinate. -/
private theorem lhs_col (r : Fin M) (c : Fin N) (q : d.contr.Idx) :
    (d.lhsIdx (ix2 r c) q 1).val = (coord d hd q).val := by
  rw [coord_val, d.lhsIdx_val_of_single hd.lc]

/-- The right operand's row is the result's column. -/
private theorem rhs_row (r : Fin M) (c : Fin N) (q : d.contr.Idx) : (d.rhsIdx (ix2 r c) q 0).val = c.val := by
  have hb : (0 : Fin 2) ∉ d.rhsBatch := by rw [hd.rb]; exact List.not_mem_nil
  have hn : (0 : Fin 2) ∈ d.rhsNonContracting := by rw [hd.rn]; exact List.mem_singleton.mpr rfl
  unfold DotDims.rhsIdx
  rw [dif_neg hb, dif_pos hn]
  simp only [Fin.val_cast]
  exact pair_at_one r c _ _ (by simp [hd.lb, hd.ln, hd.rn])

/-- The right operand's column is the contraction coordinate. -/
private theorem rhs_col (r : Fin M) (c : Fin N) (q : d.contr.Idx) :
    (d.rhsIdx (ix2 r c) q 1).val = (coord d hd q).val := by
  rw [coord_val, d.rhsIdx_val_of_single hd.rc]

/-- The contraction sum, re-indexed by the contracted axis's coordinate. -/
private theorem sum_eq (A : (⟨2, ![M, K]⟩ : Shape).Idx → EReal) (B : (⟨2, ![N, K]⟩ : Shape).Idx → EReal) (r : Fin M) (c : Fin N) :
    (∑ q : d.contr.Idx, A (d.lhsIdx (ix2 r c) q) * B (d.rhsIdx (ix2 r c) q)) = ∑ k : Fin K, A (ix2 r k) * B (ix2 c k) := by
  rw [← Equiv.sum_comp (coord d hd) (fun k => A (ix2 r k) * B (ix2 c k))]
  refine Finset.sum_congr rfl fun q _ => ?_
  rw [pair_ext (d.lhsIdx (ix2 r c) q) r (coord d hd q) (lhs_row d hd r c q) (lhs_col d hd r c q),
    pair_ext (d.rhsIdx (ix2 r c) q) c (coord d hd q) (rhs_row d hd r c q) (rhs_col d hd r c q)]

/-- The kernel's matrix product into the zero accumulator, at an entry. -/
theorem matmul_zero_apply (prec : Option ContractPrecision) (A : FVec Ideal ⟨2, ![M, K]⟩ φ₁) (B : FVec Ideal ⟨2, ![N, K]⟩ φ₂)
    (r : Fin M) (c : Fin N) :
    FloatOps.matmul d prec A B (constant ⟨2, ![M, N]⟩ .f32 0x00000000#32) (ix2 r c) = ∑ k : Fin K, A (ix2 r k) * B (ix2 c k) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![N, K]⟩ φ₂) (r : Fin M) (c : Fin N) :
    FloatOps.dotGeneral d prec sched A B (ix2 r c) = ∑ k : Fin K, A (ix2 r k) * B (ix2 c k) := by
  rw [Ideal.dotGeneral_apply]
  exact sum_eq d hd A B r c

end DotNT

end
-- ==== Proof.Consts.lean ====
/-
  The two float patterns both programs spell, as the extended reals they denote: the pattern of all zeros is `0`
  (sign 0, exponent 0, fraction 0), and `0x3F800000` is `1` (sign 0, biased exponent 127, fraction 0: `2⁰ · 1`).
  The leaky slope's pattern is the same word on both sides and is never evaluated.
-/
import Idealize.ShloMosaic.PureOps.Ideal

noncomputable section

namespace Cert.Consts

open Idealize.ShloMosaic

/-- The all-zero f32 pattern denotes zero. -/
theorem zero_f32 : Ideal.ofBits .f32 0x00000000#32 = 0 := by
  simp [Ideal.ofBits, Ideal.ieee]

/-- The f32 pattern of `1.0` denotes one. -/
theorem one_f32 : Ideal.ofBits .f32 0x3F800000#32 = 1 := by
  simp [Ideal.ofBits, Ideal.ieee, -EReal.coe_mul]; norm_num

end Cert.Consts

end
-- ==== Proof.KernelValueScr.lean ====
/-
  The two carried scratches of the kernel, read at an entry over the extended reals: the first is the product
  `h = x · W`; the second is the row `g j = Σ_d a2[d] · h[j,d]`, a product of the loaded row against `h` transposed.
-/
import proofs.«175874_g83193516523656_cont_sun_m_929_3_alg».proof.Proof.Gen.KernelIdeal.Skeleton
import proofs.«175874_g83193516523656_cont_sun_m_929_3_alg».proof.Proof.Spec
import proofs.«175874_g83193516523656_cont_sun_m_929_3_alg».proof.Proof.LibPlainDot
import proofs.«175874_g83193516523656_cont_sun_m_929_3_alg».proof.Proof.LibDotNT
import proofs.«175874_g83193516523656_cont_sun_m_929_3_alg».proof.Proof.Consts
import Idealize.ShloMosaic.Lib.Pipeline.Value
import Idealize.ShloMosaic.Lib.ValueLayout

noncomputable section

namespace Cert.KernelIdeal.KScr

open Cert.KernelIdeal Cert.KernelIdeal.Gen Idealize.ShloMosaic Idealize.ShloMosaic.ValueIdx

/-- The product `x · W` into the zero accumulator, at an entry: a plain product, the sum over the shared axis. -/
private theorem pay2_apply (x : Vec Ideal S1024x128 .f32) (W : Vec Ideal S128x128 .f32) (r : Fin 1024) (d : Fin 128) :
    k0_pay2 x W (ix2 r d) = Cert.Spec.h x W r d :=
  PlainDot.matmul_zero_apply (φ₁ := .f32) (φ₂ := .f32) dot_S1024x128_S128x128_S1024x128_1_0_0_1_n_n
    ⟨rfl, rfl, rfl, rfl, rfl, rfl⟩ none x W r d

/-- The first carried scratch at an entry: `h = x · W`. -/
theorem pay3_apply (x : Vec Ideal S1024x128 .f32) (W : Vec Ideal S128x128 .f32) (r : Fin 1024) (d : Fin 128) :
    k0_pay3 x W (ix2 r d) = Cert.Spec.h x W r d := by
  -- a cast to the same shape is the identity
  show shapeCast S1024x128 (k0_pay2 x W) shapeCasts_S1024x128_S1024x128 (ix2 r d) = _
  rw [shapeCast_self]
  exact pay2_apply x W r d

/-- The second carried scratch at an entry: `g j = Σ_d a2[d] · h[j,d]`, the loaded row being the second half of `a`. -/
theorem pay4_apply (x : Vec Ideal S1024x128 .f32) (W : Vec Ideal S128x128 .f32) (a : Cert.Spec.Sa.Idx → EReal)
    (v45 : Vec Ideal S1x128 .f32) (h45 : ∀ d : Fin 128, v45 (ix2 (0 : Fin 1) d) = Cert.Spec.a2 a d)
    (u : Fin 1) (j : Fin 1024) :
    k0_pay4 x W v45 (ix2 u j) = Cert.Spec.gsc x W a j := by
  obtain rfl : u = 0 := Subsingleton.elim _ _
  -- both casts are to the same shape; what is left is the loaded row against `x · W`, contracted on the second axes
  show shapeCast S1x1024 (FloatOps.matmul (F := Ideal) (φ₁ := .f32) (φ₂ := .f32) dot_S1x128_S1024x128_S1x1024_1_1_0_0_n_n none
      (shapeCast S1x128 v45 shapeCasts_S1x128_S1x128) (k0_pay2 x W) (constant S1x1024 .f32 0x00000000#32))
      shapeCasts_S1x1024_S1x1024 (ix2 (0 : Fin 1) j) = _
  rw [shapeCast_self, shapeCast_self,
    DotNT.matmul_zero_apply dot_S1x128_S1024x128_S1x1024_1_1_0_0_n_n ⟨rfl, rfl, rfl, rfl, rfl, rfl⟩ none v45 (k0_pay2 x W) 0 j]
  unfold Cert.Spec.gsc
  exact Finset.sum_congr rfl fun k _ => by rw [h45 k, pay2_apply x W j k]

end Cert.KernelIdeal.KScr

end
-- ==== Proof.KernelValuePay.lean ====
/-
  The kernel body's arithmetic read at an entry, over the extended reals.

  Three facts, each about a pure term of the loaded blocks.  The first carried scratch is the product `h = x · W`.
  The second is the row `g j = Σ_d a2[d] · h[j,d]`.  The block a grid point writes is, at row `p` of the block
  (row `i` of the array) and column `q`, the dense form's `elu ((Σ_j E i j · h[j,q]) / (Σ_j E i j))`, once the
  loaded pieces are known to be the rows of `h`, the row `g`, the first half of `a` and row `i` of `adj`.
-/
import proofs.«175874_g83193516523656_cont_sun_m_929_3_alg».proof.Proof.Gen.KernelIdeal.Skeleton
import proofs.«175874_g83193516523656_cont_sun_m_929_3_alg».proof.Proof.Spec
import proofs.«175874_g83193516523656_cont_sun_m_929_3_alg».proof.Proof.LibPlainDot
import proofs.«175874_g83193516523656_cont_sun_m_929_3_alg».proof.Proof.LibDotNT
import proofs.«175874_g83193516523656_cont_sun_m_929_3_alg».proof.Proof.Consts
import proofs.«175874_g83193516523656_cont_sun_m_929_3_alg».proof.Proof.KernelValueScr
import Idealize.ShloMosaic.Lib.Pipeline.Value
import Idealize.ShloMosaic.Lib.ValueLayout

noncomputable section

namespace Cert.KernelIdeal.KPay

open Cert.KernelIdeal Cert.KernelIdeal.Gen Idealize.ShloMosaic Idealize.ShloMosaic.ValueIdx

/-- The first carried scratch at an entry: `h = x · W`. -/
theorem pay3_apply (x : Vec Ideal S1024x128 .f32) (W : Vec Ideal S128x128 .f32) (r : Fin 1024) (d : Fin 128) :
    k0_pay3 x W (ix2 r d) = Cert.Spec.h x W r d :=
  Cert.KernelIdeal.KScr.pay3_apply x W r d

/-- The second carried scratch at an entry: `g j = Σ_d a2[d] · h[j,d]`, the loaded row being the second half of `a`. -/
theorem pay4_apply (x : Vec Ideal S1024x128 .f32) (W : Vec Ideal S128x128 .f32) (a : Cert.Spec.Sa.Idx → EReal)
    (v45 : Vec Ideal S1x128 .f32) (h45 : ∀ d : Fin 128, v45 (ix2 (0 : Fin 1) d) = Cert.Spec.a2 a d)
    (u : Fin 1) (j : Fin 1024) :
    k0_pay4 x W v45 (ix2 u j) = Cert.Spec.gsc x W a j :=
  Cert.KernelIdeal.KScr.pay4_apply x W a v45 h45 u j

/-! ### Two layout readings: a column broadcast along the rows' entries, a vector cast to a column -/

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt
      omega
    · rfl
  | ⟨1, _⟩ => rfl

/-- An `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ### The stages of the block's arithmetic, named -/

/-- The column `f`: the loaded rows of `h` against the loaded half of `a`. -/
private def st8 (v5 : Vec Ideal S256x128 .f32) (v6 : Vec Ideal S1x128 .f32) : FVec Ideal S256x1 .f32 :=
  matmul (φ₁ := .f32) (φ₂ := .f32) dot_S256x128_S1x128_S256x1_1_1_0_0_n_n none v5
    (shapeCast (α := Ideal .f32) S1x128 v6 shapeCasts_S1x128_S1x128) (constant S256x1 .f32 0x00000000#32)

/-- The scores `f p + g k`. -/
private def st12 (v5 : Vec Ideal S256x128 .f32) (v6 : Vec Ideal S1x128 .f32) (v9 : Vec Ideal S1x1024 .f32) :
    FVec Ideal S256x1024 .f32 :=
  addf (broadcastTo S256x1024 (st8 v5 v6) broadcasts_S256x1_S256x1024)
    (broadcastTo S256x1024 v9 broadcasts_S1x1024_S256x1024)

/-- The weights: `exp (0 - leaky score)` where the loaded entry of `adj` is nonzero, zero elsewhere. -/
private def st25 (v5 : Vec Ideal S256x128 .f32) (v6 : Vec Ideal S1x128 .f32) (v9 : Vec Ideal S1x1024 .f32)
    (v21 : Vec Ideal S256x1024 .i32) : FVec Ideal S256x1024 .f32 :=
  select (cmpi .ne v21 (broadcast S256x1024 0#32))
    (exp (subf (broadcast S256x1024 (Scalar.ofBits .f32 0x00000000#32 : Ideal .f32))
      (select (cmpf .oge (st12 v5 v6 v9) (broadcast S256x1024 (Scalar.ofBits .f32 0x00000000#32 : Ideal .f32)))
        (st12 v5 v6 v9)
        (mulf (broadcast S256x1024 (Scalar.ofBits .f32 0x3C23D70A#32 : Ideal .f32)) (st12 v5 v6 v9)))))
    (broadcast S256x1024 (Scalar.ofBits .f32 0x00000000#32 : Ideal .f32))

/-- The quotient payload is the weights against `h`, divided by the weights' row sums. -/
private theorem pay5_eq (v5 : Vec Ideal S256x128 .f32) (v6 : Vec Ideal S1x128 .f32) (v9 : Vec Ideal S1x1024 .f32)
    (v21 : Vec Ideal S256x1024 .i32) (v28 : Vec Ideal S1024x128 .f32) :
    k0_pay5 v5 v6 v9 v21 v28
      = divf (matmul (φ₁ := .f32) (φ₂ := .f32) dot_S256x1024_S1024x128_S256x128_1_0_0_1_n_n none (st25 v5 v6 v9 v21) v28
              (constant S256x128 .f32 0x00000000#32))
          (broadcastTo S256x128
            (shapeCast S256x1
              (multiReduction .add [1] S256 (st25 v5 v6 v9 v21) 0x00000000#32 reduces_S256x1024_S256 (.inl rfl) rfl)
              shapeCasts_S256_S256x1)
            broadcasts_S256x1_S256x128) := rfl

/-! ### The stages read at an entry -/

section
variable (x : Cert.Spec.SX.Idx → EReal) (adj : Cert.Spec.SA.Idx → BitVec 32) (W : Cert.Spec.SW.Idx → EReal)
  (a : Cert.Spec.Sa.Idx → EReal)
  (v5 : Vec Ideal S256x128 .f32) (v6 : Vec Ideal S1x128 .f32) (v9 : Vec Ideal S1x1024 .f32)
  (v21 : Vec Ideal S256x1024 .i32) (v28 : Vec Ideal S1024x128 .f32)
  (i : Fin 1024) (p : Fin 256)

/-- The column `f` at row `p` of the block is the score `f i` of row `i` of the array. -/
private theorem st8_apply
    (h5 : ∀ d : Fin 128, v5 (ix2 p d) = Cert.Spec.h x W i d)
    (h6 : ∀ d : Fin 128, v6 (ix2 (0 : Fin 1) d) = Cert.Spec.a1 a d) :
    st8 v5 v6 (ix2 p (0 : Fin 1)) = Cert.Spec.fsc x W a i := by
  unfold st8
  rw [shapeCast_self]
  refine (DotNT.matmul_zero_apply dot_S256x128_S1x128_S256x1_1_1_0_0_n_n ⟨rfl, rfl, rfl, rfl, rfl, rfl⟩ none
    v5 v6 p (0 : Fin 1)).trans ?_
  unfold Cert.Spec.fsc
  exact Finset.sum_congr rfl fun d _ => by rw [h5, h6]

/-- The score at `(p, k)` is `f i + g k`. -/
private theorem st12_apply
    (h5 : ∀ d : Fin 128, v5 (ix2 p d) = Cert.Spec.h x W i d)
    (h6 : ∀ d : Fin 128, v6 (ix2 (0 : Fin 1) d) = Cert.Spec.a1 a d)
    (h9 : ∀ j : Fin 1024, v9 (ix2 (0 : Fin 1) j) = Cert.Spec.gsc x W a j) (k : Fin 1024) :
    st12 v5 v6 v9 (ix2 p k) = Cert.Spec.fsc x W a i + Cert.Spec.gsc x W a k := by
  show broadcastTo S256x1024 (st8 v5 v6) broadcasts_S256x1_S256x1024 (ix2 p k)
      + broadcastTo S256x1024 v9 broadcasts_S1x1024_S256x1024 (ix2 p k) = _
  rw [broadcastTo_a1_ab_apply, broadcastTo_1b_ab_apply, st8_apply x W a v5 v6 i p h5 h6, h9]

/-- The weight at `(p, k)` is the dense weight `E i k`. -/
private theorem st25_apply
    (h5 : ∀ d : Fin 128, v5 (ix2 p d) = Cert.Spec.h x W i d)
    (h6 : ∀ d : Fin 128, v6 (ix2 (0 : Fin 1) d) = Cert.Spec.a1 a d)
    (h9 : ∀ j : Fin 1024, v9 (ix2 (0 : Fin 1) j) = Cert.Spec.gsc x W a j)
    (h21 : ∀ j : Fin 1024, v21 (ix2 p j) = adj (ix2 i j)) (k : Fin 1024) :
    st25 v5 v6 v9 v21 (ix2 p k) = Cert.Spec.E x adj W a i k := by
  have hs := st12_apply x W a v5 v6 v9 i p h5 h6 h9 k
  show Scalar.select (IntOp.cmpi .ne (v21 (ix2 p k)) 0#32)
      (Ideal.exp (Ideal.ofBits .f32 0x00000000#32
        - Scalar.select (Ideal.cmp .oge (st12 v5 v6 v9 (ix2 p k)) (Ideal.ofBits .f32 0x00000000#32))
            (st12 v5 v6 v9 (ix2 p k)) (Ideal.ofBits .f32 0x3C23D70A#32 * st12 v5 v6 v9 (ix2 p k))))
      (Ideal.ofBits .f32 0x00000000#32) = _
  rw [hs, h21, Cert.Consts.zero_f32, zero_sub]
  rfl

/-- The lane sum of the weights at row `p`. -/
private theorem rowsum_apply :
    multiReduction .add [1] S256 (st25 v5 v6 v9 v21) 0x00000000#32 reduces_S256x1024_S256 (.inl rfl) rfl (ix1 p)
      = ∑ k : Fin 1024, st25 v5 v6 v9 v21 (ix2 p k) := by
  refine (Ideal.multiReduction_add_single (st25 v5 v6 v9 v21) 0x00000000#32 reduces_S256x1024_S256 (.inl rfl) rfl
    (ix1 p)).trans ?_
  show ∑ k : Fin 1024, st25 v5 v6 v9 v21 (reduces_S256x1024_S256.lift (ix1 p) k) = _
  refine Finset.sum_congr rfl fun k _ => congrArg _ ?_
  funext ax
  match ax with
  | ⟨0, _⟩ => rfl
  | ⟨1, _⟩ => rfl

/-- The quotient at `(p, q)`: the dense form's numerator over its denominator. -/
private theorem pay5_apply
    (h5 : ∀ d : Fin 128, v5 (ix2 p d) = Cert.Spec.h x W i d)
    (h6 : ∀ d : Fin 128, v6 (ix2 (0 : Fin 1) d) = Cert.Spec.a1 a d)
    (h9 : ∀ j : Fin 1024, v9 (ix2 (0 : Fin 1) j) = Cert.Spec.gsc x W a j)
    (h21 : ∀ j : Fin 1024, v21 (ix2 p j) = adj (ix2 i j))
    (h28 : ∀ (j : Fin 1024) (d : Fin 128), v28 (ix2 j d) = Cert.Spec.h x W j d) (q : Fin 128) :
    k0_pay5 v5 v6 v9 v21 v28 (ix2 p q)
      = Ideal.div (Cert.Spec.num x adj W a i q) (Cert.Spec.den x adj W a i) := by
  rw [pay5_eq, divf_apply]
  refine congrArg₂ Ideal.div ?_ ?_
  · refine (PlainDot.matmul_zero_apply dot_S256x1024_S1024x128_S256x128_1_0_0_1_n_n ⟨rfl, rfl, rfl, rfl, rfl, rfl⟩
      none (st25 v5 v6 v9 v21) v28 p q).trans ?_
    unfold Cert.Spec.num
    exact Finset.sum_congr rfl fun k _ => by
      rw [st25_apply x adj W a v5 v6 v9 v21 i p h5 h6 h9 h21 k, h28]
  · refine (broadcastTo_a1_ab_apply _ broadcasts_S256x1_S256x128 p q).trans ?_
    refine (shapeCast_a_a1_apply _ shapeCasts_S256_S256x1 p (0 : Fin 1)).trans ?_
    refine (rowsum_apply v5 v6 v9 v21 p).trans ?_
    unfold Cert.Spec.den
    exact Finset.sum_congr rfl fun k _ => st25_apply x adj W a v5 v6 v9 v21 i p h5 h6 h9 h21 k

end

/-- The block a grid point writes, at row `p` of the block and column `q`: the dense form at row `i` of the array,
    when the loaded pieces are row `i` of `h` (`v5`), the first half of `a` (`v6`), the row `g` (`v9`), row `i` of
    `adj` (`v21`) and the whole of `h` (`v28`). -/
theorem out_apply (x : Cert.Spec.SX.Idx → EReal) (adj : Cert.Spec.SA.Idx → BitVec 32) (W : Cert.Spec.SW.Idx → EReal)
    (a : Cert.Spec.Sa.Idx → EReal)
    (v5 : Vec Ideal S256x128 .f32) (v6 : Vec Ideal S1x128 .f32) (v9 : Vec Ideal S1x1024 .f32)
    (v21 : Vec Ideal S256x1024 .i32) (v28 : Vec Ideal S1024x128 .f32)
    (i : Fin 1024) (p : Fin 256) (q : Fin 128)
    (h5 : ∀ d : Fin 128, v5 (ix2 p d) = Cert.Spec.h x W i d)
    (h6 : ∀ d : Fin 128, v6 (ix2 (0 : Fin 1) d) = Cert.Spec.a1 a d)
    (h9 : ∀ j : Fin 1024, v9 (ix2 (0 : Fin 1) j) = Cert.Spec.gsc x W a j)
    (h21 : ∀ j : Fin 1024, v21 (ix2 p j) = adj (ix2 i j))
    (h28 : ∀ (j : Fin 1024) (d : Fin 128), v28 (ix2 j d) = Cert.Spec.h x W j d) :
    k0_pay1 (k0_pay5 v5 v6 v9 v21 v28) (k0_pay6 v5 v6 v9 v21 v28) (k0_pay7 v5 v6 v9 v21 v28) (k0_pay8 (F := Ideal)) (ix2 p q)
      = Cert.Spec.outK x adj W a i q := by
  have hq := pay5_apply x adj W a v5 v6 v9 v21 v28 i p h5 h6 h9 h21 h28 q
  show Scalar.select (Ideal.cmp .ogt (k0_pay5 v5 v6 v9 v21 v28 (ix2 p q)) (Ideal.ofBits .f32 0x00000000#32))
      (k0_pay5 v5 v6 v9 v21 v28 (ix2 p q))
      (Ideal.exp (k0_pay5 v5 v6 v9 v21 v28 (ix2 p q)) - Ideal.ofBits .f32 0x3F800000#32) = _
  rw [hq, Cert.Consts.zero_f32, Cert.Consts.one_f32]
  rfl

end Cert.KernelIdeal.KPay

end
-- ==== Proof.KernelValue.lean ====
/-
  The kernel's run: every weakly fair execution terminates with the result array at the dense form of the four
  argument arrays, the arguments unchanged.  Grid point 0 fills the two carried scratches with `h = x · W` and
  `g = a2 · hᵀ`; every point `t` then writes rows `256 t … 256 t + 255` of the result from its block of `adj`.

  The steps.  Each control case leaves, in each buffer it stores into, one covering piece: its payload over what the
  loads read.  By induction over the grid points the two scratches hold `x · W` and `g` after every point.  The
  windows' blocks are entries of the argument arrays, by the index maps decided over the four points.  So what point
  `t` writes back is block `t` of the dense form, the four blocks cover the result array, and the array ends at the
  dense form.
-/
import proofs.«175874_g83193516523656_cont_sun_m_929_3_alg».proof.Proof.Gen.KernelIdeal.Value
import proofs.«175874_g83193516523656_cont_sun_m_929_3_alg».proof.Proof.Spec
import proofs.«175874_g83193516523656_cont_sun_m_929_3_alg».proof.Proof.KernelValuePay
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.ShloMosaic.ValueIdx Idealize.SL.Sem

/-! ## What each control case leaves, as payloads of what its loads read -/

section Pieces

variable {F : FTy → Type} [FloatOps F]

/-- The zero offsets of a whole-buffer access, however they are spelt. -/
theorem hz2 : (![0, 0] : Fin 2 → Nat) = fun _ => 0 := funext fun a => by fin_cases a <;> rfl

/-- The block a grid point writes, as one pure term of what its loads read: rows of the first scratch (`v5`), the
    first half of `a` (`v6`), the second scratch (`v9`), the block of `adj` (`v21`) and the whole first scratch (`v28`). -/
def blockOut (v5 : Vec F S256x128 .f32) (v6 : Vec F S1x128 .f32) (v9 : Vec F S1x1024 .f32) (v21 : Vec F S256x1024 .i32)
    (v28 : Vec F S1024x128 .f32) : Vec F S256x128 .f32 :=
  k0_pay1 (k0_pay5 v5 v6 v9 v21 v28) (k0_pay6 v5 v6 v9 v21 v28) (k0_pay7 v5 v6 v9 v21 v28) (k0_pay8 (F := F))

/-- The rows of a [1024,128] array that the point with coordinates `i` loads: 256 rows from the computed offset. -/
abbrev rowsAt (i : grid0.Coords) (X : Vec F S1024x128 .f32) : Vec F S256x128 .f32 :=
  View.ld X (Rect.unit (s := S1024x128) (k0_off1 i) S256x128.size (k0_off1_inb i))

/-- The first point leaves `x · W` in the first carried scratch. -/
theorem scratch0_first (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S256x1024 .i32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1x1024 .f32) (harg8 : arg8.IsWhole) (hc0 : cond0_0 i) (x0 : Vec F S1024x128 .f32) (x1 : Vec F S128x128 .f32) (x2 : Vec F S1x128 .f32) (x3 : Vec F S1x128 .f32) (x4 : Vec F S256x1024 .i32) :
    sout0_A_0 c i arg1 harg1 arg2 harg2 arg3 harg3 arg4 harg4 arg5 harg5 arg6 harg6 arg7 harg7 arg8 harg8 hc0 x0 x1 x2 x3 x4 = k0_pay3 x0 x1 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4)]
  unfold kernelRun0_A
  dsimp only
  sl_unfold_run_names
  rw [View.canon_unit_zero hz2]
  simp only [View.readAt_eq_ld, harg1.read_unread, harg2.read_unread, View.ld_unit_zero (S := S1024x128) hz2, View.ld_unit_zero (S := S128x128) hz2]

/-- The first point leaves the row `g` in the second carried scratch. -/
theorem scratch1_first (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S256x1024 .i32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1x1024 .f32) (harg8 : arg8.IsWhole) (hc0 : cond0_0 i) (x0 : Vec F S1024x128 .f32) (x1 : Vec F S128x128 .f32) (x2 : Vec F S1x128 .f32) (x3 : Vec F S1x128 .f32) (x4 : Vec F S256x1024 .i32) :
    sout0_A_1 c i arg1 harg1 arg2 harg2 arg3 harg3 arg4 harg4 arg5 harg5 arg6 harg6 arg7 harg7 arg8 harg8 hc0 x0 x1 x2 x3 x4 = k0_pay4 x0 x1 x3 := by
  unfold sout0_A_1
  rw [View.read_writes_eq_canon _ _ _ (scover0_A_1 c i arg1 harg1 arg2 harg2 arg3 harg3 arg4 harg4 arg5 harg5 arg6 harg6 arg7 harg7 arg8 harg8 hc0 x0 x1 x2 x3 x4)]
  unfold kernelRun0_A
  dsimp only
  sl_unfold_run_names
  rw [View.canon_unit_zero hz2]
  simp only [View.readAt_eq_ld, harg1.read_unread, harg2.read_unread, harg4.read_unread, View.ld_unit_zero (S := S1024x128) hz2, View.ld_unit_zero (S := S128x128) hz2, View.ld_unit_zero (S := S1x128) hz2]

/-- A later point writes the block computed from the scratches the point before left. -/
theorem out_later (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S256x1024 .i32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1x1024 .f32) (harg8 : arg8.IsWhole) (hc0 : ¬cond0_0 i) (x0 : Vec F S1024x128 .f32) (x1 : Vec F S128x128 .f32) (x2 : Vec F S1x128 .f32) (x3 : Vec F S1x128 .f32) (x4 : Vec F S256x1024 .i32) (xs0 : Vec F S1024x128 .f32) (xs1 : Vec F S1x1024 .f32) :
    out0_B_5 c i arg1 harg1 arg2 harg2 arg3 harg3 arg4 harg4 arg5 harg5 arg6 harg6 arg7 harg7 arg8 harg8 hc0 x0 x1 x2 x3 x4 xs0 xs1 = blockOut (rowsAt i xs0) x2 xs1 x4 xs0 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xs0 xs1)]
  unfold kernelRun0_B
  dsimp only
  sl_unfold_run_names
  rw [View.canon_unit_zero hz2]
  simp only [View.readAt_eq_ld, harg3.read_unread, harg5.read_unread, harg7.read_unread, harg8.read_unread, View.ld_unit_zero (S := S1024x128) hz2, View.ld_unit_zero (S := S1x128) hz2, View.ld_unit_zero (S := S1x1024) hz2, View.ld_unit_zero (S := S256x1024) hz2]
  unfold blockOut
  rfl

/-- The first point writes the block computed from the scratches it has just filled. -/
theorem out_first (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S256x1024 .i32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1x1024 .f32) (harg8 : arg8.IsWhole) (hc0 : cond0_0 i) (x0 : Vec F S1024x128 .f32) (x1 : Vec F S128x128 .f32) (x2 : Vec F S1x128 .f32) (x3 : Vec F S1x128 .f32) (x4 : Vec F S256x1024 .i32) :
    out0_A_5 c i arg1 harg1 arg2 harg2 arg3 harg3 arg4 harg4 arg5 harg5 arg6 harg6 arg7 harg7 arg8 harg8 hc0 x0 x1 x2 x3 x4 = blockOut (rowsAt i (k0_pay3 x0 x1)) x2 (k0_pay4 x0 x1 x3) x4 (k0_pay3 x0 x1) := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_run_names
  rw [View.canon_unit_zero hz2]
  simp only [View.readAt_eq_ld, View.read_writes_junk_eq_canon, View.canon_unit_zero (S := S1024x128) hz2, View.readCov_unit_zero (S := S1x1024) _ hz2, View.readCov_unit_zero (S := S1024x128) _ hz2, harg1.read_unread, harg2.read_unread, harg3.read_unread, harg4.read_unread, harg5.read_unread, View.ld_unit_zero (S := S1024x128) hz2, View.ld_unit_zero (S := S128x128) hz2, View.ld_unit_zero (S := S1x128) hz2, View.ld_unit_zero (S := S256x1024) hz2]
  unfold blockOut
  rfl

end Pieces

variable (m : (ℓ : Loc nD τ sig) → Buf (Elt Ideal) ℓ) (ρ : Dev nD → PrngReg)

/-- The dense form of the arguments device `c` holds. -/
def G (c : Dev nD) : S1024x128.Idx → EReal := fun y =>
  Cert.Spec.outK (m ((c.tc : Thread nD τ).loc main_arg0)) (m ((c.tc : Thread nD τ).loc main_arg1))
    (m ((c.tc : Thread nD τ).loc main_arg2)) (m ((c.tc : Thread nD τ).loc main_arg3)) (y 0) (y 1)

/-- The four argument arrays, at their literal types. -/
abbrev X (c : Dev nD) : Vec Ideal S1024x128 .f32 := m ((c.tc : Thread nD τ).loc main_arg0)
abbrev Adj (c : Dev nD) : Vec Ideal S1024x1024 .i32 := m ((c.tc : Thread nD τ).loc main_arg1)
abbrev Wt (c : Dev nD) : Vec Ideal S128x128 .f32 := m ((c.tc : Thread nD τ).loc main_arg2)
abbrev Av (c : Dev nD) : Vec Ideal S1x256 .f32 := m ((c.tc : Thread nD τ).loc main_arg3)

/-- The index maps and the row offset of the scratch load, decided over the four grid points: the four whole-array
    windows stay at block (0, 0); the `adj` window and the result window are at row block `t`; the scratch rows loaded
    start at row `256 t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ k0_off1 (grid0.coords t) (0 : Fin 2) = 256 * t.val ∧ k0_off1 (grid0.coords t) (1 : Fin 2) = 0 :=
  (by decide +kernel : ∀ t : Fin grid0.N, _)

/-! ## The windows' blocks as entries of the argument arrays -/

/-- The window over `x` holds all of `x` at every point. -/
theorem xblock_eq (c : Dev nD) (t : Fin cfg0.N) : (iblk m c 0 t : Vec Ideal S1024x128 .f32) = X m c := by
  obtain ⟨e0, e1, -⟩ := idx_facts t
  funext j
  show V m c main_arg0 (((cfg0.win 0).blk t).view.emb j) = X m c j
  rw [V_main_arg0]
  refine congrArg (X m c) (funext fun a => Fin.ext ?_)
  match a with
  | ⟨0, _⟩ => show win0_0.index t (0 : Fin 2) * 1024 + 1 * (j 0).val = (j 0).val; rw [e0]; omega
  | ⟨1, _⟩ => show win0_0.index t (1 : Fin 2) * 128 + 1 * (j 1).val = (j 1).val; rw [e1]; omega

/-- The window over `W` holds all of `W` at every point. -/
theorem wblock_eq (c : Dev nD) (t : Fin cfg0.N) : (iblk m c 1 t : Vec Ideal S128x128 .f32) = Wt m c := by
  obtain ⟨-, -, e0, e1, -⟩ := idx_facts t
  funext j
  show V m c main_arg2 (((cfg0.win 1).blk t).view.emb j) = Wt m c j
  rw [V_main_arg2]
  refine congrArg (Wt m c) (funext fun a => Fin.ext ?_)
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- The first host slice is the first half of `a`. -/
theorem slice0_eq (c : Dev nD) : (V m c main_v0 : S1x128.Idx → EReal)
    = extractStridedSlice S1x128 ![0, 0] (Av m c) Gen.slices_S1x256_S1x128_0_0 := by
  dsimp only [Gen.V, Gen.hostOps0]; after_results

/-- The second host slice is the second half of `a`. -/
theorem slice1_eq (c : Dev nD) : (V m c main_v1 : S1x128.Idx → EReal)
    = extractStridedSlice S1x128 ![0, 128] (Av m c) Gen.slices_S1x256_S1x128_0_128 := by
  dsimp only [Gen.V, Gen.hostOps0]; after_results

/-- The window over the first slice reads the first half of `a`. -/
theorem a1block_apply (c : Dev nD) (t : Fin cfg0.N) (d : Fin 128) :
    (iblk m c 2 t : Vec Ideal S1x128 .f32) (ix2 (0 : Fin 1) d) = Cert.Spec.a1 (Av m c) d := by
  obtain ⟨-, -, -, -, e0, e1, -⟩ := idx_facts t
  show V m c main_v0 (((cfg0.win 2).blk t).view.emb (ix2 (0 : Fin 1) d)) = _
  rw [slice0_eq]
  unfold extractStridedSlice Cert.Spec.a1
  refine congrArg (Av m c) (funext fun a => Fin.ext ?_)
  match a with
  | ⟨0, _⟩ => show 0 + (win0_2.index t (0 : Fin 2) * 1 + 1 * 0) = 0; rw [e0]
  | ⟨1, _⟩ => show 0 + (win0_2.index t (1 : Fin 2) * 128 + 1 * d.val) = d.val; rw [e1]; omega

/-- The window over the second slice reads the second half of `a`. -/
theorem a2block_apply (c : Dev nD) (t : Fin cfg0.N) (d : Fin 128) :
    (iblk m c 3 t : Vec Ideal S1x128 .f32) (ix2 (0 : Fin 1) d) = Cert.Spec.a2 (Av m c) d := by
  obtain ⟨-, -, -, -, -, -, e0, e1, -⟩ := idx_facts t
  show V m c main_v1 (((cfg0.win 3).blk t).view.emb (ix2 (0 : Fin 1) d)) = _
  rw [slice1_eq]
  unfold extractStridedSlice Cert.Spec.a2
  refine congrArg (Av m c) (funext fun a => Fin.ext ?_)
  match a with
  | ⟨0, _⟩ => show 0 + (win0_3.index t (0 : Fin 2) * 1 + 1 * 0) = 0; rw [e0]
  | ⟨1, _⟩ => show 128 + (win0_3.index t (1 : Fin 2) * 128 + 1 * d.val) = 128 + d.val; rw [e1]; omega

/-- The window over `adj` holds rows `256 t … 256 t + 255` at point `t`. -/
theorem adjblock_apply (c : Dev nD) (t : Fin cfg0.N) (i : Fin 1024) (p : Fin 256) (hi : i.val = 256 * t.val + p.val) (j : Fin 1024) :
    (iblk m c 4 t : Vec Ideal S256x1024 .i32) (ix2 p j) = Adj m c (ix2 i j) := by
  obtain ⟨-, -, -, -, -, -, -, -, e0, e1, -⟩ := idx_facts t
  show V m c main_arg1 (((cfg0.win 4).blk t).view.emb (ix2 p j)) = _
  rw [V_main_arg1]
  refine congrArg (Adj m c) (funext fun a => Fin.ext ?_)
  match a with
  | ⟨0, _⟩ => show win0_4.index t (0 : Fin 2) * 256 + 1 * p.val = i.val; rw [e0, hi]; omega
  | ⟨1, _⟩ => show win0_4.index t (1 : Fin 2) * 1024 + 1 * j.val = j.val; rw [e1]; omega

/-- The rows of a [1024,128] array loaded at point `t` are rows `256 t … 256 t + 255`. -/
theorem rowsAt_apply (t : Fin cfg0.N) (Y : Vec Ideal S1024x128 .f32) (i : Fin 1024) (p : Fin 256)
    (hi : i.val = 256 * t.val + p.val) (d : Fin 128) : rowsAt (grid0.coords t) Y (ix2 p d) = Y (ix2 i d) := by
  obtain ⟨-, -, -, -, -, -, -, -, -, -, -, -, e0, e1⟩ := idx_facts t
  show Y ((Rect.unit (s := S1024x128) (k0_off1 (grid0.coords t)) S256x128.size (k0_off1_inb (grid0.coords t))).idx (ix2 p d)) = _
  refine congrArg Y (funext fun a => Fin.ext ?_)
  match a with
  | ⟨0, _⟩ => show k0_off1 (grid0.coords t) (0 : Fin 2) + 1 * p.val = i.val; rw [e0, hi]; omega
  | ⟨1, _⟩ => show k0_off1 (grid0.coords t) (1 : Fin 2) + 1 * d.val = d.val; rw [e1]; omega

/-! ## The carried scratches -/

/-- After every grid point the first carried scratch holds `x · W` and the second holds the row `g`: the first point
    stores them, the later points leave them alone. -/
theorem scratch_eq (c : Dev nD) : ∀ (n : ℕ) (hn : n < cfg0.N),
    (outsAt0 m c n hn).2.1 = k0_pay3 (X m c) (Wt m c)
    ∧ (outsAt0 m c n hn).2.2 = k0_pay4 (X m c) (Wt m c) (iblk m c 3 ⟨0, lt_of_le_of_lt (Nat.zero_le n) hn⟩)
  | 0, hn => by
    rw [outsAt0_A m c ⟨0, hn⟩ rfl]
    dsimp only
    rw [scratch0_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
      scratch1_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
      xblock_eq m c ⟨0, hn⟩, wblock_eq m c ⟨0, hn⟩]
    exact ⟨rfl, rfl⟩
  | n + 1, hn => by
    have hN : cfg0.N = 4 := N_0
    have hB : ¬(⟨n + 1, hn⟩ : Fin cfg0.N).val % 4 = 0 := by dsimp only; omega
    rw [outsAt0_B m c ⟨n + 1, hn⟩ hB]
    dsimp only
    unfold sout0_B_0 sout0_B_1
    exact scratch_eq c n (Nat.lt_of_succ_lt hn)

/-- The first carried scratch, at an entry, after any point. -/
theorem scratch0_apply (c : Dev nD) (n : ℕ) (hn : n < cfg0.N) (r : Fin 1024) (d : Fin 128) :
    (outsAt0 m c n hn).2.1 (ix2 r d) = Cert.Spec.h (X m c) (Wt m c) r d := by
  rw [(scratch_eq m c n hn).1]
  exact KPay.pay3_apply (X m c) (Wt m c) r d

/-- The second carried scratch, at an entry, after any point. -/
theorem scratch1_apply (c : Dev nD) (n : ℕ) (hn : n < cfg0.N) (j : Fin 1024) :
    (outsAt0 m c n hn).2.2 (ix2 (0 : Fin 1) j) = Cert.Spec.gsc (X m c) (Wt m c) (Av m c) j := by
  rw [(scratch_eq m c n hn).2]
  exact KPay.pay4_apply (X m c) (Wt m c) (Av m c) _ (a2block_apply m c _) 0 j

/-! ## What a point writes back -/

/-- The block computed at point `t` from loads that read rows `256 t …` of `h`, the first half of `a`, the row `g`,
    rows `256 t …` of `adj` and the whole of `h`, cut to the result window, is the window's block of the dense form. -/
theorem block_eq (c : Dev nD) (t : Fin cfg0.N)
    (v5 : Vec Ideal S256x128 .f32) (v6 : Vec Ideal S1x128 .f32) (v9 : Vec Ideal S1x1024 .f32)
    (v21 : Vec Ideal S256x1024 .i32) (v28 : Vec Ideal S1024x128 .f32)
    (h5 : ∀ (i : Fin 1024) (p : Fin 256), i.val = 256 * t.val + p.val → ∀ d : Fin 128, v5 (ix2 p d) = Cert.Spec.h (X m c) (Wt m c) i d)
    (h6 : ∀ d : Fin 128, v6 (ix2 (0 : Fin 1) d) = Cert.Spec.a1 (Av m c) d)
    (h9 : ∀ j : Fin 1024, v9 (ix2 (0 : Fin 1) j) = Cert.Spec.gsc (X m c) (Wt m c) (Av m c) j)
    (h21 : ∀ (i : Fin 1024) (p : Fin 256), i.val = 256 * t.val + p.val → ∀ j : Fin 1024, v21 (ix2 p j) = Adj m c (ix2 i j))
    (h28 : ∀ (j : Fin 1024) (d : Fin 128), v28 (ix2 j d) = Cert.Spec.h (X m c) (Wt m c) j d) :
    (cfg0.win 5).cut (grid0.coords t) (blockOut v5 v6 v9 v21 v28) = ((cfg0.win 5).blk t).view.read (Elt Ideal) (G m c) := by
  obtain ⟨-, -, -, -, -, -, -, -, -, -, e0, e1, -⟩ := idx_facts t
  have hN : t.val < 4 := lt_of_lt_of_eq t.isLt (show cfg0.N = 4 from N_0)
  funext j
  show blockOut v5 v6 v9 v21 v28 j = G m c (((cfg0.win 5).blk t).view.emb j)
  have hp : (j 0).val < 256 := (j 0).isLt
  have hq : (j 1).val < 128 := (j 1).isLt
  have hemb : ((cfg0.win 5).blk t).view.emb j
      = ix2 (⟨256 * t.val + (j 0).val, by omega⟩ : Fin 1024) (⟨(j 1).val, hq⟩ : Fin 128) := by
    funext a; apply Fin.ext
    match a with
    | ⟨0, _⟩ => show win0_5.index t (0 : Fin 2) * 256 + 1 * (j 0).val = 256 * t.val + (j 0).val; rw [e0]; omega
    | ⟨1, _⟩ => show win0_5.index t (1 : Fin 2) * 128 + 1 * (j 1).val = (j 1).val; rw [e1]; omega
  rw [hemb]
  have hj : j = ix2 (⟨(j 0).val, hp⟩ : Fin 256) (⟨(j 1).val, hq⟩ : Fin 128) := by
    funext a; match a with | ⟨0, _⟩ => rfl | ⟨1, _⟩ => rfl
  refine (congrArg (blockOut v5 v6 v9 v21 v28) hj).trans ?_
  exact KPay.out_apply (X m c) (Adj m c) (Wt m c) (Av m c) v5 v6 v9 v21 v28 _ _ _
    (h5 _ _ rfl) h6 h9 (h21 _ _ rfl) h28

/-- What point `t` writes back is the window's block of the dense form. -/
theorem flushed_eq (c : Dev nD) (t : Fin cfg0.N) :
    (dats m 0 c).flushed 5 t = ((cfg0.win 5).blk t).view.read (Elt Ideal) (G m c) := by
  have hN : t.val < 4 := lt_of_lt_of_eq t.isLt (show cfg0.N = 4 from N_0)
  by_cases h0 : t.val % 4 = 0
  · rw [Value.flushed5_A m c t h0,
      out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t),
      xblock_eq m c t, wblock_eq m c t]
    refine block_eq m c t _ _ _ _ _ (fun i p hi d => ?_) (a1block_apply m c t) (fun j => ?_) (fun i p hi j => adjblock_apply m c t i p hi j)
      (fun j d => KPay.pay3_apply (X m c) (Wt m c) j d)
    · rw [rowsAt_apply t _ i p hi d]
      exact KPay.pay3_apply (X m c) (Wt m c) i d
    · exact KPay.pay4_apply (X m c) (Wt m c) (Av m c) _ (a2block_apply m c t) 0 j
  · rw [Value.flushed5_B m c t h0,
      out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t)
        (outsAt0 m c (t.val - 1) (Nat.lt_of_le_of_lt (Nat.sub_le _ _) t.isLt)).2.1
        (outsAt0 m c (t.val - 1) (Nat.lt_of_le_of_lt (Nat.sub_le _ _) t.isLt)).2.2]
    refine block_eq m c t _ _ _ _ _ (fun i p hi d => ?_) (a1block_apply m c t) (fun j => scratch1_apply m c _ _ j)
      (fun i p hi j => adjblock_apply m c t i p hi j) (fun j d => scratch0_apply m c _ _ j d)
    rw [rowsAt_apply t _ i p hi d]
    exact scratch0_apply m c _ _ i d

/-! ## The result array -/

/-- An index of the result array is in point `t`'s block iff each coordinate is in the block's range on its axis. -/
theorem mem_block (t : Fin cfg0.N) (i : S1024x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v2).slice (win0_5.rect t)).set ↔ _
  rw [View.set_slice_whole, Rect.mem_set_unit]
  exact Iff.rfl

/-- Row `r` of the result is written back by point `r / 256`. -/
theorem row_covered (i : S1024x128.Idx) : ∃ t : Fin cfg0.N, (cfg0.win 5).flush t = true ∧ i ∈ ((cfg0.win 5).blk t).view.set := by
  have hi0 : (i 0).val < 1024 := (i 0).isLt
  have hi1 : (i 1).val < 128 := (i 1).isLt
  have hN : cfg0.N = 4 := N_0
  refine ⟨⟨(i 0).val / 256, by omega⟩, flush0_5 _, ?_⟩
  obtain ⟨-, -, -, -, -, -, -, -, -, -, e0, e1, -⟩ := idx_facts ⟨(i 0).val / 256, by omega⟩
  rw [mem_block]
  intro a
  match a with
  | ⟨0, _⟩ =>
    show win0_5.index _ (0 : Fin 2) * 256 ≤ (i 0).val ∧ (i 0).val < win0_5.index _ (0 : Fin 2) * 256 + 256
    rw [e0]; dsimp only; omega
  | ⟨1, _⟩ =>
    show win0_5.index _ (1 : Fin 2) * 128 ≤ (i 1).val ∧ (i 1).val < win0_5.index _ (1 : Fin 2) * 128 + 128
    rw [e1]; omega

/-- So the result array ends holding the dense form. -/
theorem result_eq (c : Dev nD) : (dats m 0 c).arrAt 5 cfg0.N = G m c :=
  (dats m 0 c).arrAt_eq_of_cover 5 (G m c) (fun t _ => flushed_eq m c t) row_covered

theorem run : θ_run (defs (F := Ideal)) (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (result_eq m c), (h c).2⟩) (Value.run_blocks m ρ)

end Cert.KernelIdeal.KValue

end
-- ==== Proof.RefStages.lean ====
/-
  The reference's result as ONE function of the four argument arrays, stage by stage.

  The reference computes the graph-attention layer from an EDGE LIST.  `jnp.nonzero(adj, size = n², fill_value = 0)`
  is: the inclusive prefix count `c` of the flattened mask `adj ≠ 0`; the histogram `b[k] = #{p | c[p] = k}`
  (a scatter-add of ones); its inclusive prefix sum `q[k] = #{p | c[p] ≤ k}`, which for `k` below the number of
  nonzeros is the flat position of the `k`-th nonzero and is `n²` beyond; the row `(q / n) mod n` and the column
  `q mod n`, with the entries from the count on replaced by `0`.  Then `h = x · W`, the edge score
  `a · [h[src]; h[dst]]`, the edge weight `exp (- leaky_relu score)` masked to the valid edges, the two
  segment sums over `src` (scatter-adds into zeros), their quotient and `elu`.
  Every definition below is one stage, written with the same operations the printed program applies.
-/
import proofs.«175874_g83193516523656_cont_sun_m_929_3_alg».proof.Proof.Gen.ReferenceIdeal

noncomputable section

namespace Cert.ReferenceIdeal.Stages

open Idealize.ShloMosaic Cert.ReferenceIdeal Cert.ReferenceIdeal.Facts₀

variable {F : FTy → Type} [FloatOps F]

/-- A rank-zero integer constant spread over the flat edge axis. -/
def splatE (c : IVec S_ 32) : IVec S1048576 32 := broadcastInDim S1048576 ![] bcast_S_S1048576 c

/-- The mask `adj ≠ 0`, one bit per entry. -/
def mask (adj : IVec S1024x1024 32) : IVec S1024x1024 1 :=
  cmpi .ne adj (broadcastInDim S1024x1024 ![] bcast_S_S1024x1024 (constantI S_ 32 0#32))

/-- The mask flattened row-major and widened to 0/1 words. -/
def maskFlat (adj : IVec S1024x1024 32) : IVec S1048576 32 :=
  extui 32 (shapeCast S1048576 (mask adj) shapeCasts_S1024x1024_S1048576) natLt_1_32

/-- Inclusive prefix sum along the flat axis: a window of the whole length, padded below by the length less one. -/
def cumsum0 (x : IVec S1048576 32) : IVec S1048576 32 :=
  Host.reduceWindow IntOp.addi ![1048576] ![1] ![1048575] ![0] x
    (broadcastInDim S_ ![] bcast_S_S_ (constantI S_ 32 0#32))
    reduceWindows_S1048576_S1048576_w1048576s1p1048575_0 h_S_

/-- `c[p]`: the number of nonzeros at flat positions `≤ p`. -/
def cum1 (adj : IVec S1024x1024 32) : IVec S1048576 32 := cumsum0 (maskFlat adj)

/-- A negative index counted from the end of an axis of length `n`. -/
def wrap (n : BitVec 32) (x : IVec S1048576 32) : IVec S1048576 32 :=
  select (cmpi .slt x (splatE (constantI S_ 32 0#32))) (addi x (splatE (constantI S_ 32 n))) x

/-- The histogram's bucket of each flat position: `max 0 c[p]`, negative values wrapped. -/
def bucket (adj : IVec S1024x1024 32) : IVec S1048576 32 :=
  wrap 1048576#32 (maxsi (splatE (constantI S_ 32 0#32)) (cum1 adj))

/-- `b[k] = #{p | c[p] = k}`: ones added into zeros at the buckets (a bucket outside the axis is dropped). -/
def binc (adj : IVec S1024x1024 32) : IVec S1048576 32 :=
  Host.scatter scatter_S1048576_S1048576x1_S1048576_n_0_0_1 IntOp.addi (splatE (constantI S_ 32 0#32))
    (broadcastInDim S1048576x1 ![0] bcast_S1048576_S1048576x1_0 (bucket adj)) (splatE (constantI S_ 32 1#32))

/-- `q[k] = #{p | c[p] ≤ k}`. -/
def cum2 (adj : IVec S1024x1024 32) : IVec S1048576 32 := cumsum0 (binc adj)

/-- jnp's floor division by a scalar: the truncated quotient, less one where the signs differ and the division is inexact. -/
def floorDiv (x : IVec S1048576 32) (c : IVec S_ 32) : IVec S1048576 32 :=
  select
    (andi (cmpi .ne (signi x) (splatE (signi c)))
          (cmpi .ne (Host.remsi x (splatE c)) (splatE (constantI S_ 32 0#32))))
    (subi (Host.divsi x (splatE c)) (splatE (constantI S_ 32 1#32)))
    (Host.divsi x (splatE c))

/-- The divisor jnp's remainder really uses: `1` in place of `0`. -/
def safeDivisor (c : IVec S_ 32) : IVec S_ 32 :=
  select (cmpi .eq c (constantI S_ 32 0#32)) (constantI S_ 32 1#32) c

/-- jnp's remainder by a scalar: the truncated remainder, plus the divisor where it is nonzero and of the other sign. -/
def remainder (x : IVec S1048576 32) (c : IVec S_ 32) : IVec S1048576 32 :=
  select
    (andi (cmpi .ne (cmpi .slt (Host.remsi x (splatE (safeDivisor c))) (splatE (constantI S_ 32 0#32)))
                    (broadcastInDim S1048576 ![] bcast_S_S1048576 (cmpi .slt (safeDivisor c) (constantI S_ 32 0#32))))
          (cmpi .ne (Host.remsi x (splatE (safeDivisor c))) (splatE (constantI S_ 32 0#32))))
    (addi (Host.remsi x (splatE (safeDivisor c))) (splatE (safeDivisor c)))
    (Host.remsi x (splatE (safeDivisor c)))

/-- The row of the `k`-th entry of `q`: `(q / 1024) mod 1024`. -/
def srcRaw (adj : IVec S1024x1024 32) : IVec S1048576 32 :=
  remainder (floorDiv (cum2 adj) (constantI S_ 32 1024#32)) (constantI S_ 32 1024#32)

/-- Its column: `(q / 1) mod 1024`. -/
def dstRaw (adj : IVec S1024x1024 32) : IVec S1048576 32 :=
  remainder (floorDiv (cum2 adj) (constantI S_ 32 1#32)) (constantI S_ 32 1024#32)

/-- The number of nonzeros of `adj`. -/
def cnt (adj : IVec S1024x1024 32) : IVec S_ 32 :=
  Host.reduce IntOp.addi (extui 32 (mask adj) natLt_1_32) (constantI S_ 32 0#32) reducesTo_S1024x1024_S_d0_1 h_S_

/-- Entries from the count on are replaced by the fill value `0`. -/
def fill (adj : IVec S1024x1024 32) (x : IVec S1048576 32) : IVec S1048576 32 :=
  select (cmpi .sge (iotaInDim S1048576 32 0) (splatE (cnt adj))) (splatE (constantI S_ 32 0#32)) x

/-- The edge list's rows. -/
def src (adj : IVec S1024x1024 32) : IVec S1048576 32 := fill adj (srcRaw adj)
/-- The edge list's columns. -/
def dst (adj : IVec S1024x1024 32) : IVec S1048576 32 := fill adj (dstRaw adj)

/-- Edge `k` is a real edge: `k` is below the count. -/
def valid (adj : IVec S1024x1024 32) : IVec S1048576 1 :=
  cmpi .slt (iotaInDim S1048576 32 0) (splatE (cnt adj))

/-- `h = x · W`. -/
def hmat (x : FVec F S1024x128 .f32) (W : FVec F S128x128 .f32) : FVec F S1024x128 .f32 :=
  Host.dotGeneral dot_S1024x128_S128x128_S1024x128_1_0_0_1_n_n none x W

/-- The rows of `h` named by an index vector (a negative index counted from the end). -/
def rowsOf (h : FVec F S1024x128 .f32) (idx : IVec S1048576 32) : FVec F S1048576x128 .f32 :=
  Host.gather gather_S1024x128_S1048576x1_S1048576x128_1_0_n_n_0_1_1128 h
    (broadcastInDim S1048576x1 ![0] bcast_S1048576_S1048576x1_0 (wrap 1024#32 idx))

/-- The edge score `a · [h[src]; h[dst]]`. -/
def score (h : FVec F S1024x128 .f32) (a : FVec F S1x256 .f32) (s d : IVec S1048576 32) : FVec F S1048576 .f32 :=
  shapeCast S1048576
    (Host.dotGeneral dot_S1x256_S256x1048576_S1x1048576_1_0_0_1_n_n none a
      (transpose S256x1048576 [1, 0]
        (concatenate S1048576x256 1 [⟨S1048576x128, rowsOf h s⟩, ⟨S1048576x128, rowsOf h d⟩]
          concatenates_S1048576x128_S1048576x128_S1048576x256_d1)
        transposes_S1048576x256_S256x1048576_1_0))
    shapeCasts_S1x1048576_S1048576

/-- A rank-zero float constant spread over the flat edge axis. -/
def splatEf (c : FVec F S_ .f32) : FVec F S1048576 .f32 := broadcastInDim S1048576 ![] bcast_S_S1048576 c

/-- `leaky_relu` with slope `0.01` (as an f32 literal). -/
def leaky (s : FVec F S1048576 .f32) : FVec F S1048576 .f32 :=
  select (cmpf .oge s (splatEf (constant S_ .f32 0x00000000#32))) s (mulf (splatEf (constant S_ .f32 0x3C23D70A#32)) s)

/-- The edge weight: `exp (- leaky_relu score)` on the valid edges, zero on the rest. -/
def edgeE (v : IVec S1048576 1) (sc : FVec F S1048576 .f32) : FVec F S1048576 .f32 :=
  select v (Host.exp (Host.negf (leaky sc))) (splatEf (constant S_ .f32 0x00000000#32))

/-- The index vector as a column of start indices. -/
def col (s : IVec S1048576 32) : IVec S1048576x1 32 := broadcastInDim S1048576x1 ![0] bcast_S1048576_S1048576x1_0 s

/-- The row sums of the edge weights: a segment sum over `src`. -/
def rowsum (s : IVec S1048576 32) (e : FVec F S1048576 .f32) : FVec F S1024 .f32 :=
  Host.scatterAdd scatter_S1024_S1048576x1_S1048576_n_0_0_1
    (broadcastInDim S1024 ![] bcast_S_S1024 (constant S_ .f32 0x00000000#32)) (col s) e

/-- The weighted neighbour sums: a segment sum over `src` of `e[k] · h[dst[k], :]`. -/
def numer (h : FVec F S1024x128 .f32) (s d : IVec S1048576 32) (e : FVec F S1048576 .f32) : FVec F S1024x128 .f32 :=
  Host.scatterAdd scatter_S1024x128_S1048576x1_S1048576x128_1_0_0_1
    (broadcastInDim S1024x128 ![] bcast_S_S1024x128 (constant S_ .f32 0x00000000#32)) (col s)
    (mulf (broadcastInDim S1048576x128 ![0, 1] bcast_S1048576x1_S1048576x128_0_1
            (broadcastInDim S1048576x1 ![0] bcast_S1048576_S1048576x1_0 e))
          (rowsOf h d))

/-- The quotient, each row by its row sum. -/
def quot (nu : FVec F S1024x128 .f32) (rs : FVec F S1024 .f32) : FVec F S1024x128 .f32 :=
  Host.divf nu (broadcastInDim S1024x128 ![0, 1] bcast_S1024x1_S1024x128_0_1
    (broadcastInDim S1024x1 ![0] bcast_S1024_S1024x1_0 rs))

/-- A rank-zero float constant spread over the result's shape. -/
def splatO (c : FVec F S_ .f32) : FVec F S1024x128 .f32 := broadcastInDim S1024x128 ![] bcast_S_S1024x128 c

/-- `elu`: the value where positive, else `1 · expm1` of it (`expm1` taken of `0` where the value is positive). -/
def elu (q : FVec F S1024x128 .f32) : FVec F S1024x128 .f32 :=
  select (cmpf .ogt q (splatO (constant S_ .f32 0x00000000#32))) q
    (mulf (splatO (constant S_ .f32 0x3F800000#32))
      (Host.expm1 (select (cmpf .ogt q (splatO (constant S_ .f32 0x00000000#32)))
        (splatO (constant S_ .f32 0x00000000#32)) q)))

/-- The reference's result. -/
def out (x : FVec F S1024x128 .f32) (adj : IVec S1024x1024 32) (W : FVec F S128x128 .f32) (a : FVec F S1x256 .f32) :
    FVec F S1024x128 .f32 :=
  elu (quot (numer (hmat x W) (src adj) (dst adj) (edgeE (valid adj) (score (hmat x W) a (src adj) (dst adj))))
            (rowsum (src adj) (edgeE (valid adj) (score (hmat x W) a (src adj) (dst adj)))))

end Cert.ReferenceIdeal.Stages

end
-- ==== Proof.RefRunOps.lean ====
/-
  The reference's @main as the list of its 204 host operations in execution order: each call of an outlined function
  is replaced by the callee's operations over that call's buffer record, a nested call likewise.
-/
import proofs.«175874_g83193516523656_cont_sun_m_929_3_alg».proof.Proof.Gen.ReferenceIdeal
import Idealize.ShloMosaic.Lib.StableHlo.Run

noncomputable section

namespace Cert.ReferenceIdeal.Run

open Idealize.ShloMosaic Idealize.ShloMosaic.TcCoe Idealize.ShloMosaic.StableHlo Idealize.SL.Sem Cert.ReferenceIdeal Cert.ReferenceIdeal.Facts₀

variable {F : FTy → Type} [FloatOps F]

/-- @main's 204 operations, in order, the calls unfolded. -/
abbrev ops : List (HloOp τ sig (Elt F)) :=
  [ StableHlo.nullary main_c (constantI S_ 32 0#32),
    StableHlo.unary main_c main_v0 (broadcastInDim S1024x1024 ![] bcast_S_S1024x1024 : (⟨S_, .i32⟩ : BufTy).Contents (Elt F) → (⟨S1024x1024, .i32⟩ : BufTy).Contents (Elt F)),
    StableHlo.binary main_arg1 main_v0 main_v1 (cmpi .ne : (⟨S1024x1024, .i32⟩ : BufTy).Contents (Elt F) → (⟨S1024x1024, .i32⟩ : BufTy).Contents (Elt F) → (⟨S1024x1024, .i1⟩ : BufTy).Contents (Elt F)),
    StableHlo.TRef.reshape (.of main_v1 : StableHlo.TRef sig ⟨S1024x1024, .i1⟩) main_call0.v0 rfl shapeCasts_S1024x1024_S1048576,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![1048576] ![1] ![1048575] ![0] x v reduceWindows_S1048576_S1048576_w1048576s1p1048575_0 h_S_),
    StableHlo.nullary main_c_0 (constantI S_ 32 0#32),
    StableHlo.unary main_c_0 main_v3 (broadcastInDim S1048576 ![] bcast_S_S1048576 : (⟨S_, .i32⟩ : BufTy).Contents (Elt F) → (⟨S1048576, .i32⟩ : BufTy).Contents (Elt F)),
    StableHlo.nullary main_c_1 (constantI S_ 32 0#32),
    StableHlo.TRef.unary (.of main_c_1 : StableHlo.TRef sig ⟨S_, .i32⟩) main_call1.v0 id,
    StableHlo.TRef.unary main_call1.v0 main_call1.v1 (broadcastInDim S1048576 ![] bcast_S_S1048576),
    StableHlo.TRef.binary main_call1.v1 (.of main_v2 : StableHlo.TRef sig ⟨S1048576, .i32⟩) main_call1.v2 maxsi,
    StableHlo.nullary main_c_2 (constantI S_ 32 0#32),
    StableHlo.unary main_c_2 main_v5 (broadcastInDim S1048576 ![] bcast_S_S1048576 : (⟨S_, .i32⟩ : BufTy).Contents (Elt F) → (⟨S1048576, .i32⟩ : BufTy).Contents (Elt F)),
    StableHlo.binary main_v4 main_v5 main_v6 (cmpi .slt : (⟨S1048576, .i32⟩ : BufTy).Contents (Elt F) → (⟨S1048576, .i32⟩ : BufTy).Contents (Elt F) → (⟨S1048576, .i1⟩ : BufTy).Contents (Elt F)),
    StableHlo.nullary main_c_3 (constantI S_ 32 1048576#32),
    StableHlo.unary main_c_3 main_v7 (broadcastInDim S1048576 ![] bcast_S_S1048576 : (⟨S_, .i32⟩ : BufTy).Contents (Elt F) → (⟨S1048576, .i32⟩ : BufTy).Contents (Elt F)),
    StableHlo.binary main_v4 main_v7 main_v8 (addi : (⟨S1048576, .i32⟩ : BufTy).Contents (Elt F) → (⟨S1048576, .i32⟩ : BufTy).Contents (Elt F) → (⟨S1048576, .i32⟩ : BufTy).Contents (Elt F)),
    StableHlo.ternary main_v6 main_v8 main_v4 main_v9 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v9 main_v10 (broadcastInDim S1048576x1 ![0] bcast_S1048576_S1048576x1_0 : (⟨S1048576, .i32⟩ : BufTy).Contents (Elt F) → (⟨S1048576x1, .i32⟩ : BufTy).Contents (Elt F)),
    StableHlo.nullary main_c_4 (constantI S_ 32 1#32),
    StableHlo.unary main_c_4 main_v11 (broadcastInDim S1048576 ![] bcast_S_S1048576 : (⟨S_, .i32⟩ : BufTy).Contents (Elt F) → (⟨S1048576, .i32⟩ : BufTy).Contents (Elt F)),
    StableHlo.ternary main_v3 main_v10 main_v11 main_v12 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v12 : StableHlo.TRef sig ⟨S1048576, .i32⟩) main_call2.call0.v0 main_call2.call0.v1 (fun x v => Host.reduceWindow IntOp.addi ![1048576] ![1] ![1048575] ![0] x v reduceWindows_S1048576_S1048576_w1048576s1p1048575_0 h_S_),
    StableHlo.nullary main_c_5 (constantI S_ 32 1024#32),
    StableHlo.TRef.unary (.of main_c_5 : StableHlo.TRef sig ⟨S_, .i32⟩) main_call3.v0 (broadcastInDim S1048576 ![] bcast_S_S1048576),
    StableHlo.TRef.binary (.of main_v13 : StableHlo.TRef sig ⟨S1048576, .i32⟩) main_call3.v0 main_call3.v1 Host.divsi,
    StableHlo.TRef.unary (.of main_v13 : StableHlo.TRef sig ⟨S1048576, .i32⟩) main_call3.v2 signi,
    StableHlo.TRef.unary (.of main_c_5 : StableHlo.TRef sig ⟨S_, .i32⟩) main_call3.v3 signi,
    StableHlo.TRef.unary main_call3.v3 main_call3.v4 (broadcastInDim S1048576 ![] bcast_S_S1048576),
    StableHlo.TRef.binary main_call3.v2 main_call3.v4 main_call3.v5 (cmpi .ne),
    StableHlo.TRef.unary (.of main_c_5 : StableHlo.TRef sig ⟨S_, .i32⟩) main_call3.v6 (broadcastInDim S1048576 ![] bcast_S_S1048576),
    StableHlo.TRef.binary (.of main_v13 : StableHlo.TRef sig ⟨S1048576, .i32⟩) main_call3.v6 main_call3.v7 Host.remsi,
    StableHlo.TRef.nullary main_call3.c (constantI S_ 32 0#32),
    StableHlo.TRef.unary main_call3.c main_call3.v8 (broadcastInDim S1048576 ![] bcast_S_S1048576),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S1048576 ![] bcast_S_S1048576),
    StableHlo.TRef.binary main_call3.v1 main_call3.v11 main_call3.v12 subi,
    StableHlo.TRef.ternary main_call3.v10 main_call3.v12 main_call3.v1 main_call3.call0.v0 select,
    StableHlo.nullary main_c_6 (constantI S_ 32 1024#32),
    StableHlo.TRef.unary (.of main_c_6 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S1048576 ![] bcast_S_S1048576),
    StableHlo.TRef.binary (.of main_v14 : StableHlo.TRef sig ⟨S1048576, .i32⟩) main_call4.v3 main_call4.v4 Host.remsi,
    StableHlo.TRef.nullary main_call4.c_1 (constantI S_ 32 0#32),
    StableHlo.TRef.unary main_call4.c_1 main_call4.v5 (broadcastInDim S1048576 ![] bcast_S_S1048576),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S1048576 ![] bcast_S_S1048576),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S1048576 ![] bcast_S_S1048576),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S1048576 ![] bcast_S_S1048576),
    StableHlo.TRef.binary main_call4.v4 main_call4.v13 main_call4.v14 addi,
    StableHlo.TRef.ternary main_call4.v12 main_call4.v14 main_call4.v4 main_call4.v15 select,
    StableHlo.nullary main_c_7 (constantI S_ 32 1#32),
    StableHlo.TRef.unary (.of main_c_7 : StableHlo.TRef sig ⟨S_, .i32⟩) main_call5.v0 (broadcastInDim S1048576 ![] bcast_S_S1048576),
    StableHlo.TRef.binary (.of main_v13 : StableHlo.TRef sig ⟨S1048576, .i32⟩) main_call5.v0 main_call5.v1 Host.divsi,
    StableHlo.TRef.unary (.of main_v13 : StableHlo.TRef sig ⟨S1048576, .i32⟩) main_call5.v2 signi,
    StableHlo.TRef.unary (.of main_c_7 : StableHlo.TRef sig ⟨S_, .i32⟩) main_call5.v3 signi,
    StableHlo.TRef.unary main_call5.v3 main_call5.v4 (broadcastInDim S1048576 ![] bcast_S_S1048576),
    StableHlo.TRef.binary main_call5.v2 main_call5.v4 main_call5.v5 (cmpi .ne),
    StableHlo.TRef.unary (.of main_c_7 : StableHlo.TRef sig ⟨S_, .i32⟩) main_call5.v6 (broadcastInDim S1048576 ![] bcast_S_S1048576),
    StableHlo.TRef.binary (.of main_v13 : StableHlo.TRef sig ⟨S1048576, .i32⟩) main_call5.v6 main_call5.v7 Host.remsi,
    StableHlo.TRef.nullary main_call5.c (constantI S_ 32 0#32),
    StableHlo.TRef.unary main_call5.c main_call5.v8 (broadcastInDim S1048576 ![] bcast_S_S1048576),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S1048576 ![] bcast_S_S1048576),
    StableHlo.TRef.binary main_call5.v1 main_call5.v11 main_call5.v12 subi,
    StableHlo.TRef.ternary main_call5.v10 main_call5.v12 main_call5.v1 main_call5.call0.v0 select,
    StableHlo.nullary main_c_8 (constantI S_ 32 1024#32),
    StableHlo.TRef.unary (.of main_c_8 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S1048576 ![] bcast_S_S1048576),
    StableHlo.TRef.binary (.of main_v16 : StableHlo.TRef sig ⟨S1048576, .i32⟩) main_call6.v3 main_call6.v4 Host.remsi,
    StableHlo.TRef.nullary main_call6.c_1 (constantI S_ 32 0#32),
    StableHlo.TRef.unary main_call6.c_1 main_call6.v5 (broadcastInDim S1048576 ![] bcast_S_S1048576),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S1048576 ![] bcast_S_S1048576),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S1048576 ![] bcast_S_S1048576),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S1048576 ![] bcast_S_S1048576),
    StableHlo.TRef.binary main_call6.v4 main_call6.v13 main_call6.v14 addi,
    StableHlo.TRef.ternary main_call6.v12 main_call6.v14 main_call6.v4 main_call6.v15 select,
    StableHlo.nullary main_v18 (iotaInDim S1048576 32 0),
    StableHlo.unary main_v1 main_v19 ((extui 32 · natLt_1_32) : (⟨S1024x1024, .i1⟩ : BufTy).Contents (Elt F) → (⟨S1024x1024, .i32⟩ : BufTy).Contents (Elt F)),
    StableHlo.nullary main_c_9 (constantI S_ 32 0#32),
    StableHlo.binary main_v19 main_c_9 main_v20 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)),
    StableHlo.unary main_v20 main_v21 (broadcastInDim S1048576 ![] bcast_S_S1048576 : (⟨S_, .i32⟩ : BufTy).Contents (Elt F) → (⟨S1048576, .i32⟩ : BufTy).Contents (Elt F)),
    StableHlo.binary main_v18 main_v21 main_v22 (cmpi .sge : (⟨S1048576, .i32⟩ : BufTy).Contents (Elt F) → (⟨S1048576, .i32⟩ : BufTy).Contents (Elt F) → (⟨S1048576, .i1⟩ : BufTy).Contents (Elt F)),
    StableHlo.nullary main_c_10 (constantI S_ 32 0#32),
    StableHlo.TRef.unary (.of main_c_10 : StableHlo.TRef sig ⟨S_, .i32⟩) main_call7.v0 id,
    StableHlo.TRef.unary main_call7.v0 main_call7.v1 (broadcastInDim S1048576 ![] bcast_S_S1048576),
    StableHlo.TRef.ternary (.of main_v22 : StableHlo.TRef sig ⟨S1048576, .i1⟩) main_call7.v1 (.of main_v15 : StableHlo.TRef sig ⟨S1048576, .i32⟩) main_call7.v2 select,
    StableHlo.nullary main_c_11 (constantI S_ 32 0#32),
    StableHlo.TRef.unary (.of main_c_11 : StableHlo.TRef sig ⟨S_, .i32⟩) main_call8.v0 id,
    StableHlo.TRef.unary main_call8.v0 main_call8.v1 (broadcastInDim S1048576 ![] bcast_S_S1048576),
    StableHlo.TRef.ternary (.of main_v22 : StableHlo.TRef sig ⟨S1048576, .i1⟩) main_call8.v1 (.of main_v17 : StableHlo.TRef sig ⟨S1048576, .i32⟩) main_call8.v2 select,
    StableHlo.nullary main_v25 (iotaInDim S1048576 32 0),
    StableHlo.TRef.nullary main_call9.c (constantI S_ 32 0#32),
    StableHlo.TRef.unary main_call9.c main_call9.v0 (broadcastInDim S1024x1024 ![] bcast_S_S1024x1024),
    StableHlo.TRef.binary (.of main_arg1 : StableHlo.TRef sig ⟨S1024x1024, .i32⟩) main_call9.v0 main_call9.v1 (cmpi .ne),
    StableHlo.TRef.unary main_call9.v1 main_call9.v2 (extui 32 · natLt_1_32),
    StableHlo.TRef.nullary main_call9.c_0 (constantI S_ 32 0#32),
    StableHlo.TRef.binary main_call9.v2 main_call9.c_0 main_call9.v3 (fun x v => Host.reduce IntOp.addi x v reducesTo_S1024x1024_S_d0_1 h_S_),
    StableHlo.unary main_v26 main_v27 (broadcastInDim S1048576 ![] bcast_S_S1048576 : (⟨S_, .i32⟩ : BufTy).Contents (Elt F) → (⟨S1048576, .i32⟩ : BufTy).Contents (Elt F)),
    StableHlo.binary main_v25 main_v27 main_v28 (cmpi .slt : (⟨S1048576, .i32⟩ : BufTy).Contents (Elt F) → (⟨S1048576, .i32⟩ : BufTy).Contents (Elt F) → (⟨S1048576, .i1⟩ : BufTy).Contents (Elt F)),
    StableHlo.binary main_arg0 main_arg2 main_v29 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_12 (constantI S_ 32 0#32),
    StableHlo.unary main_c_12 main_v30 (broadcastInDim S1048576 ![] bcast_S_S1048576 : (⟨S_, .i32⟩ : BufTy).Contents (Elt F) → (⟨S1048576, .i32⟩ : BufTy).Contents (Elt F)),
    StableHlo.binary main_v23 main_v30 main_v31 (cmpi .slt : (⟨S1048576, .i32⟩ : BufTy).Contents (Elt F) → (⟨S1048576, .i32⟩ : BufTy).Contents (Elt F) → (⟨S1048576, .i1⟩ : BufTy).Contents (Elt F)),
    StableHlo.nullary main_c_13 (constantI S_ 32 1024#32),
    StableHlo.unary main_c_13 main_v32 (broadcastInDim S1048576 ![] bcast_S_S1048576 : (⟨S_, .i32⟩ : BufTy).Contents (Elt F) → (⟨S1048576, .i32⟩ : BufTy).Contents (Elt F)),
    StableHlo.binary main_v23 main_v32 main_v33 (addi : (⟨S1048576, .i32⟩ : BufTy).Contents (Elt F) → (⟨S1048576, .i32⟩ : BufTy).Contents (Elt F) → (⟨S1048576, .i32⟩ : BufTy).Contents (Elt F)),
    StableHlo.ternary main_v31 main_v33 main_v23 main_v34 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v34 main_v35 (broadcastInDim S1048576x1 ![0] bcast_S1048576_S1048576x1_0 : (⟨S1048576, .i32⟩ : BufTy).Contents (Elt F) → (⟨S1048576x1, .i32⟩ : BufTy).Contents (Elt F)),
    StableHlo.binary main_v29 main_v35 main_v36 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.nullary main_c_14 (constantI S_ 32 0#32),
    StableHlo.unary main_c_14 main_v37 (broadcastInDim S1048576 ![] bcast_S_S1048576 : (⟨S_, .i32⟩ : BufTy).Contents (Elt F) → (⟨S1048576, .i32⟩ : BufTy).Contents (Elt F)),
    StableHlo.binary main_v24 main_v37 main_v38 (cmpi .slt : (⟨S1048576, .i32⟩ : BufTy).Contents (Elt F) → (⟨S1048576, .i32⟩ : BufTy).Contents (Elt F) → (⟨S1048576, .i1⟩ : BufTy).Contents (Elt F)),
    StableHlo.nullary main_c_15 (constantI S_ 32 1024#32),
    StableHlo.unary main_c_15 main_v39 (broadcastInDim S1048576 ![] bcast_S_S1048576 : (⟨S_, .i32⟩ : BufTy).Contents (Elt F) → (⟨S1048576, .i32⟩ : BufTy).Contents (Elt F)),
    StableHlo.binary main_v24 main_v39 main_v40 (addi : (⟨S1048576, .i32⟩ : BufTy).Contents (Elt F) → (⟨S1048576, .i32⟩ : BufTy).Contents (Elt F) → (⟨S1048576, .i32⟩ : BufTy).Contents (Elt F)),
    StableHlo.ternary main_v38 main_v40 main_v24 main_v41 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v41 main_v42 (broadcastInDim S1048576x1 ![0] bcast_S1048576_S1048576x1_0 : (⟨S1048576, .i32⟩ : BufTy).Contents (Elt F) → (⟨S1048576x1, .i32⟩ : BufTy).Contents (Elt F)),
    StableHlo.binary main_v29 main_v42 main_v43 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.binary main_v36 main_v43 main_v44 ((fun a b => concatenate S1048576x256 1 [⟨S1048576x128, a⟩, ⟨S1048576x128, b⟩] concatenates_S1048576x128_S1048576x128_S1048576x256_d1) : (⟨S1048576x128, .f32⟩ : BufTy).Contents (Elt F) → (⟨S1048576x128, .f32⟩ : BufTy).Contents (Elt F) → (⟨S1048576x256, .f32⟩ : BufTy).Contents (Elt F)),
    StableHlo.unary main_v44 main_v45 ((transpose S256x1048576 [1, 0] · transposes_S1048576x256_S256x1048576_1_0) : (⟨S1048576x256, .f32⟩ : BufTy).Contents (Elt F) → (⟨S256x1048576, .f32⟩ : BufTy).Contents (Elt F)),
    StableHlo.binary main_arg3 main_v45 main_v46 ((fun l r => Host.dotGeneral dot_S1x256_S256x1048576_S1x1048576_1_0_0_1_n_n none l r) : (⟨S1x256, .f32⟩ : BufTy).Contents (Elt F) → (⟨S256x1048576, .f32⟩ : BufTy).Contents (Elt F) → (⟨S1x1048576, .f32⟩ : BufTy).Contents (Elt F)),
    StableHlo.reshape main_v46 main_v47 rfl shapeCasts_S1x1048576_S1048576,
    StableHlo.nullary main_cst (constant S_ .f32 0x3C23D70A#32),
    StableHlo.TRef.nullary main_call10.cst (constant S_ .f32 0x00000000#32),
    StableHlo.TRef.unary main_call10.cst main_call10.v0 (broadcastInDim S1048576 ![] bcast_S_S1048576),
    StableHlo.TRef.binary (.of main_v47 : StableHlo.TRef sig ⟨S1048576, .f32⟩) main_call10.v0 main_call10.v1 (cmpf .oge),
    StableHlo.TRef.unary (.of main_cst : StableHlo.TRef sig ⟨S_, .f32⟩) main_call10.v2 id,
    StableHlo.TRef.unary main_call10.v2 main_call10.v3 (broadcastInDim S1048576 ![] bcast_S_S1048576),
    StableHlo.TRef.binary main_call10.v3 (.of main_v47 : StableHlo.TRef sig ⟨S1048576, .f32⟩) main_call10.v4 mulf,
    StableHlo.TRef.ternary main_call10.v1 (.of main_v47 : StableHlo.TRef sig ⟨S1048576, .f32⟩) main_call10.v4 main_call10.call0.v0 select,
    StableHlo.unary main_v48 main_v49 (Host.negf : (⟨S1048576, .f32⟩ : BufTy).Contents (Elt F) → (⟨S1048576, .f32⟩ : BufTy).Contents (Elt F)),
    StableHlo.unary main_v49 main_v50 (Host.exp : (⟨S1048576, .f32⟩ : BufTy).Contents (Elt F) → (⟨S1048576, .f32⟩ : BufTy).Contents (Elt F)),
    StableHlo.nullary main_cst_16 (constant S_ .f32 0x00000000#32),
    StableHlo.TRef.unary (.of main_cst_16 : StableHlo.TRef sig ⟨S_, .f32⟩) main_call11.v0 id,
    StableHlo.TRef.unary main_call11.v0 main_call11.v1 (broadcastInDim S1048576 ![] bcast_S_S1048576),
    StableHlo.TRef.ternary (.of main_v28 : StableHlo.TRef sig ⟨S1048576, .i1⟩) (.of main_v50 : StableHlo.TRef sig ⟨S1048576, .f32⟩) main_call11.v1 main_call11.v2 select,
    StableHlo.nullary main_cst_17 (constant S_ .f32 0x00000000#32),
    StableHlo.unary main_cst_17 main_v52 (broadcastInDim S1024 ![] bcast_S_S1024 : (⟨S_, .f32⟩ : BufTy).Contents (Elt F) → (⟨S1024, .f32⟩ : BufTy).Contents (Elt F)),
    StableHlo.unary main_v23 main_v53 (broadcastInDim S1048576x1 ![0] bcast_S1048576_S1048576x1_0 : (⟨S1048576, .i32⟩ : BufTy).Contents (Elt F) → (⟨S1048576x1, .i32⟩ : BufTy).Contents (Elt F)),
    StableHlo.ternary main_v52 main_v53 main_v51 main_v54 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    StableHlo.unary main_v54 main_v55 (broadcastInDim S1024x1 ![0] bcast_S1024_S1024x1_0 : (⟨S1024, .f32⟩ : BufTy).Contents (Elt F) → (⟨S1024x1, .f32⟩ : BufTy).Contents (Elt F)),
    StableHlo.unary main_v51 main_v56 (broadcastInDim S1048576x1 ![0] bcast_S1048576_S1048576x1_0 : (⟨S1048576, .f32⟩ : BufTy).Contents (Elt F) → (⟨S1048576x1, .f32⟩ : BufTy).Contents (Elt F)),
    StableHlo.nullary main_c_18 (constantI S_ 32 0#32),
    StableHlo.unary main_c_18 main_v57 (broadcastInDim S1048576 ![] bcast_S_S1048576 : (⟨S_, .i32⟩ : BufTy).Contents (Elt F) → (⟨S1048576, .i32⟩ : BufTy).Contents (Elt F)),
    StableHlo.binary main_v24 main_v57 main_v58 (cmpi .slt : (⟨S1048576, .i32⟩ : BufTy).Contents (Elt F) → (⟨S1048576, .i32⟩ : BufTy).Contents (Elt F) → (⟨S1048576, .i1⟩ : BufTy).Contents (Elt F)),
    StableHlo.nullary main_c_19 (constantI S_ 32 1024#32),
    StableHlo.unary main_c_19 main_v59 (broadcastInDim S1048576 ![] bcast_S_S1048576 : (⟨S_, .i32⟩ : BufTy).Contents (Elt F) → (⟨S1048576, .i32⟩ : BufTy).Contents (Elt F)),
    StableHlo.binary main_v24 main_v59 main_v60 (addi : (⟨S1048576, .i32⟩ : BufTy).Contents (Elt F) → (⟨S1048576, .i32⟩ : BufTy).Contents (Elt F) → (⟨S1048576, .i32⟩ : BufTy).Contents (Elt F)),
    StableHlo.ternary main_v58 main_v60 main_v24 main_v61 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v61 main_v62 (broadcastInDim S1048576x1 ![0] bcast_S1048576_S1048576x1_0 : (⟨S1048576, .i32⟩ : BufTy).Contents (Elt F) → (⟨S1048576x1, .i32⟩ : BufTy).Contents (Elt F)),
    StableHlo.binary main_v29 main_v62 main_v63 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    StableHlo.unary main_v56 main_v64 (broadcastInDim S1048576x128 ![0, 1] bcast_S1048576x1_S1048576x128_0_1 : (⟨S1048576x1, .f32⟩ : BufTy).Contents (Elt F) → (⟨S1048576x128, .f32⟩ : BufTy).Contents (Elt F)),
    StableHlo.binary main_v64 main_v63 main_v65 (mulf : (⟨S1048576x128, .f32⟩ : BufTy).Contents (Elt F) → (⟨S1048576x128, .f32⟩ : BufTy).Contents (Elt F) → (⟨S1048576x128, .f32⟩ : BufTy).Contents (Elt F)),
    StableHlo.nullary main_cst_20 (constant S_ .f32 0x00000000#32),
    StableHlo.unary main_cst_20 main_v66 (broadcastInDim S1024x128 ![] bcast_S_S1024x128 : (⟨S_, .f32⟩ : BufTy).Contents (Elt F) → (⟨S1024x128, .f32⟩ : BufTy).Contents (Elt F)),
    StableHlo.unary main_v23 main_v67 (broadcastInDim S1048576x1 ![0] bcast_S1048576_S1048576x1_0 : (⟨S1048576, .i32⟩ : BufTy).Contents (Elt F) → (⟨S1048576x1, .i32⟩ : BufTy).Contents (Elt F)),
    StableHlo.ternary main_v66 main_v67 main_v65 main_v68 ((fun x i u => Host.scatterAdd scatter_S1024x128_S1048576x1_S1048576x128_1_0_0_1 x i u) : (⟨S1024x128, .f32⟩ : BufTy).Contents (Elt F) → (⟨S1048576x1, .i32⟩ : BufTy).Contents (Elt F) → (⟨S1048576x128, .f32⟩ : BufTy).Contents (Elt F) → (⟨S1024x128, .f32⟩ : BufTy).Contents (Elt F)),
    StableHlo.unary main_v55 main_v69 (broadcastInDim S1024x128 ![0, 1] bcast_S1024x1_S1024x128_0_1 : (⟨S1024x1, .f32⟩ : BufTy).Contents (Elt F) → (⟨S1024x128, .f32⟩ : BufTy).Contents (Elt F)),
    StableHlo.binary main_v68 main_v69 main_v70 (Host.divf : (⟨S1024x128, .f32⟩ : BufTy).Contents (Elt F) → (⟨S1024x128, .f32⟩ : BufTy).Contents (Elt F) → (⟨S1024x128, .f32⟩ : BufTy).Contents (Elt F)),
    StableHlo.TRef.nullary main_call12.cst (constant S_ .f32 0x00000000#32),
    StableHlo.TRef.unary main_call12.cst main_call12.v0 (broadcastInDim S1024x128 ![] bcast_S_S1024x128),
    StableHlo.TRef.binary (.of main_v70 : StableHlo.TRef sig ⟨S1024x128, .f32⟩) main_call12.v0 main_call12.v1 (cmpf .ogt),
    StableHlo.TRef.nullary main_call12.cst_0 (constant S_ .f32 0x00000000#32),
    StableHlo.TRef.unary main_call12.cst_0 main_call12.v2 (broadcastInDim S1024x128 ![] bcast_S_S1024x128),
    StableHlo.TRef.binary (.of main_v70 : StableHlo.TRef sig ⟨S1024x128, .f32⟩) main_call12.v2 main_call12.v3 (cmpf .ogt),
    StableHlo.TRef.nullary main_call12.cst_1 (constant S_ .f32 0x00000000#32),
    StableHlo.TRef.unary main_call12.cst_1 main_call12.call0.v0 id,
    StableHlo.TRef.unary main_call12.call0.v0 main_call12.call0.v1 (broadcastInDim S1024x128 ![] bcast_S_S1024x128),
    StableHlo.TRef.ternary main_call12.v3 main_call12.call0.v1 (.of main_v70 : StableHlo.TRef sig ⟨S1024x128, .f32⟩) main_call12.call0.v2 select,
    StableHlo.TRef.unary main_call12.call0.v2 main_call12.v5 Host.expm1,
    StableHlo.TRef.nullary main_call12.cst_2 (constant S_ .f32 0x3F800000#32),
    StableHlo.TRef.unary main_call12.cst_2 main_call12.v6 (broadcastInDim S1024x128 ![] bcast_S_S1024x128),
    StableHlo.TRef.binary main_call12.v6 main_call12.v5 main_call12.v7 mulf,
    StableHlo.TRef.ternary main_call12.v1 (.of main_v70 : StableHlo.TRef sig ⟨S1024x128, .f32⟩) main_call12.v7 main_call12.call1.v0 select ]

/-- Every operation touches TensorCore references only. -/
theorem ops_sub : (ops : List (HloOp τ sig (Elt F))).Forall fun op => op.bufs ⊆ tcRefs τ sig :=
  ⟨nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    nullary_bufs_sub .., binary_bufs_sub .., unary_bufs_sub .., binary_bufs_sub .., nullary_bufs_sub .., unary_bufs_sub ..,
    unary_bufs_sub .., ternary_bufs_sub .., nullary_bufs_sub .., unary_bufs_sub .., unary_bufs_sub .., ternary_bufs_sub ..,
    nullary_bufs_sub .., nullary_bufs_sub .., unary_bufs_sub .., binary_bufs_sub .., unary_bufs_sub .., nullary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    binary_bufs_sub .., reshape_bufs_sub .., nullary_bufs_sub .., nullary_bufs_sub .., unary_bufs_sub .., binary_bufs_sub ..,
    unary_bufs_sub .., unary_bufs_sub .., binary_bufs_sub .., ternary_bufs_sub .., unary_bufs_sub .., unary_bufs_sub ..,
    nullary_bufs_sub .., unary_bufs_sub .., unary_bufs_sub .., ternary_bufs_sub .., nullary_bufs_sub .., unary_bufs_sub ..,
    unary_bufs_sub .., ternary_bufs_sub .., unary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

end Cert.ReferenceIdeal.Run

end
-- ==== Proof.RefRun.lean ====
/-
  The reference's run: every weakly fair execution of its @main terminates, with the result buffer at the composed
  stage function of the four argument arrays and the arguments unchanged.  @main is a straight line of host
  operations once the outlined functions are unfolded at their calls.
-/
import proofs.«175874_g83193516523656_cont_sun_m_929_3_alg».proof.Proof.RefStages
import proofs.«175874_g83193516523656_cont_sun_m_929_3_alg».proof.Proof.RefRunOps
import Idealize.ShloMosaic.Lib.StableHlo.Run

noncomputable section

namespace Cert.ReferenceIdeal.Run

open Idealize.ShloMosaic Idealize.ShloMosaic.TcCoe Idealize.ShloMosaic.StableHlo Idealize.SL.Sem Cert.ReferenceIdeal Cert.ReferenceIdeal.Facts₀

variable {F : FTy → Type} [FloatOps F]

set_option maxRecDepth 65536 in
set_option maxHeartbeats 4000000 in
/-- @main is the straight line of its operations: with the outlined functions' bodies unfolded at their calls and the
    calls' buffer records at their fields, both sides are one chain of host steps once sequencing is reassociated. -/
theorem main_eq (c : Dev nD) : main (F := F) c = seq ops := by
  simp only [main, main_part0, main_part1, fn_cumsum.body, fn_cumsum_0.body, fn_clip.body, fn_cumsum_1.body, fn_where.body, fn_floor_divide.body, fn_where_2.body, fn_remainder.body, fn_where_3.body, fn_count_nonzero.body, fn_where_4.body, fn_leaky_relu.body, fn_where_5.body, fn_where_6.body, fn_where_7.body, fn_elu.body, seq, bind_assoc, pure_bind]

/-- A transport along an equation between a type and itself is the identity. -/
private theorem cast_self {α : Type} (h : α = α) (a : α) : cast h a = a := eq_of_heq (cast_heq h a)

/-- The concatenation of two arrays along an axis, the two operands as arguments of their own. -/
private def cat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A concatenation of two operands is `cat2` of them. -/
private theorem concatenate_pair {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ x y h := rfl

attribute [local irreducible] Host.reduce Host.reduceWindow Host.gather Host.scatter Host.scatterAdd in
set_option maxRecDepth 65536 in
set_option maxHeartbeats 4000000 in
/-- The fold of the operations at the result buffer is the composed stage function of the four argument arrays: each
    operation's result is its function's value at its own buffer and what was there at every other one, the typed
    references' transports are identities at these literal references, and what is left is the stage functions'
    composition, unfolded (the reductions, windows, gathers and scatters as they stand on both sides). -/
theorem out_eq (V : Valuation τ sig (Elt F)) :
    after ops V (main_v71 : DevRef τ sig)
      = Stages.out (V (main_arg0 : DevRef τ sig)) (V (main_arg1 : DevRef τ sig)) (V (main_arg2 : DevRef τ sig))
          (V (main_arg3 : DevRef τ sig)) := by
  simp (disch := decide) only [after_cons, after_nil,
      nullary_result', unary_result', binary_result', ternary_result', reshape_result',
      nullary_result_ne', unary_result_ne', binary_result_ne', ternary_result_ne', reshape_result_ne',
      concatenate_pair, TRef.toBuf, TRef.ofBuf, cast_self, id_eq]
  rfl

set_option maxRecDepth 65536 in
set_option maxHeartbeats 4000000 in
/-- No operation writes the first argument's buffer. -/
theorem arg0_eq (V : Valuation τ sig (Elt F)) :
    after ops V (main_arg0 : DevRef τ sig) = V (main_arg0 : DevRef τ sig) := by
  after_results_simp

set_option maxRecDepth 65536 in
set_option maxHeartbeats 4000000 in
/-- No operation writes the second argument's buffer. -/
theorem arg1_eq (V : Valuation τ sig (Elt F)) :
    after ops V (main_arg1 : DevRef τ sig) = V (main_arg1 : DevRef τ sig) := by
  after_results_simp

set_option maxRecDepth 65536 in
set_option maxHeartbeats 4000000 in
/-- No operation writes the third argument's buffer. -/
theorem arg2_eq (V : Valuation τ sig (Elt F)) :
    after ops V (main_arg2 : DevRef τ sig) = V (main_arg2 : DevRef τ sig) := by
  after_results_simp

set_option maxRecDepth 65536 in
set_option maxHeartbeats 4000000 in
/-- No operation writes the fourth argument's buffer. -/
theorem arg3_eq (V : Valuation τ sig (Elt F)) :
    after ops V (main_arg3 : DevRef τ sig) = V (main_arg3 : DevRef τ sig) := by
  after_results_simp

/-- The signature scopes no buffer of the TensorCore. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

set_option maxRecDepth 65536 in
set_option maxHeartbeats 4000000 in
/-- From any memory with zero counters every weakly fair execution of @main terminates, each TensorCore buffer ending
    at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run of the reference: the result buffer ends at the composed stage function of the four arguments' launch
    contents, and the arguments' buffers are unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v71)
          = Stages.out (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v71).trans (out_eq _), (h c main_arg0).trans (arg0_eq _),
      (h c main_arg1).trans (arg1_eq _), (h c main_arg2).trans (arg2_eq _), (h c main_arg3).trans (arg3_eq _)⟩)
    (run_main m ρ)

end Cert.ReferenceIdeal.Run

end
-- ==== Proof.LibScatterGather.lean ====
/-
  An integer scatter-add read at an element.

  The scatter folds the update elements, in row-major order, into the operand: an update whose result index is
  element `i` is added to it, an update that falls outside is dropped.  Word addition is commutative and
  associative, so the element ends at its initial word plus the sum of the updates that land on it.
-/
import Idealize.ShloMosaic.PureOps.Ideal
import Idealize.ShloMosaic.Lib.ValueIdx
import Mathlib.Data.BitVec
import Mathlib.Algebra.BigOperators.Group.Finset.Basic

noncomputable section

namespace ScatterGather

open Idealize.ShloMosaic Idealize.ShloMosaic.ValueIdx
open scoped BigOperators

/-- A left fold whose step adds `g n` to element `i` of the state, read at `i`: the initial element plus the sum of
    `g` over the list. -/
private theorem foldl_apply {ι κ : Type} (i : ι) (stepf : (ι → BitVec 32) → κ → (ι → BitVec 32)) (g : κ → BitVec 32)
    (hstep : ∀ r n, stepf r n i = r i + g n) (l : List κ) (x : ι → BitVec 32) :
    (l.foldl stepf x) i = x i + (l.map g).sum := by
  induction l generalizing x with
  | nil => simp
  | cons n l ih => rw [List.foldl_cons, ih, hstep, List.map_cons, List.sum_cons, add_assoc]

/-- The integer scatter-add at element `i`: the operand's word plus the sum of the updates landing there. -/
theorem scatter_addi_apply {s si u : Shape} {w : Nat} (d : ScatterDims s si u) (x : IVec s 32) (idx : IVec si w)
    (upd : IVec u 32) (i : s.Idx) :
    Host.scatter d IntOp.addi x idx upd i
      = x i + ∑ j ∈ Finset.univ.filter (fun j : u.Idx => d.resultIdx? j idx = some i), upd j := by
  unfold Host.scatter
  -- one step adds the update at position `n` to element `i` when it lands there, and nothing otherwise
  refine (foldl_apply i _ (fun n => if d.resultIdx? (u.rowMajor.symm n) idx = some i then upd (u.rowMajor.symm n) else 0)
    ?_ _ x).trans ?_
  · intro r n
    cases h : d.resultIdx? (u.rowMajor.symm n) idx with
    | none => simp
    | some i0 =>
      by_cases hi : i = i0
      · subst hi; simp [IntOp.addi]
      · have hne : ¬ (i0 = i) := fun e => hi e.symm
        simp [hi, hne]
  -- the sum over the positions in order is the sum over the update indices, through the row-major bijection
  · congr 1
    rw [← Fin.sum_univ_def, Finset.sum_filter]
    exact Equiv.sum_comp u.rowMajor.symm (fun j => if d.resultIdx? j idx = some i then upd j else 0)

end ScatterGather

end
-- ==== Proof.RefDims.lean ====
/-
  The reference's three scatters and its row gather, read at an index.

  Each scatter takes one start index per update row (the index column's entry, read signed and not clamped): update
  `k` of the flat scatters lands on element `i` exactly when its start index is `i`, and entry `(k, c)` of the
  row scatter lands on `(i, c')` exactly when the start index is `i` and `c = c'`.  The gather reads row
  `idx k` of its operand (clamped to the last row, which an index below 1024 never meets).
-/
import proofs.«175874_g83193516523656_cont_sun_m_929_3_alg».proof.Proof.RefStages
import proofs.«175874_g83193516523656_cont_sun_m_929_3_alg».proof.Proof.LibScatterGather
import Idealize.ShloMosaic.Lib.ValueIdx

noncomputable section

namespace Cert.ReferenceIdeal.Dims

open Idealize.ShloMosaic Idealize.ShloMosaic.ValueIdx Cert.ReferenceIdeal Cert.ReferenceIdeal.Facts₀
open scoped BigOperators

/-- The dimension numbers of the row-sum scatter. -/
private abbrev sd1024 := scatter_S1024_S1048576x1_S1048576_n_0_0_1
/-- The dimension numbers of the histogram's scatter. -/
private abbrev sd1M := scatter_S1048576_S1048576x1_S1048576_n_0_0_1
/-- The dimension numbers of the neighbour-sum scatter. -/
private abbrev sdRow := scatter_S1024x128_S1048576x1_S1048576x128_1_0_0_1
/-- The dimension numbers of the row gather. -/
private abbrev gd := gather_S1024x128_S1048576x1_S1048576x128_1_0_n_n_0_1_1128

/-- An index vector as a column of start indices, at row `k`. -/
theorem col_apply (s : IVec S1048576 32) (k : Fin 1048576) : Stages.col s (ix2 k (0 : Fin 1)) = s (ix1 k) := by
  unfold Stages.col
  simp only [broadcastInDim]
  congr 1
  funext a
  obtain rfl : a = 0 := Subsingleton.elim _ _
  rfl

/-! ## The flat scatters

The operand has one axis, which is inserted (no window coordinate on it) and is the one the start index names: the
signed position of update `k` on it is the index column's entry at row `k`. -/

/-- The histogram's scatter: the signed position of update `k` on the operand's axis. -/
private theorem key1M (idx : IVec S1048576x1 32) (k : Fin 1048576) (a : Fin 1) :
    sd1M.start (ix1 k) idx a + (sd1M.window (ix1 k) a : Int) = (idx (ix2 k (0 : Fin 1))).toInt := by
  obtain rfl : a = 0 := Subsingleton.elim _ _
  rw [show sd1M.window (ix1 k) 0 = 0 from dif_neg (by decide)]
  unfold ScatterDims.start
  rw [dif_pos (show (0 : Fin 1) ∈ sd1M.scatterDimsToOperandDims from List.mem_singleton.mpr rfl)]
  have hsi : sd1M.siIdx (ix1 k) ⟨List.idxOf (0 : Fin 1) sd1M.scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- The histogram's scatter: update `k` lands on element `i` iff its start index is `i`. -/
theorem res1M (idx : IVec S1048576x1 32) (k i : Fin 1048576) :
    scatter_S1048576_S1048576x1_S1048576_n_0_0_1.resultIdx? (ix1 k) idx = some (ix1 i)
      ↔ (idx (ix2 k (0 : Fin 1))).toInt = (i.val : Int) := by
  unfold ScatterDims.resultIdx?
  split
  · rename_i h
    constructor
    · intro e
      have e0 := congrArg Fin.val (congrFun (Option.some.inj e) 0)
      have h0 := h 0
      rw [key1M] at h0
      simp only [key1M] at e0
      have : ((ix1 i : S1048576.Idx) 0).val = i.val := rfl
      rw [this] at e0
      omega
    · intro e
      congr 1
      funext a
      obtain rfl : a = 0 := Subsingleton.elim _ _
      refine Fin.ext ?_
      simp only [key1M, e]
      show (i.val : Int).toNat = i.val
      simp
  · rename_i h
    constructor
    · intro e; cases e
    · intro e
      exfalso
      apply h
      intro a
      rw [key1M, e]
      obtain rfl : a = 0 := Subsingleton.elim _ _
      have := i.isLt
      show 0 ≤ (i.val : Int) ∧ (i.val : Int) < ((1048576 : Nat) : Int)
      constructor <;> omega

/-- The row-sum scatter: the signed position of update `k` on the operand's axis. -/
private theorem key1024 (idx : IVec S1048576x1 32) (k : Fin 1048576) (a : Fin 1) :
    sd1024.start (ix1 k) idx a + (sd1024.window (ix1 k) a : Int) = (idx (ix2 k (0 : Fin 1))).toInt := by
  obtain rfl : a = 0 := Subsingleton.elim _ _
  rw [show sd1024.window (ix1 k) 0 = 0 from dif_neg (by decide)]
  unfold ScatterDims.start
  rw [dif_pos (show (0 : Fin 1) ∈ sd1024.scatterDimsToOperandDims from List.mem_singleton.mpr rfl)]
  have hsi : sd1024.siIdx (ix1 k) ⟨List.idxOf (0 : Fin 1) sd1024.scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- The row-sum scatter: update `k` lands on row `i` iff its start index is `i`. -/
theorem res1024 (idx : IVec S1048576x1 32) (k : Fin 1048576) (i : Fin 1024) :
    scatter_S1024_S1048576x1_S1048576_n_0_0_1.resultIdx? (ix1 k) idx = some (ix1 i)
      ↔ (idx (ix2 k (0 : Fin 1))).toInt = (i.val : Int) := by
  unfold ScatterDims.resultIdx?
  split
  · rename_i h
    constructor
    · intro e
      have e0 := congrArg Fin.val (congrFun (Option.some.inj e) 0)
      have h0 := h 0
      rw [key1024] at h0
      simp only [key1024] at e0
      have : ((ix1 i : S1024.Idx) 0).val = i.val := rfl
      rw [this] at e0
      omega
    · intro e
      congr 1
      funext a
      obtain rfl : a = 0 := Subsingleton.elim _ _
      refine Fin.ext ?_
      simp only [key1024, e]
      show (i.val : Int).toNat = i.val
      simp
  · rename_i h
    constructor
    · intro e; cases e
    · intro e
      exfalso
      apply h
      intro a
      rw [key1024, e]
      obtain rfl : a = 0 := Subsingleton.elim _ _
      have := i.isLt
      show 0 ≤ (i.val : Int) ∧ (i.val : Int) < ((1024 : Nat) : Int)
      constructor <;> omega

/-! ## The row scatter

The operand's row axis is inserted and named by the start index; its column axis carries the update's window
coordinate and no start. -/

/-- The signed position of entry `(k, c)` on the row axis: the index column's entry at row `k`. -/
private theorem keyRow0 (idx : IVec S1048576x1 32) (k : Fin 1048576) (c : Fin 128) :
    sdRow.start (ix2 k c) idx 0 + (sdRow.window (ix2 k c) 0 : Int) = (idx (ix2 k (0 : Fin 1))).toInt := by
  rw [show sdRow.window (ix2 k c) 0 = 0 from dif_neg (by decide)]
  unfold ScatterDims.start
  rw [dif_pos (show (0 : Fin 2) ∈ sdRow.scatterDimsToOperandDims from List.mem_singleton.mpr rfl)]
  have hsi : sdRow.siIdx (ix2 k c) ⟨List.idxOf (0 : Fin 2) sdRow.scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- The position of entry `(k, c)` on the column axis: `c`. -/
private theorem keyRow1 (idx : IVec S1048576x1 32) (k : Fin 1048576) (c : Fin 128) :
    sdRow.start (ix2 k c) idx 1 + (sdRow.window (ix2 k c) 1 : Int) = (c.val : Int) := by
  rw [show sdRow.start (ix2 k c) idx 1 = 0 from dif_neg (by decide)]
  rw [show sdRow.window (ix2 k c) 1 = c.val from rfl]
  simp

/-- The neighbour-sum scatter: entry `(k, c)` lands on `(i, c')` iff the start index is `i` and `c = c'`. -/
theorem resRow (idx : IVec S1048576x1 32) (k : Fin 1048576) (c : Fin 128) (i : Fin 1024) (c' : Fin 128) :
    scatter_S1024x128_S1048576x1_S1048576x128_1_0_0_1.resultIdx? (ix2 k c) idx = some (ix2 i c')
      ↔ ((idx (ix2 k (0 : Fin 1))).toInt = (i.val : Int) ∧ c = c') := by
  unfold ScatterDims.resultIdx?
  split
  · rename_i h
    constructor
    · intro e
      have e0 := congrArg Fin.val (congrFun (Option.some.inj e) 0)
      have e1 := congrArg Fin.val (congrFun (Option.some.inj e) 1)
      have h0 := h 0
      rw [keyRow0] at h0
      simp only [keyRow0] at e0
      simp only [keyRow1] at e1
      have t0 : ((ix2 i c' : S1024x128.Idx) 0).val = i.val := rfl
      have t1 : ((ix2 i c' : S1024x128.Idx) 1).val = c'.val := rfl
      rw [t0] at e0
      rw [t1] at e1
      refine ⟨by omega, Fin.ext (by omega)⟩
    · rintro ⟨e, rfl⟩
      congr 1
      funext a
      refine Fin.ext ?_
      match a with
      | ⟨0, _⟩ =>
        show (sdRow.start (ix2 k c) idx 0 + (sdRow.window (ix2 k c) 0 : Int)).toNat = i.val
        rw [keyRow0, e]; simp
      | ⟨1, _⟩ =>
        show (sdRow.start (ix2 k c) idx 1 + (sdRow.window (ix2 k c) 1 : Int)).toNat = c.val
        rw [keyRow1]; simp
  · rename_i h
    constructor
    · intro e; cases e
    · rintro ⟨e, rfl⟩
      exfalso
      apply h
      intro a
      match a with
      | ⟨0, _⟩ =>
        show 0 ≤ sdRow.start (ix2 k c) idx 0 + (sdRow.window (ix2 k c) 0 : Int)
          ∧ sdRow.start (ix2 k c) idx 0 + (sdRow.window (ix2 k c) 0 : Int) < ((1024 : Nat) : Int)
        rw [keyRow0, e]
        have := i.isLt
        constructor <;> omega
      | ⟨1, _⟩ =>
        show 0 ≤ sdRow.start (ix2 k c) idx 1 + (sdRow.window (ix2 k c) 1 : Int)
          ∧ sdRow.start (ix2 k c) idx 1 + (sdRow.window (ix2 k c) 1 : Int) < ((128 : Nat) : Int)
        rw [keyRow1]
        have := c.isLt
        constructor <;> omega

/-! ## The row gather -/

/-- A word below 1024 read signed and cut off at zero is its value. -/
private theorem toInt_toNat_of_lt {a : BitVec 32} (ha : a.toNat < 1024) : a.toInt.toNat = a.toNat := by
  rw [BitVec.toInt_eq_msb_cond, BitVec.msb_eq_false_iff_two_mul_lt.mpr (by omega)]
  simp

/-- The row gather at `(k, c)`: row `idx k` of the operand, column `c`, for a start index below 1024. -/
theorem gatherRow {α : Type} (h : S1024x128.Idx → α) (idx : IVec S1048576x1 32) (k : Fin 1048576) (c : Fin 128)
    (hlt : (idx (ix2 k (0 : Fin 1))).toNat < 1024) :
    Host.gather gather_S1024x128_S1048576x1_S1048576x128_1_0_n_n_0_1_1128 h idx (ix2 k c)
      = h (ix2 (⟨(idx (ix2 k (0 : Fin 1))).toNat, hlt⟩ : Fin 1024) c) := by
  unfold Host.gather
  congr 1
  funext a
  refine Fin.ext ?_
  match a with
  | ⟨0, _⟩ =>
    -- the row axis is collapsed and named by the start index: the clamped start, no batch or offset coordinate
    show gd.start (ix2 k c) idx 0 + gd.batchCoord (ix2 k c) 0 + gd.offCoord (ix2 k c) 0 = (idx (ix2 k (0 : Fin 1))).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix2 k c) ⟨List.idxOf (0 : Fin 2) gd.startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi, toInt_toNat_of_lt hlt]
    show min _ (1024 - 1) = _
    omega
  | ⟨1, _⟩ =>
    -- the column axis is the offset axis: no start, the result's column coordinate
    show gd.start (ix2 k c) idx 1 + gd.batchCoord (ix2 k c) 1 + gd.offCoord (ix2 k c) 1 = c.val
    rw [GatherDims.batchCoord_eq_zero _ _ _ List.not_mem_nil]
    unfold GatherDims.start
    rw [dif_neg (show (1 : Fin 2) ∉ gd.startIndexMap by decide)]
    simp only [Nat.add_zero, Nat.zero_add]
    rfl

end Cert.ReferenceIdeal.Dims

end
-- ==== Proof.IndexSums.lean ====
/-
  The summing stages of the edge list as natural numbers.

  The flattened mask is a 0/1 word per flat position (row-major: position `p` is row `p / 1024`, column `p % 1024`);
  the window sum over the whole axis, padded below by the length less one, is the inclusive prefix sum, with no
  wrap-around while the total stays below 2³¹; and the count stage is the sum of the mask, the number of nonzeros.

  The window sum is read at any length `n`: window position `m < n` at result position `k` meets the array at
  `k + m - (n - 1)` when that is not negative and the padding, worth zero, otherwise; so the positions met are
  exactly those `≤ k`, each once. A sum of 32-bit words whose values add up to less than 2³² has that sum as its value.
  The count stage sums the widened mask bits over every entry; row-major numbering carries the set entries onto the
  flat positions the specification counts.
-/
import proofs.«175874_g83193516523656_cont_sun_m_929_3_alg».proof.Proof.RefStages
import proofs.«175874_g83193516523656_cont_sun_m_929_3_alg».proof.Proof.Spec
import Idealize.ShloMosaic.Lib.ValueIdx
import Idealize.ShloMosaic.Lib.ValueIdxRank1
import Idealize.ShloMosaic.Lib.Pipeline.Value
import Idealize.ShloMosaic.Lib.StableHlo.Predicate
import Mathlib.Data.BitVec
import Mathlib.Algebra.BigOperators.Group.Finset.Basic

noncomputable section

namespace Cert.ReferenceIdeal.Words

open Idealize.ShloMosaic Idealize.ShloMosaic.ValueIdx Cert.ReferenceIdeal Cert.ReferenceIdeal.Facts₀
open scoped BigOperators

/-! ## The flattened mask -/

/-- The flattened mask at flat position `p`: one where `adj` is nonzero there, else zero. -/
theorem maskFlat_apply (adj : IVec S1024x1024 32) (p : Fin 1048576) :
    Stages.maskFlat adj (ix1 p) = if Cert.Spec.maskB adj p.val then 1#32 else 0#32 := by
  have hp : p.val < 1048576 := p.isLt
  unfold Stages.maskFlat
  rw [extui_apply]
  -- flat position `p` is row `p / 1024`, column `p % 1024`
  rw [shapeCast_apply (Stages.mask adj) shapeCasts_S1024x1024_S1048576 (ix1 p)
      (ix2 (⟨p.val / 1024, by omega⟩ : Fin 1024) (⟨p.val % 1024, Nat.mod_lt _ (by norm_num)⟩ : Fin 1024)) (by
        rw [Shape.rowMajor_val_two, Shape.rowMajor_val_one]
        show p.val / 1024 * 1024 + p.val % 1024 = p.val
        omega)]
  unfold Stages.mask
  show BitVec.setWidth 32 (IntOp.cmpi .ne (adj _) 0#32) = _
  unfold Cert.Spec.maskB
  rw [dif_pos hp]
  unfold IntOp.cmpi
  generalize adj (ix2 (⟨p.val / 1024, by omega⟩ : Fin 1024) (⟨p.val % 1024, Nat.mod_lt _ (by norm_num)⟩ : Fin 1024)) = a
  by_cases h : a = 0#32
  · subst h; rfl
  · rw [show (a != 0#32) = true from bne_iff_ne.mpr h, if_pos (decide_eq_true h)]; rfl

/-! ## The window sum over a whole axis, at any length -/

section Window
variable {n lo : Nat}

/-- What window position `m` contributes to the sum at `k`: the entry at `k + m - lo`, or zero in the padding. -/
private def winTerm (x : (⟨1, ![n]⟩ : Shape).Idx → BitVec 32) (k : Fin n) (lo m : Nat) : BitVec 32 :=
  if h : lo ≤ k.val + m ∧ k.val + m - lo < n then x (ix1 ⟨k.val + m - lo, h.2⟩) else 0

/-- The window sum at `k`, from a zero initial value, is the left fold of addition over the window positions. -/
private theorem reduceWindow_foldl (x : (⟨1, ![n]⟩ : Shape).Idx → BitVec 32) {u : Shape} (init : u.Idx → BitVec 32)
    (hu : 0 < u.numel) (h0 : init (Shape.Idx.first hu) = 0)
    (h : (⟨1, ![n]⟩ : Shape).ReduceWindows ![n] ![1] ![lo] ![0] ⟨1, ![n]⟩) (k : Fin n) :
    Host.reduceWindow IntOp.addi ![n] ![1] ![lo] ![0] x init h hu (ix1 k)
      = (List.finRange (⟨1, ![n]⟩ : Shape).numel).foldl
          (fun r m => r + winTerm x k lo ((⟨1, ![n]⟩ : Shape).rowMajor.symm m 0).val) 0 := by
  unfold Host.reduceWindow
  simp only [h0]
  congr 1
  funext r m
  show r + _ = r + _
  congr 1
  unfold winTerm
  by_cases hc : lo ≤ k.val + ((⟨1, ![n]⟩ : Shape).rowMajor.symm m 0).val
      ∧ k.val + ((⟨1, ![n]⟩ : Shape).rowMajor.symm m 0).val - lo < n
  · rw [dif_pos hc, dif_pos (by
      intro a
      obtain rfl : a = 0 := Subsingleton.elim _ _
      show lo ≤ k.val * 1 + ((⟨1, ![n]⟩ : Shape).rowMajor.symm m 0).val
        ∧ k.val * 1 + ((⟨1, ![n]⟩ : Shape).rowMajor.symm m 0).val - lo < n
      rw [Nat.mul_one]; exact hc)]
    congr 1
    funext a
    obtain rfl : a = 0 := Subsingleton.elim _ _
    refine Fin.ext ?_
    show k.val * 1 + ((⟨1, ![n]⟩ : Shape).rowMajor.symm m 0).val - lo
      = k.val + ((⟨1, ![n]⟩ : Shape).rowMajor.symm m 0).val - lo
    rw [Nat.mul_one]
  · rw [dif_neg hc, dif_neg (fun hall => hc (by
      have := hall 0
      change lo ≤ k.val * 1 + ((⟨1, ![n]⟩ : Shape).rowMajor.symm m 0).val
        ∧ k.val * 1 + ((⟨1, ![n]⟩ : Shape).rowMajor.symm m 0).val - lo < n at this
      rwa [Nat.mul_one] at this))]

/-- A left fold of addition is the starting value plus the sum of the list. -/
private theorem foldl_add_eq_sum {ι M : Type} [AddCommMonoid M] (g : ι → M) (l : List ι) (a : M) :
    l.foldl (fun r m => r + g m) a = a + (l.map g).sum := by
  induction l generalizing a with
  | nil => simp
  | cons b l ih => simp [ih, add_assoc]

/-- The fold over the window positions is the sum over the window positions `m < n`. -/
private theorem foldl_winTerm (x : (⟨1, ![n]⟩ : Shape).Idx → BitVec 32) (k : Fin n) :
    (List.finRange (⟨1, ![n]⟩ : Shape).numel).foldl
        (fun r m => r + winTerm x k lo ((⟨1, ![n]⟩ : Shape).rowMajor.symm m 0).val) 0
      = ∑ m : Fin n, winTerm x k lo m.val := by
  rw [foldl_add_eq_sum (fun m => winTerm x k lo ((⟨1, ![n]⟩ : Shape).rowMajor.symm m 0).val), zero_add,
    ← Fin.sum_univ_def,
    Equiv.sum_comp (⟨1, ![n]⟩ : Shape).rowMajor.symm (fun j => winTerm x k lo (j 0).val),
    ← Equiv.sum_comp (idxEquiv1 (n := n)).symm (fun j => winTerm x k lo (j 0).val)]
  rfl

/-- With the padding one less than the length, the window positions that meet the array at `k` are the positions `≤ k`. -/
private theorem sum_winTerm (hlo : lo + 1 = n) (x : (⟨1, ![n]⟩ : Shape).Idx → BitVec 32) (k : Fin n) :
    ∑ m : Fin n, winTerm x k lo m.val = ∑ p ∈ Finset.univ.filter (fun p : Fin n => p.val ≤ k.val), x (ix1 p) := by
  have hk := k.isLt
  rw [← Finset.sum_filter_of_ne (p := fun m : Fin n => lo ≤ k.val + m.val) (fun m _ hne => by
    by_contra hc
    exact hne (dif_neg fun h => hc h.1))]
  refine Finset.sum_bij' (fun m _ => (⟨k.val + m.val - lo, by have := m.isLt; omega⟩ : Fin n))
    (fun p hp => (⟨p.val + lo - k.val, by have := (Finset.mem_filter.1 hp).2; omega⟩ : Fin n)) ?_ ?_ ?_ ?_ ?_
  · intro m hm
    have := m.isLt
    exact Finset.mem_filter.2 ⟨Finset.mem_univ _, by show k.val + m.val - lo ≤ k.val; omega⟩
  · intro p hp
    have := (Finset.mem_filter.1 hp).2
    exact Finset.mem_filter.2 ⟨Finset.mem_univ _, by show lo ≤ k.val + (p.val + lo - k.val); omega⟩
  · intro m hm
    have := (Finset.mem_filter.1 hm).2
    exact Fin.ext (by show k.val + m.val - lo + lo - k.val = m.val; omega)
  · intro p hp
    have := (Finset.mem_filter.1 hp).2
    exact Fin.ext (by show k.val + (p.val + lo - k.val) - lo = p.val; omega)
  · intro m hm
    have h1 := (Finset.mem_filter.1 hm).2
    have := m.isLt
    exact dif_pos ⟨h1, by omega⟩

/-- THE WINDOW SUM IS THE INCLUSIVE PREFIX SUM, at any length `n = lo + 1`, in the ring of 32-bit words. -/
private theorem reduceWindow_prefix (hlo : lo + 1 = n) (x : (⟨1, ![n]⟩ : Shape).Idx → BitVec 32) {u : Shape}
    (init : u.Idx → BitVec 32) (hu : 0 < u.numel) (h0 : init (Shape.Idx.first hu) = 0)
    (h : (⟨1, ![n]⟩ : Shape).ReduceWindows ![n] ![1] ![lo] ![0] ⟨1, ![n]⟩) (k : Fin n) :
    Host.reduceWindow IntOp.addi ![n] ![1] ![lo] ![0] x init h hu (ix1 k)
      = ∑ p ∈ Finset.univ.filter (fun p : Fin n => p.val ≤ k.val), x (ix1 p) := by
  rw [reduceWindow_foldl x init hu h0 h k, foldl_winTerm, sum_winTerm hlo]

end Window

/-- A sum of words whose values do not add up to 2³² has the sum of the values as its value. -/
private theorem toNat_sum {ι : Type} (S : Finset ι) (f : ι → BitVec 32) (h : ∑ i ∈ S, (f i).toNat < 2 ^ 32) :
    (∑ i ∈ S, f i).toNat = ∑ i ∈ S, (f i).toNat := by
  induction S using Finset.cons_induction with
  | empty => rfl
  | cons a S ha ih =>
    rw [Finset.sum_cons] at h
    rw [Finset.sum_cons, Finset.sum_cons, BitVec.toNat_add, ih (by omega)]
    exact Nat.mod_eq_of_lt (by omega)

/-- The inclusive prefix sum, as naturals, when the total does not reach 2³¹. -/
theorem cumsum0_toNat (x : IVec S1048576 32) (hx : (∑ p : Fin 1048576, (x (ix1 p)).toNat) < 2 ^ 31) (k : Fin 1048576) :
    (Stages.cumsum0 x (ix1 k)).toNat
      = ∑ p ∈ Finset.univ.filter (fun p : Fin 1048576 => p.val ≤ k.val), (x (ix1 p)).toNat := by
  unfold Stages.cumsum0
  rw [reduceWindow_prefix (n := 1048576) (lo := 1048575) (by norm_num) x _ h_S_ rfl _ k, toNat_sum]
  -- the partial sum of values is at most the total
  exact lt_of_le_of_lt (Finset.sum_le_sum_of_subset (Finset.filter_subset _ _)) (lt_trans hx (by norm_num))

/-! ## The count -/

/-- The mask bit at an entry is set exactly where `adj` is nonzero. -/
private theorem mask_eq_one_iff (adj : IVec S1024x1024 32) (i : S1024x1024.Idx) :
    Stages.mask adj i = 1#1 ↔ adj i ≠ 0#32 := by
  show IntOp.cmpi .ne (adj i) 0#32 = 1#1 ↔ _
  unfold IntOp.cmpi
  rw [StableHlo.Predicate.ofBool_eq_one_iff]
  exact bne_iff_ne

/-- The mask of the specification at flat position `p` is the test at row `p / 1024`, column `p % 1024`. -/
private theorem maskB_eq (adj : IVec S1024x1024 32) (p : Nat) (hp : p < 1048576) (a b : Fin 1024) (ha : a.val = p / 1024)
    (hb : b.val = p % 1024) : Cert.Spec.maskB adj p = decide (adj (ix2 a b) ≠ 0#32) := by
  unfold Cert.Spec.maskB
  rw [dif_pos hp]
  obtain ⟨a, ha'⟩ := a
  obtain ⟨b, hb'⟩ := b
  simp only at ha hb
  subst ha hb
  rfl

/-- The set entries of the mask are as many as the flat positions the specification counts: row-major numbering is a
    bijection between them. -/
private theorem card_mask (adj : IVec S1024x1024 32) :
    (Finset.univ.filter fun i : S1024x1024.Idx => Stages.mask adj i = 1#1).card
      = ((Finset.range 1048576).filter (Cert.Spec.maskP adj)).card := by
  refine Finset.card_bij' (fun i _ => (i 0).val * 1024 + (i 1).val)
    (fun p hp => ix2 (⟨p / 1024, by have := Finset.mem_range.1 (Finset.mem_filter.1 hp).1; omega⟩ : Fin 1024)
      (⟨p % 1024, Nat.mod_lt _ (by norm_num)⟩ : Fin 1024)) ?_ ?_ ?_ ?_
  · intro i hi
    have h0 := idx2_lt0 i
    have h1 := idx2_lt1 i
    have hm := (mask_eq_one_iff adj i).1 (Finset.mem_filter.1 hi).2
    have e : adj i = adj (ix2 (i 0) (i 1)) := congrArg adj (eq_ix2 i)
    refine Finset.mem_filter.2 ⟨Finset.mem_range.2 (by omega), ?_⟩
    show Cert.Spec.maskB adj _ = true
    rw [maskB_eq adj _ (by omega) (i 0) (i 1) (by omega) (by omega)]
    exact decide_eq_true fun h => hm (e.trans h)
  · intro p hp
    have hlt := Finset.mem_range.1 (Finset.mem_filter.1 hp).1
    have hm : Cert.Spec.maskB adj p = true := (Finset.mem_filter.1 hp).2
    rw [maskB_eq adj p hlt ⟨p / 1024, by omega⟩ ⟨p % 1024, Nat.mod_lt _ (by norm_num)⟩ rfl rfl] at hm
    exact Finset.mem_filter.2 ⟨Finset.mem_univ _, (mask_eq_one_iff adj _).2 (of_decide_eq_true hm)⟩
  · intro i hi
    have h0 := idx2_lt0 i
    have h1 := idx2_lt1 i
    funext d
    match d with
    | ⟨0, _⟩ => exact Fin.ext (by show ((i 0).val * 1024 + (i 1).val) / 1024 = (i 0).val; omega)
    | ⟨1, _⟩ => exact Fin.ext (by show ((i 0).val * 1024 + (i 1).val) % 1024 = (i 1).val; omega)
  · intro p hp
    show p / 1024 * 1024 + p % 1024 = p
    omega

/-- The count stage is the number of nonzeros. -/
theorem cnt_toNat (adj : IVec S1024x1024 32) : (Stages.cnt adj ix0).toNat = Cert.Spec.cntN adj := by
  classical
  unfold Stages.cnt
  rw [Host.reduce_eq_fold]
  -- every entry reduces into the one result
  have hall : (Finset.univ.filter fun i : S1024x1024.Idx => reducesTo_S1024x1024_S_d0_1.drop i = ix0) = Finset.univ :=
    Finset.filter_true_of_mem fun i _ => (eq_ix0 _)
  rw [hall]
  -- each widened bit is worth one where the mask is set, so the values add up to the number of set entries
  have hsum : ∑ i : S1024x1024.Idx, (extui 32 (Stages.mask adj) natLt_1_32 i).toNat
      = ((Finset.range 1048576).filter (Cert.Spec.maskP adj)).card := by
    rw [← card_mask, Finset.card_filter]
    exact Finset.sum_congr rfl fun i _ => StableHlo.Predicate.toNat_setWidth_bit (Stages.mask adj i)
  show (Finset.fold IntOp.addi 0#32 (extui 32 (Stages.mask adj) natLt_1_32) Finset.univ).toNat = _
  rw [StableHlo.Predicate.toNat_fold_addi _ _ (by
    rw [hsum]
    exact lt_of_le_of_lt (Finset.card_filter_le _ _) (by rw [Finset.card_range]; norm_num)), hsum]
  unfold Cert.Spec.cntN
  rw [Nat.count_eq_card_filter_range]

end Cert.ReferenceIdeal.Words

end
-- ==== Proof.IndexWords.lean ====
/-
  The integer stages of the edge list that act word by word, as natural numbers.

  On non-negative words below 2³¹, jnp's floor division and remainder by a positive constant are the natural-number
  quotient and remainder, the maximum with zero and the wrapping of a negative index do nothing; the fill replaces the
  slots from the count on by zero, and a slot is valid exactly below the count.
-/
import proofs.«175874_g83193516523656_cont_sun_m_929_3_alg».proof.Proof.RefStages
import proofs.«175874_g83193516523656_cont_sun_m_929_3_alg».proof.Proof.Spec
import proofs.«175874_g83193516523656_cont_sun_m_929_3_alg».proof.Proof.IndexSums
import Idealize.ShloMosaic.Lib.ValueIdx
import Idealize.ShloMosaic.Lib.StableHlo.Predicate

noncomputable section

namespace Cert.ReferenceIdeal.Words

open Idealize.ShloMosaic Idealize.ShloMosaic.ValueIdx Cert.ReferenceIdeal Cert.ReferenceIdeal.Facts₀
open Idealize.ShloMosaic.StableHlo.Predicate
open scoped BigOperators

/-! ### Scalar facts: 32-bit words below 2³¹ -/

/-- A word below 2³¹ has its sign bit clear. -/
private theorem msb_false_of_lt {a : BitVec 32} (h : a.toNat < 2 ^ 31) : a.msb = false :=
  BitVec.msb_eq_false_iff_two_mul_lt.mpr (by omega)

/-- A word below 2³¹ is not below zero as a signed word. -/
private theorem slt_zero_of_lt {a : BitVec 32} (h : a.toNat < 2 ^ 31) : IntOp.cmpi .slt a 0#32 = 0#1 := by
  apply eq_zero_of_ne_one
  intro h1
  have := (slt_iff_toNat (a := a) (b := 0#32) h (by decide)).mp h1
  simp at this

/-- A positive divisor below 2³¹ is neither zero nor minus one: the signed division meets no corner. -/
private theorem not_corner (x c : BitVec 32) (hc0 : 0 < c.toNat) (hc : c.toNat < 2 ^ 31) : ¬ IntOp.SDivCorner x c := by
  intro h
  rcases h with h | ⟨_, h⟩
  · subst h; simp at hc0
  · subst h; revert hc; decide

/-- The signed quotient of non-negative words is the unsigned one. -/
private theorem divsi_eq (u : ArithUnit) (x c : BitVec 32) (hc0 : 0 < c.toNat) (hc : c.toNat < 2 ^ 31)
    (hx : x.toNat < 2 ^ 31) : IntOp.divsi u x c = x / c := by
  simp only [IntOp.divsi, if_neg (not_corner x c hc0 hc), BitVec.sdiv_eq, msb_false_of_lt hx, msb_false_of_lt hc,
    BitVec.udiv_eq]

/-- The signed remainder of non-negative words is the unsigned one. -/
private theorem remsi_eq (u : ArithUnit) (x c : BitVec 32) (hc0 : 0 < c.toNat) (hc : c.toNat < 2 ^ 31)
    (hx : x.toNat < 2 ^ 31) : IntOp.remsi u x c = x % c := by
  simp only [IntOp.remsi, if_neg (not_corner x c hc0 hc), BitVec.srem_eq, msb_false_of_lt hx, msb_false_of_lt hc,
    BitVec.umod_eq]

/-! ### The sign word, and the two compares of floor division and remainder -/

/-- The sign word of a scalar: zero, minus one or one. -/
private def sgnW (a : BitVec 32) : BitVec 32 := if a = 0 then 0 else if a.msb then -1 else 1

/-- Floor division on scalars, as the stage computes it. -/
private def floorDivW (x c : BitVec 32) : BitVec 32 :=
  Scalar.select
    (IntOp.andi (IntOp.cmpi .ne (sgnW x) (sgnW c)) (IntOp.cmpi .ne (IntOp.remsi .host x c) 0#32))
    (IntOp.subi (IntOp.divsi .host x c) 1#32)
    (IntOp.divsi .host x c)

private theorem floorDiv_read (x : IVec S1048576 32) (c : BitVec 32) (k : Fin 1048576) :
    Stages.floorDiv x (constantI S_ 32 c) (ix1 k) = floorDivW (x (ix1 k)) c := rfl

/-- Where the dividend is non-negative and the divisor positive, the correction never applies. -/
private theorem floorDivW_eq (x c : BitVec 32) (hc0 : 0 < c.toNat) (hc : c.toNat < 2 ^ 31) (hx : x.toNat < 2 ^ 31) :
    floorDivW x c = x / c := by
  have hcne : c ≠ 0 := by intro h; subst h; simp at hc0
  have hsc : sgnW c = 1 := by simp only [sgnW, if_neg hcne, msb_false_of_lt hc, Bool.false_eq_true, if_false]
  have hcond : IntOp.andi (IntOp.cmpi .ne (sgnW x) (sgnW c)) (IntOp.cmpi .ne (IntOp.remsi .host x c) 0#32) = 0#1 := by
    by_cases hx0 : x = 0
    · subst hx0
      have : IntOp.remsi .host (0 : BitVec 32) c = 0#32 := by
        rw [remsi_eq .host 0 c hc0 hc (by simp)]; simp
      rw [this]
      simp [IntOp.andi, IntOp.cmpi]
    · have hsx : sgnW x = 1 := by simp only [sgnW, if_neg hx0, msb_false_of_lt hx, Bool.false_eq_true, if_false]
      rw [hsx, hsc]
      simp [IntOp.andi, IntOp.cmpi]
  rw [floorDivW, hcond, select_zero, divsi_eq .host x c hc0 hc hx]

/-- Floor division of a non-negative word by a positive constant. -/
theorem floorDiv_toNat (x : IVec S1048576 32) (c : BitVec 32) (hc0 : 0 < c.toNat) (hc : c.toNat < 2 ^ 31)
    (k : Fin 1048576) (hx : (x (ix1 k)).toNat < 2 ^ 31) :
    (Stages.floorDiv x (constantI S_ 32 c) (ix1 k)).toNat = (x (ix1 k)).toNat / c.toNat := by
  rw [floorDiv_read, floorDivW_eq _ c hc0 hc hx, BitVec.toNat_udiv]

/-- The divisor the remainder uses, on scalars: one in place of zero. -/
private def safeW (c : BitVec 32) : BitVec 32 := Scalar.select (IntOp.cmpi .eq c 0#32) 1#32 c

/-- The remainder on scalars, as the stage computes it. -/
private def remW (x c : BitVec 32) : BitVec 32 :=
  Scalar.select
    (IntOp.andi
      (IntOp.cmpi .ne (IntOp.cmpi .slt (IntOp.remsi .host x (safeW c)) 0#32) (IntOp.cmpi .slt (safeW c) 0#32))
      (IntOp.cmpi .ne (IntOp.remsi .host x (safeW c)) 0#32))
    (IntOp.addi (IntOp.remsi .host x (safeW c)) (safeW c))
    (IntOp.remsi .host x (safeW c))

private theorem remainder_read (x : IVec S1048576 32) (c : BitVec 32) (k : Fin 1048576) :
    Stages.remainder x (constantI S_ 32 c) (ix1 k) = remW (x (ix1 k)) c := rfl

/-- A nonzero divisor is used as it is. -/
private theorem safeW_eq (c : BitVec 32) (hc0 : 0 < c.toNat) : safeW c = c := by
  have hcne : c ≠ 0 := by intro h; subst h; simp at hc0
  have : IntOp.cmpi .eq c 0#32 = 0#1 := eq_zero_of_ne_one (fun h => hcne (cmpi_eq_iff.mp h))
  rw [safeW, this, select_zero]

/-- Where the dividend is non-negative and the divisor positive, the remainder's correction never applies. -/
private theorem remW_eq (x c : BitVec 32) (hc0 : 0 < c.toNat) (hc : c.toNat < 2 ^ 31) (hx : x.toNat < 2 ^ 31) :
    remW x c = x % c := by
  have hr : IntOp.remsi .host x c = x % c := remsi_eq .host x c hc0 hc hx
  have hrlt : (x % c).toNat < 2 ^ 31 := by
    rw [BitVec.toNat_umod]; exact lt_trans (Nat.mod_lt _ hc0) hc
  have hcond : IntOp.andi
      (IntOp.cmpi .ne (IntOp.cmpi .slt (x % c) 0#32) (IntOp.cmpi .slt c 0#32))
      (IntOp.cmpi .ne (x % c) 0#32) = 0#1 := by
    rw [slt_zero_of_lt hrlt, slt_zero_of_lt hc]
    simp [IntOp.andi, IntOp.cmpi]
  rw [remW, safeW_eq c hc0, hr, hcond, select_zero]

/-- Remainder of a non-negative word by a positive constant. -/
theorem remainder_toNat (x : IVec S1048576 32) (c : BitVec 32) (hc0 : 0 < c.toNat) (hc : c.toNat < 2 ^ 31)
    (k : Fin 1048576) (hx : (x (ix1 k)).toNat < 2 ^ 31) :
    (Stages.remainder x (constantI S_ 32 c) (ix1 k)).toNat = (x (ix1 k)).toNat % c.toNat := by
  rw [remainder_read, remW_eq _ c hc0 hc hx, BitVec.toNat_umod]

/-- Wrapping leaves a non-negative word alone. -/
theorem wrap_apply (n : BitVec 32) (x : IVec S1048576 32) (k : Fin 1048576) (hx : (x (ix1 k)).toNat < 2 ^ 31) :
    Stages.wrap n x (ix1 k) = x (ix1 k) := by
  show Scalar.select (IntOp.cmpi .slt (x (ix1 k)) 0#32) (IntOp.addi (x (ix1 k)) n) (x (ix1 k)) = x (ix1 k)
  rw [slt_zero_of_lt hx, select_zero]

/-- The maximum with zero leaves a non-negative word alone. -/
theorem maxsi_zero_apply (x : IVec S1048576 32) (k : Fin 1048576) (hx : (x (ix1 k)).toNat < 2 ^ 31) :
    maxsi (Stages.splatE (constantI S_ 32 0#32)) x (ix1 k) = x (ix1 k) := by
  show IntOp.maxsi 0#32 (x (ix1 k)) = x (ix1 k)
  have h : (x (ix1 k)).slt 0#32 = false := by
    cases hs : (x (ix1 k)).slt 0#32
    · rfl
    · have := (slt_bool_iff_toNat (a := x (ix1 k)) (b := 0#32) hx (by decide)).mp (by rw [hs]; rfl)
      simp at this
  simp only [IntOp.maxsi, h, Bool.false_eq_true, if_false]

/-! ### The count as a word, and the slot number as a word -/

/-- The count does not exceed the number of slots. -/
private theorem cntN_le (adj : IVec S1024x1024 32) : Cert.Spec.cntN adj ≤ 1048576 := Nat.count_le _

/-- A rank-zero word spread over the slots reads that word everywhere. -/
private theorem splat_read (c : IVec S_ 32) (k : Fin 1048576) : Stages.splatE c (ix1 k) = c ix0 := by
  rw [Stages.splatE, bcast_scalar bcast_S_S1048576 h_S_ c (ix1 k), eq_ix0 (Shape.Idx.first h_S_)]

/-- The count word spread over the slots reads the count everywhere. -/
private theorem splat_cnt_toNat (adj : IVec S1024x1024 32) (k : Fin 1048576) :
    (Stages.splatE (Stages.cnt adj) (ix1 k)).toNat = Cert.Spec.cntN adj := by
  rw [splat_read, cnt_toNat]

/-- The slot number as a word. -/
private theorem iota_read (k : Fin 1048576) : iotaInDim S1048576 32 0 (ix1 k) = BitVec.ofNat 32 k.val := rfl

private theorem iota_toNat (k : Fin 1048576) : (iotaInDim S1048576 32 0 (ix1 k)).toNat = k.val := by
  rw [iota_read, BitVec.toNat_ofNat]; have := k.isLt; omega

/-- The fill at slot `k`: zero from the count on, the value below it. -/
theorem fill_apply (adj : IVec S1024x1024 32) (x : IVec S1048576 32) (k : Fin 1048576) :
    Stages.fill adj x (ix1 k) = if k.val < Cert.Spec.cntN adj then x (ix1 k) else 0#32 := by
  have hk := k.isLt
  have hcn := cntN_le adj
  have hi : (iotaInDim S1048576 32 0 (ix1 k)).toNat < 2 ^ 31 := by rw [iota_toNat]; omega
  have hc : (Stages.splatE (Stages.cnt adj) (ix1 k)).toNat < 2 ^ 31 := by rw [splat_cnt_toNat]; omega
  have hge := sge_iff_toNat hi hc
  rw [iota_toNat, splat_cnt_toNat] at hge
  show Scalar.select (IntOp.cmpi .sge (iotaInDim S1048576 32 0 (ix1 k)) (Stages.splatE (Stages.cnt adj) (ix1 k)))
    0#32 (x (ix1 k)) = _
  by_cases h : k.val < Cert.Spec.cntN adj
  · rw [if_pos h, eq_zero_of_ne_one (fun h1 => absurd (hge.mp h1) (by omega)), select_zero]
  · rw [if_neg h, hge.mpr (by omega), select_one]

/-- Slot `k` is valid exactly below the count. -/
theorem valid_iff (adj : IVec S1024x1024 32) (k : Fin 1048576) :
    Stages.valid adj (ix1 k) = 1#1 ↔ k.val < Cert.Spec.cntN adj := by
  have hk := k.isLt
  have hcn := cntN_le adj
  have hi : (iotaInDim S1048576 32 0 (ix1 k)).toNat < 2 ^ 31 := by rw [iota_toNat]; omega
  have hc : (Stages.splatE (Stages.cnt adj) (ix1 k)).toNat < 2 ^ 31 := by rw [splat_cnt_toNat]; omega
  have hlt := slt_iff_toNat hi hc
  rw [iota_toNat, splat_cnt_toNat] at hlt
  exact hlt

end Cert.ReferenceIdeal.Words

end
-- ==== Proof.RefGather.lean ====
/-
  The reference's row gathers and its edge score, read at an entry.

  An index vector whose words are below 1024 names rows of `h` directly (the wrap of negative indices and the
  gather's clamp do nothing), and the score of slot `k` is `a` against the concatenation of the two gathered rows:
  position `c < 128` reads `h[s k, c]`, position `c ≥ 128` reads `h[t k, c − 128]`.
-/
import proofs.«175874_g83193516523656_cont_sun_m_929_3_alg».proof.Proof.RefStages
import proofs.«175874_g83193516523656_cont_sun_m_929_3_alg».proof.Proof.RefDims
import proofs.«175874_g83193516523656_cont_sun_m_929_3_alg».proof.Proof.LibPlainDot
import proofs.«175874_g83193516523656_cont_sun_m_929_3_alg».proof.Proof.IndexWords
import Idealize.ShloMosaic.Lib.ValueIdx
import Idealize.ShloMosaic.Lib.ValueLayout

noncomputable section

namespace Cert.ReferenceIdeal.Read

open Idealize.ShloMosaic Idealize.ShloMosaic.ValueIdx Cert.ReferenceIdeal Cert.ReferenceIdeal.Facts₀
open scoped BigOperators

/-- The gathered rows at `(k, c)` for one index word below 1024: the wrap leaves the word alone (it is not negative),
    the column of start indices reads it back, and the gather reads that row of the operand. -/
private theorem rowsOf_at {F : FTy → Type} [FloatOps F] (h : FVec F S1024x128 .f32) (idx : IVec S1048576 32)
    (k : Fin 1048576) (c : Fin 128) (hk : (idx (ix1 k)).toNat < 1024) :
    Stages.rowsOf h idx (ix2 k c) = h (ix2 (⟨(idx (ix1 k)).toNat, hk⟩ : Fin 1024) c) := by
  have e : Stages.col (Stages.wrap 1024#32 idx) (ix2 k (0 : Fin 1)) = idx (ix1 k) := by
    rw [Dims.col_apply, Words.wrap_apply 1024#32 idx k (by omega)]
  have hlt : (Stages.col (Stages.wrap 1024#32 idx) (ix2 k (0 : Fin 1))).toNat < 1024 := by rw [e]; exact hk
  have hf : (⟨_, hlt⟩ : Fin 1024) = ⟨(idx (ix1 k)).toNat, hk⟩ := Fin.ext (congrArg BitVec.toNat e)
  show Host.gather _ h (Stages.col (Stages.wrap 1024#32 idx)) (ix2 k c) = _
  rw [Dims.gatherRow h _ k c hlt, hf]

/-- The gathered rows at `(k, c)`: row `idx k` of `h`, column `c`. -/
theorem rowsOf_apply {F : FTy → Type} [FloatOps F] (h : FVec F S1024x128 .f32) (idx : IVec S1048576 32)
    (hidx : ∀ k : Fin 1048576, (idx (ix1 k)).toNat < 1024) (k : Fin 1048576) (c : Fin 128) :
    Stages.rowsOf h idx (ix2 k c) = h (ix2 (⟨(idx (ix1 k)).toNat, hidx k⟩ : Fin 1024) c) :=
  rowsOf_at h idx k c (hidx k)

/-- The concatenation `[h[s k]; h[t k]]` at `(k, c)`: a position below 128 falls in the first piece at the same
    column, a position from 128 on falls in the second piece at the column less 128. -/
private theorem cat_at (h : FVec Ideal S1024x128 .f32) (s t : IVec S1048576 32) (k : Fin 1048576) (c : Fin 256)
    (hs : (s (ix1 k)).toNat < 1024) (ht : (t (ix1 k)).toNat < 1024) :
    concatenate S1048576x256 1 [⟨S1048576x128, Stages.rowsOf h s⟩, ⟨S1048576x128, Stages.rowsOf h t⟩]
        concatenates_S1048576x128_S1048576x128_S1048576x256_d1 (ix2 k c)
      = if hc : c.val < 128 then h (ix2 (⟨(s (ix1 k)).toNat, hs⟩ : Fin 1024) (⟨c.val, hc⟩ : Fin 128))
        else h (ix2 (⟨(t (ix1 k)).toNat, ht⟩ : Fin 1024) (⟨c.val - 128, by omega⟩ : Fin 128)) := by
  by_cases hc : c.val < 128
  · rw [dif_pos hc, ← rowsOf_at h s k ⟨c.val, hc⟩ hs]
    refine concatenate_pair_apply_left (1 : Fin 2) (Stages.rowsOf h s) (Stages.rowsOf h t)
      concatenates_S1048576x128_S1048576x128_S1048576x256_d1 (ix2 k c) rfl (ix2 k (⟨c.val, hc⟩ : Fin 128)) fun b => ?_
    match b with
    | ⟨0, _⟩ => rfl
    | ⟨1, _⟩ => rfl
  · rw [dif_neg hc, ← rowsOf_at h t k ⟨c.val - 128, by omega⟩ ht]
    refine concatenate_pair_apply_right (1 : Fin 2) (Stages.rowsOf h s) (Stages.rowsOf h t)
      concatenates_S1048576x128_S1048576x128_S1048576x256_d1 (ix2 k c) rfl rfl
      (ix2 k (⟨c.val - 128, by omega⟩ : Fin 128)) (fun b hb => ?_) ?_
    · match b with
      | ⟨0, _⟩ => rfl
      | ⟨1, _⟩ => exact absurd rfl hb
    · show c.val - 128 + 128 = c.val
      omega

/-- The edge score of slot `k`. -/
theorem score_apply (h : FVec Ideal S1024x128 .f32) (a : FVec Ideal S1x256 .f32) (s t : IVec S1048576 32)
    (hs : ∀ k : Fin 1048576, (s (ix1 k)).toNat < 1024) (ht : ∀ k : Fin 1048576, (t (ix1 k)).toNat < 1024)
    (k : Fin 1048576) :
    Stages.score (F := Ideal) h a s t (ix1 k)
      = ∑ c : Fin 256, a (ix2 (0 : Fin 1) c) *
          (if hc : c.val < 128 then h (ix2 (⟨(s (ix1 k)).toNat, hs k⟩ : Fin 1024) (⟨c.val, hc⟩ : Fin 128))
           else h (ix2 (⟨(t (ix1 k)).toNat, ht k⟩ : Fin 1024) (⟨c.val - 128, by omega⟩ : Fin 128))) := by
  unfold Stages.score
  rw [shapeCast_1a_a_apply]
  refine (PlainDot.dotGeneral_apply _ ⟨rfl, rfl, rfl, rfl, rfl, rfl⟩ none .single a _ (0 : Fin 1) k).trans ?_
  refine Finset.sum_congr rfl fun c _ => ?_
  rw [transpose_ix2_apply, cat_at h s t k c (hs k) (ht k)]

end Cert.ReferenceIdeal.Read

end
-- ==== Proof.RefRead.lean ====
/-
  The reference's float stages read at an entry: the edge-list form.

  For index vectors `s`, `t` with every word below 1024 and a validity bit vector `v`: the gathers read rows
  `s k` and `t k` of `h = x · W`, the score is `a` against their concatenation, the weight is masked by `v`, and
  the two segment sums collect, for row `i`, the slots whose `s`-word is `i`.
-/
import proofs.«175874_g83193516523656_cont_sun_m_929_3_alg».proof.Proof.RefStages
import proofs.«175874_g83193516523656_cont_sun_m_929_3_alg».proof.Proof.Spec
import proofs.«175874_g83193516523656_cont_sun_m_929_3_alg».proof.Proof.RefDims
import proofs.«175874_g83193516523656_cont_sun_m_929_3_alg».proof.Proof.LibPlainDot
import proofs.«175874_g83193516523656_cont_sun_m_929_3_alg».proof.Proof.Consts
import proofs.«175874_g83193516523656_cont_sun_m_929_3_alg».proof.Proof.RefGather
import Idealize.ShloMosaic.Lib.Pipeline.Value
import Idealize.ShloMosaic.Lib.ValueIdxRank1

noncomputable section

namespace Cert.ReferenceIdeal.Read

open Idealize.ShloMosaic Idealize.ShloMosaic.ValueIdx Cert.ReferenceIdeal Cert.ReferenceIdeal.Facts₀
open scoped BigOperators

/-! ### Broadcasts of a vector to a column and of a column to a rectangle -/

/-- A vector laid as a column reads, at `(k, 0)`, the vector at `k`. -/
private theorem bcCol {α : Type} {n : Nat} (h : (⟨1, ![n]⟩ : Shape).BroadcastsInDim ⟨2, ![n, 1]⟩ ![0])
    (v : (⟨1, ![n]⟩ : Shape).Idx → α) (k : Fin n) :
    broadcastInDim ⟨2, ![n, 1]⟩ ![0] h v (ix2 k (0 : Fin 1)) = v (ix1 k) := by
  refine broadcastInDim_apply _ h v _ _ fun a => ?_
  obtain rfl : a = 0 := Subsingleton.elim _ _
  show k.val = if n = 1 then 0 else k.val
  have := k.isLt
  split <;> omega

/-- A column spread over the columns of a rectangle reads, at `(k, c)`, the column at `(k, 0)`. -/
private theorem bcRow {α : Type} {n m : Nat} (h : (⟨2, ![n, 1]⟩ : Shape).BroadcastsInDim ⟨2, ![n, m]⟩ ![0, 1])
    (v : (⟨2, ![n, 1]⟩ : Shape).Idx → α) (k : Fin n) (c : Fin m) :
    broadcastInDim ⟨2, ![n, m]⟩ ![0, 1] h v (ix2 k c) = v (ix2 k (0 : Fin 1)) := by
  refine broadcastInDim_apply _ h v _ _ fun a => ?_
  match a with
  | ⟨0, _⟩ =>
    show k.val = if n = 1 then 0 else k.val
    have := k.isLt
    split <;> omega
  | ⟨1, _⟩ =>
    show (0 : Nat) = if (1 : Nat) = 1 then 0 else c.val
    rw [if_pos rfl]

/-! ### The product `h = x · W` -/

/-- `h = x · W` at an entry. -/
theorem hmat_apply (x : FVec Ideal S1024x128 .f32) (W : FVec Ideal S128x128 .f32) (i : Fin 1024) (d : Fin 128) :
    Stages.hmat x W (ix2 i d) = Cert.Spec.h x W i d :=
  PlainDot.dotGeneral_apply _ ⟨rfl, rfl, rfl, rfl, rfl, rfl⟩ none .single x W i d

/-! ### The pointwise stages -/

/-- `leaky_relu` at an entry. -/
theorem leaky_apply (sc : FVec Ideal S1048576 .f32) (j : S1048576.Idx) : Stages.leaky sc j = Cert.Spec.leaky (sc j) := by
  show Scalar.select (Ideal.cmp .oge (sc j) (Ideal.ofBits .f32 0x00000000#32)) (sc j)
      (Ideal.ofBits .f32 0x3C23D70A#32 * sc j) = _
  rw [Cert.Consts.zero_f32]
  rfl

/-- The edge weight at slot `k`: the attention weight of the score on a valid slot, zero on the rest. -/
theorem edgeE_apply (v : IVec S1048576 1) (sc : FVec Ideal S1048576 .f32) (j : S1048576.Idx) :
    Stages.edgeE v sc j = if v j = 1#1 then Cert.Spec.act (sc j) else 0 := by
  show Scalar.select (v j) (Ideal.exp (-(Stages.leaky sc j))) (Ideal.ofBits .f32 0x00000000#32) = _
  rw [Cert.Consts.zero_f32, leaky_apply]
  rfl

/-- The quotient at an entry: the entry by its row's sum. -/
theorem quot_apply (nu : FVec Ideal S1024x128 .f32) (rs : FVec Ideal S1024 .f32) (i : Fin 1024) (c : Fin 128) :
    Stages.quot nu rs (ix2 i c) = Ideal.div (nu (ix2 i c)) (rs (ix1 i)) := by
  show Ideal.div (nu (ix2 i c)) (broadcastInDim S1024x128 ![0, 1] bcast_S1024x1_S1024x128_0_1
    (broadcastInDim S1024x1 ![0] bcast_S1024_S1024x1_0 rs) (ix2 i c)) = _
  rw [bcRow, bcCol]

/-- `elu` at an entry. -/
theorem elu_apply (q : FVec Ideal S1024x128 .f32) (j : S1024x128.Idx) : Stages.elu q j = Cert.Spec.elu (q j) := by
  show Scalar.select (Ideal.cmp .ogt (q j) (Ideal.ofBits .f32 0x00000000#32)) (q j)
      (Ideal.ofBits .f32 0x3F800000#32 *
        (Ideal.exp (Scalar.select (Ideal.cmp .ogt (q j) (Ideal.ofBits .f32 0x00000000#32))
          (Ideal.ofBits .f32 0x00000000#32) (q j)) - 1)) = _
  rw [Cert.Consts.zero_f32, Cert.Consts.one_f32, one_mul]
  unfold Cert.Spec.elu
  by_cases hb : Ideal.cmp .ogt (q j) 0 = 1#1
  · rw [hb, select_one, select_one]
  · rw [eq_zero_of_ne_one hb, select_zero, select_zero, select_zero]

/-! ### The two segment sums -/

/-- For a word below 1024, "its signed value is `i`" says the word is `i`. -/
private theorem toInt_eq_iff (w : BitVec 32) (h : w.toNat < 1024) (i : Fin 1024) :
    w.toInt = (i.val : Int) ↔ (⟨w.toNat, h⟩ : Fin 1024) = i := by
  rw [BitVec.toInt_eq_toNat_of_lt (by omega), Fin.ext_iff]
  exact Int.ofNat_inj

/-- A scatter-add at the ideal instance, at an element: the operand's element plus the updates that land on it. -/
private theorem scatterAdd_apply {s si su : Shape} {w : Nat} (d : ScatterDims s si su) (x : FVec Ideal s .f32)
    (idx : IVec si w) (upd : FVec Ideal su .f32) (i : s.Idx) :
    Host.scatterAdd d x idx upd i
      = x i + ∑ j ∈ Finset.univ.filter (fun j => d.resultIdx? j idx = some i), upd j := rfl

/-- A zero constant spread over any shape reads zero. -/
private theorem splat_zero {T : Shape} (h : S_.BroadcastsInDim T ![]) (j : T.Idx) :
    broadcastInDim T ![] h (constant (F := Ideal) S_ .f32 0x00000000#32) j = 0 :=
  Cert.Consts.zero_f32

/-- A filtered sum over a rank-1 index set, re-indexed by the coordinate. -/
private theorem sum_filter_idx1 {n : Nat} (p : (⟨1, ![n]⟩ : Shape).Idx → Prop) [DecidablePred p]
    (q : Fin n → Prop) [DecidablePred q] (f : (⟨1, ![n]⟩ : Shape).Idx → EReal) (hpq : ∀ k, p (ix1 k) ↔ q k) :
    ∑ j ∈ Finset.univ.filter p, f j = ∑ k ∈ Finset.univ.filter q, f (ix1 k) := by
  rw [Finset.sum_filter, Finset.sum_filter, ← Equiv.sum_comp (idxEquiv1 (n := n)).symm]
  refine Finset.sum_congr rfl fun k _ => ?_
  exact if_congr (hpq k) rfl rfl

/-- The row sums at row `i`: zero plus the weights of the slots whose start word is `i`. -/
theorem rowsum_apply (s : IVec S1048576 32) (e : FVec Ideal S1048576 .f32)
    (hs : ∀ k : Fin 1048576, (s (ix1 k)).toNat < 1024) (i : Fin 1024) :
    Stages.rowsum s e (ix1 i)
      = 0 + ∑ k ∈ Finset.univ.filter (fun k : Fin 1048576 => (⟨(s (ix1 k)).toNat, hs k⟩ : Fin 1024) = i), e (ix1 k) := by
  unfold Stages.rowsum
  rw [scatterAdd_apply, splat_zero]
  rw [sum_filter_idx1 _ (fun k : Fin 1048576 => (⟨(s (ix1 k)).toNat, hs k⟩ : Fin 1024) = i) e fun k => by
    rw [Dims.res1024, Dims.col_apply]
    exact toInt_eq_iff _ (hs k) i]

/-- A filtered sum over a rank-2 index set whose filter pins the second coordinate, collapsed onto the first. -/
private theorem sum_filter_idx2_col {n m : Nat} (p : (⟨2, ![n, m]⟩ : Shape).Idx → Prop) [DecidablePred p]
    (q : Fin n → Prop) [DecidablePred q] (c : Fin m) (f : (⟨2, ![n, m]⟩ : Shape).Idx → EReal)
    (hpq : ∀ k c', p (ix2 k c') ↔ (q k ∧ c' = c)) :
    ∑ j ∈ Finset.univ.filter p, f j = ∑ k ∈ Finset.univ.filter q, f (ix2 k c) := by
  rw [Finset.sum_filter, Finset.sum_filter, sum_idx2]
  refine Finset.sum_congr rfl fun k _ => ?_
  by_cases hq : q k
  · rw [if_pos hq]
    have hc : ∀ c' ∈ Finset.univ, (if p (ix2 k c') then f (ix2 k c') else 0) = if c' = c then f (ix2 k c') else 0 :=
      fun c' _ => if_congr ((hpq k c').trans (and_iff_right hq)) rfl rfl
    rw [Finset.sum_congr rfl hc, Finset.sum_ite_eq' Finset.univ c, if_pos (Finset.mem_univ c)]
  · rw [if_neg hq]
    refine Finset.sum_eq_zero fun c' _ => ?_
    rw [if_neg fun hp => hq ((hpq k c').mp hp).1]

/-- The weighted neighbour sums at `(i, c)`: zero plus, over the slots whose start word is `i`, the weight times
    column `c` of the slot's neighbour row. -/
theorem numer_apply (h : FVec Ideal S1024x128 .f32) (s d : IVec S1048576 32) (e : FVec Ideal S1048576 .f32)
    (hs : ∀ k : Fin 1048576, (s (ix1 k)).toNat < 1024) (hd : ∀ k : Fin 1048576, (d (ix1 k)).toNat < 1024)
    (i : Fin 1024) (c : Fin 128) :
    Stages.numer h s d e (ix2 i c)
      = 0 + ∑ k ∈ Finset.univ.filter (fun k : Fin 1048576 => (⟨(s (ix1 k)).toNat, hs k⟩ : Fin 1024) = i),
          e (ix1 k) * h (ix2 (⟨(d (ix1 k)).toNat, hd k⟩ : Fin 1024) c) := by
  unfold Stages.numer
  rw [scatterAdd_apply, splat_zero]
  rw [sum_filter_idx2_col _ (fun k : Fin 1048576 => (⟨(s (ix1 k)).toNat, hs k⟩ : Fin 1024) = i) c _ fun k c' => by
    rw [Dims.resRow, Dims.col_apply, toInt_eq_iff _ (hs k) i]]
  refine congrArg (fun z => (0 : EReal) + z) (Finset.sum_congr rfl fun k _ => ?_)
  rw [mulf_apply, bcRow, bcCol, rowsOf_apply h d hd k c]

/-! ### The stages together -/

/-- The edge weight of slot `k` is the edge-list form's. -/
theorem edge_apply (x : FVec Ideal S1024x128 .f32) (W : FVec Ideal S128x128 .f32) (a : FVec Ideal S1x256 .f32)
    (s t : IVec S1048576 32) (v : IVec S1048576 1)
    (hs : ∀ k : Fin 1048576, (s (ix1 k)).toNat < 1024) (ht : ∀ k : Fin 1048576, (t (ix1 k)).toNat < 1024)
    (k : Fin 1048576) :
    Stages.edgeE v (Stages.score (Stages.hmat x W) a s t) (ix1 k)
      = Cert.Spec.eR x W a (fun k => (⟨(s (ix1 k)).toNat, hs k⟩ : Fin 1024)) (fun k => (⟨(t (ix1 k)).toNat, ht k⟩ : Fin 1024))
          (fun k => v (ix1 k) = 1#1) k := by
  rw [edgeE_apply, score_apply _ a s t hs ht k]
  unfold Cert.Spec.eR Cert.Spec.scoreR Cert.Spec.cat
  simp only [hmat_apply]

/-- THE FLOAT STAGES AT `(i, c)`: `elu` of the quotient of the two segment sums, which is the edge-list form. -/
theorem read (x : FVec Ideal S1024x128 .f32) (W : FVec Ideal S128x128 .f32) (a : FVec Ideal S1x256 .f32)
    (s t : IVec S1048576 32) (v : IVec S1048576 1)
    (hs : ∀ k : Fin 1048576, (s (ix1 k)).toNat < 1024) (ht : ∀ k : Fin 1048576, (t (ix1 k)).toNat < 1024)
    (i : Fin 1024) (c : Fin 128) :
    Stages.elu (F := Ideal)
        (Stages.quot (Stages.numer (Stages.hmat x W) s t (Stages.edgeE v (Stages.score (Stages.hmat x W) a s t)))
          (Stages.rowsum s (Stages.edgeE v (Stages.score (Stages.hmat x W) a s t)))) (ix2 i c)
      = Cert.Spec.outR x W a (fun k => (⟨(s (ix1 k)).toNat, hs k⟩ : Fin 1024)) (fun k => (⟨(t (ix1 k)).toNat, ht k⟩ : Fin 1024))
          (fun k => v (ix1 k) = 1#1) i c := by
  rw [elu_apply, quot_apply, numer_apply _ s t _ hs ht i c, rowsum_apply s _ hs i]
  unfold Cert.Spec.outR Cert.Spec.numR Cert.Spec.denR
  simp only [edge_apply x W a s t v hs ht, hmat_apply]

end Cert.ReferenceIdeal.Read

end
-- ==== Proof.CountNth.lean ====
/-
  Counting positions by their prefix count.

  For a decidable predicate on the naturals, the number of positions `q < N` whose inclusive prefix count
  `count p (q + 1)` is at most `k` is the position of the `k`-th member (counting from zero) when there are more
  than `k` members below `N`, and `N` otherwise: with `n` the `k`-th member, `count p (q + 1) ≤ k` holds exactly
  for `q < n`, because the prefix count is monotone, is `k` at `n` and `k + 1` just after it.  Summing a function
  over the first `count p N` members in order is summing it over the members below `N`: `nth p` and `count p` are
  inverse bijections between the ranks below the count and the members below `N`.
-/
import Mathlib.Data.Nat.Nth
import Mathlib.Data.Nat.Count
import Mathlib.Algebra.BigOperators.Group.Finset.Basic
import Mathlib.Algebra.Order.BigOperators.Group.Finset

noncomputable section

namespace CountNth

/-- A rank below the count is below the number of members, whenever that number is finite. -/
theorem lt_card_of_lt_count (p : Nat → Prop) [DecidablePred p] {N k : Nat} (hk : k < Nat.count p N) :
    ∀ hf : (Set.ofPred p).Finite, k < hf.toFinset.card :=
  fun hf => lt_of_lt_of_le hk (Nat.count_le_card hf N)

/-- The `k`-th member lies below `N` and is a member, for `k` below the count. -/
theorem nth_mem_of_lt_count (p : Nat → Prop) [DecidablePred p] (N k : Nat) (hk : k < Nat.count p N) :
    Nat.nth p k < N ∧ p (Nat.nth p k) :=
  ⟨Nat.nth_lt_of_lt_count hk, Nat.nth_mem k (lt_card_of_lt_count p hk)⟩

/-- For `k` below the count, the prefix count after `q` is at most `k` exactly before the `k`-th member. -/
theorem count_succ_le_iff (p : Nat → Prop) [DecidablePred p] {N k : Nat} (hk : k < Nat.count p N) (q : Nat) :
    Nat.count p (q + 1) ≤ k ↔ q < Nat.nth p k := by
  have hmem : p (Nat.nth p k) := (nth_mem_of_lt_count p N k hk).2
  have hcnt : Nat.count p (Nat.nth p k) = k := Nat.count_nth (lt_card_of_lt_count p hk)
  constructor
  · intro h
    by_contra hq
    have hle : Nat.nth p k + 1 ≤ q + 1 := by omega
    have h1 : Nat.count p (Nat.nth p k + 1) ≤ Nat.count p (q + 1) := Nat.count_monotone p hle
    rw [Nat.count_succ, if_pos hmem, hcnt] at h1
    omega
  · intro h
    have hle : q + 1 ≤ Nat.nth p k := h
    have h1 : Nat.count p (q + 1) ≤ Nat.count p (Nat.nth p k) := Nat.count_monotone p hle
    rw [hcnt] at h1
    exact h1

/-- `#{q < N | count p (q + 1) ≤ k}` is the `k`-th member's position, or `N` when there is none below `N`. -/
theorem card_count_le (p : Nat → Prop) [DecidablePred p] (N k : Nat) :
    ((Finset.range N).filter (fun q => Nat.count p (q + 1) ≤ k)).card
      = if k < Nat.count p N then Nat.nth p k else N := by
  split
  · rename_i hk
    have hlt : Nat.nth p k < N := (nth_mem_of_lt_count p N k hk).1
    have hset : (Finset.range N).filter (fun q => Nat.count p (q + 1) ≤ k) = Finset.range (Nat.nth p k) := by
      ext q
      rw [Finset.mem_filter, Finset.mem_range, Finset.mem_range, count_succ_le_iff p hk q]
      constructor
      · exact fun h => h.2
      · exact fun h => ⟨lt_trans h hlt, h⟩
    rw [hset, Finset.card_range]
  · rename_i hk
    have hset : (Finset.range N).filter (fun q => Nat.count p (q + 1) ≤ k) = Finset.range N := by
      apply Finset.filter_true_of_mem
      intro q hq
      rw [Finset.mem_range] at hq
      have h1 : Nat.count p (q + 1) ≤ Nat.count p N := Nat.count_monotone p hq
      omega
    rw [hset, Finset.card_range]

/-- The histogram of the prefix counts, summed up to `k`, counts the positions whose prefix count is at most `k`. -/
theorem sum_card_count_eq (p : Nat → Prop) [DecidablePred p] (N k : Nat) :
    ∑ j ∈ Finset.range (k + 1), ((Finset.range N).filter (fun q => Nat.count p (q + 1) = j)).card
      = ((Finset.range N).filter (fun q => Nat.count p (q + 1) ≤ k)).card := by
  rw [Finset.card_eq_sum_card_fiberwise (f := fun q => Nat.count p (q + 1)) (t := Finset.range (k + 1))]
  · apply Finset.sum_congr rfl
    intro j hj
    rw [Finset.mem_range] at hj
    congr 1
    ext q
    simp only [Finset.mem_filter, Finset.mem_range]
    constructor
    · intro h; exact ⟨⟨h.1, by omega⟩, h.2⟩
    · intro h; exact ⟨h.1.1, h.2⟩
  · intro q hq
    rw [Finset.mem_coe, Finset.mem_filter] at hq
    show Nat.count p (q + 1) ∈ (↑(Finset.range (k + 1)) : Set Nat)
    rw [Finset.mem_coe, Finset.mem_range]
    omega

/-- Summing over the members below `N` in order of enumeration. -/
theorem sum_nth {M : Type*} [AddCommMonoid M] (p : Nat → Prop) [DecidablePred p] (N : Nat) (f : Nat → M) :
    ∑ k ∈ Finset.range (Nat.count p N), f (Nat.nth p k) = ∑ q ∈ (Finset.range N).filter p, f q := by
  apply Finset.sum_nbij' (fun k => Nat.nth p k) (fun q => Nat.count p q)
  · intro k hk
    rw [Finset.mem_range] at hk
    rw [Finset.mem_filter, Finset.mem_range]
    exact nth_mem_of_lt_count p N k hk
  · intro q hq
    rw [Finset.mem_filter, Finset.mem_range] at hq
    rw [Finset.mem_range]
    exact Nat.count_strict_mono hq.2 hq.1
  · intro k hk
    rw [Finset.mem_range] at hk
    exact Nat.count_nth (lt_card_of_lt_count p hk)
  · intro q hq
    rw [Finset.mem_filter] at hq
    exact Nat.nth_count hq.2
  · intro k _
    rfl

end CountNth

end
-- ==== Proof.EdgeIndex.lean ====
/-
  The edge list enumerates the nonzeros of `adj`.

  With `c[p]` the inclusive prefix count of the flattened mask, the histogram `b[k] = #{p | c[p] = k}` and its
  prefix sum `q[k] = #{p | c[p] ≤ k}`: for `k` below the number of nonzeros `q[k]` is the flat position of the
  `k`-th nonzero, so its row is `q[k] / 1024` and its column `q[k] % 1024`; from the count on both are filled
  with `0`.  Every row and column word is below 1024.
-/
import proofs.«175874_g83193516523656_cont_sun_m_929_3_alg».proof.Proof.RefStages
import proofs.«175874_g83193516523656_cont_sun_m_929_3_alg».proof.Proof.Spec
import proofs.«175874_g83193516523656_cont_sun_m_929_3_alg».proof.Proof.RefDims
import proofs.«175874_g83193516523656_cont_sun_m_929_3_alg».proof.Proof.IndexSums
import proofs.«175874_g83193516523656_cont_sun_m_929_3_alg».proof.Proof.IndexWords
import proofs.«175874_g83193516523656_cont_sun_m_929_3_alg».proof.Proof.CountNth
import Mathlib.Algebra.BigOperators.Fin

noncomputable section

namespace Cert.ReferenceIdeal.Edges

open Idealize.ShloMosaic Idealize.ShloMosaic.ValueIdx Cert.ReferenceIdeal Cert.ReferenceIdeal.Facts₀
open scoped BigOperators

/-- A sum over the positions of `Fin N` up to `k` is the sum over the naturals up to `k`. -/
private theorem sum_fin_le {M : Type*} [AddCommMonoid M] (N k : Nat) (hk : k < N) (f : Nat → M) :
    ∑ p ∈ (Finset.univ : Finset (Fin N)).filter (fun p => p.val ≤ k), f p.val
      = ∑ q ∈ Finset.range (k + 1), f q := by
  rw [Finset.sum_filter, Fin.sum_univ_eq_sum_range (fun q => if q ≤ k then f q else 0) N, ← Finset.sum_filter]
  congr 1
  ext q
  simp only [Finset.mem_filter, Finset.mem_range]
  omega

/-- The flattened mask word as a natural: one at a nonzero, zero elsewhere. -/
private theorem maskFlat_toNat (adj : IVec S1024x1024 32) (p : Fin 1048576) :
    (Stages.maskFlat adj (ix1 p)).toNat = if Cert.Spec.maskB adj p.val = true then 1 else 0 := by
  rw [Words.maskFlat_apply]
  split_ifs <;> rfl

/-- The mask's total is at most the number of positions, far below 2³¹. -/
private theorem maskFlat_sum_lt (adj : IVec S1024x1024 32) :
    (∑ p : Fin 1048576, (Stages.maskFlat adj (ix1 p)).toNat) < 2 ^ 31 := by
  have h : (∑ p : Fin 1048576, (Stages.maskFlat adj (ix1 p)).toNat) ≤ ∑ _p : Fin 1048576, 1 :=
    Finset.sum_le_sum (fun p _ => by rw [maskFlat_toNat]; split_ifs <;> omega)
  rw [Finset.sum_const, Finset.card_univ, Fintype.card_fin, smul_eq_mul, mul_one] at h
  exact lt_of_le_of_lt h (by norm_num)

/-- `c[p]` is the number of nonzeros at flat positions `≤ p`. -/
theorem cum1_toNat (adj : IVec S1024x1024 32) (p : Fin 1048576) :
    (Stages.cum1 adj (ix1 p)).toNat = Nat.count (Cert.Spec.maskP adj) (p.val + 1) := by
  unfold Stages.cum1
  rw [Words.cumsum0_toNat _ (maskFlat_sum_lt adj) p]
  simp only [maskFlat_toNat]
  rw [sum_fin_le 1048576 p.val p.isLt (fun q => if Cert.Spec.maskB adj q = true then 1 else 0),
    Nat.count_eq_card_filter_range, Finset.card_filter]

/-- The prefix count is at most the number of positions, so it is a non-negative word. -/
private theorem cum1_lt (adj : IVec S1024x1024 32) (p : Fin 1048576) :
    (Stages.cum1 adj (ix1 p)).toNat < 2 ^ 31 := by
  rw [cum1_toNat]
  have h1 := Nat.count_le (p := Cert.Spec.maskP adj) (n := p.val + 1)
  have h2 := p.isLt
  have h3 : (1048576 : Nat) < 2 ^ 31 := by norm_num
  omega

/-- The histogram's bucket of a position is its prefix count: the clamp and the wrap do nothing. -/
private theorem bucket_apply (adj : IVec S1024x1024 32) (p : Fin 1048576) :
    Stages.bucket adj (ix1 p) = Stages.cum1 adj (ix1 p) := by
  unfold Stages.bucket
  rw [Words.wrap_apply _ _ p (by rw [Words.maxsi_zero_apply _ p (cum1_lt adj p)]; exact cum1_lt adj p),
    Words.maxsi_zero_apply _ p (cum1_lt adj p)]

/-- A rank-one index set, filtered, has as many members as the matching set of coordinates. -/
private theorem card_filter_idx1 {n : Nat} (P : Nat → Prop) [DecidablePred P]
    (Q : (⟨1, ![n]⟩ : Shape).Idx → Prop) [DecidablePred Q] (h : ∀ q : Fin n, Q (ix1 q) ↔ P q.val) :
    (Finset.univ.filter Q).card = ((Finset.range n).filter P).card := by
  refine Finset.card_bij (fun j _ => (j 0).val) ?_ ?_ ?_
  · intro j hj
    rw [Finset.mem_filter] at hj ⊢
    have hQ := hj.2
    rw [eq_ix1 j] at hQ
    exact ⟨Finset.mem_range.2 (j 0).isLt, (h _).1 hQ⟩
  · intro j _ j' _ hjj
    rw [eq_ix1 j, eq_ix1 j']
    exact congrArg ix1 (Fin.ext hjj)
  · intro q hq
    rw [Finset.mem_filter, Finset.mem_range] at hq
    exact ⟨ix1 ⟨q, hq.1⟩, Finset.mem_filter.2 ⟨Finset.mem_univ _, (h _).2 hq.2⟩, rfl⟩

/-- A sum of ones over a set of at most 2³² members is, as a natural, the number of members. -/
private theorem sum_ones_toNat {ι : Type*} (s : Finset ι) (hs : s.card < 2 ^ 32) :
    (∑ _j ∈ s, (1#32 : BitVec 32)).toNat = s.card := by
  rw [show (1#32 : BitVec 32) = 1 from rfl, Finset.sum_const, nsmul_one, BitVec.natCast_eq_ofNat,
    BitVec.toNat_ofNat, Nat.mod_eq_of_lt hs]

/-- Update `q` of the histogram lands on element `k` exactly when the prefix count at `q` is `k`. -/
private theorem lands_iff (adj : IVec S1024x1024 32) (k q : Fin 1048576) :
    scatter_S1048576_S1048576x1_S1048576_n_0_0_1.resultIdx? (ix1 q) (Stages.col (Stages.bucket adj)) = some (ix1 k)
      ↔ Nat.count (Cert.Spec.maskP adj) (q.val + 1) = k.val := by
  rw [Dims.res1M, Dims.col_apply, bucket_apply,
    BitVec.toInt_eq_toNat_of_lt (by have := cum1_lt adj q; omega), cum1_toNat]
  exact Int.ofNat_inj

/-- `b[k] = #{p | c[p] = k}`. -/
theorem binc_toNat (adj : IVec S1024x1024 32) (k : Fin 1048576) :
    (Stages.binc adj (ix1 k)).toNat
      = ((Finset.range 1048576).filter (fun q => Nat.count (Cert.Spec.maskP adj) (q + 1) = k.val)).card := by
  have hcard := card_filter_idx1 (n := 1048576)
    (fun q => Nat.count (Cert.Spec.maskP adj) (q + 1) = k.val)
    (fun j => scatter_S1048576_S1048576x1_S1048576_n_0_0_1.resultIdx? j (Stages.col (Stages.bucket adj)) = some (ix1 k))
    (fun q => lands_iff adj k q)
  have hle : ((Finset.range 1048576).filter (fun q => Nat.count (Cert.Spec.maskP adj) (q + 1) = k.val)).card ≤ 1048576 :=
    le_trans (Finset.card_filter_le _ _) (le_of_eq (Finset.card_range _))
  unfold Stages.binc
  rw [ScatterGather.scatter_addi_apply]
  have h0 : Stages.splatE (constantI S_ 32 0#32) (ix1 k) = 0#32 := rfl
  have h1 : ∀ j : S1048576.Idx, Stages.splatE (constantI S_ 32 1#32) j = 1#32 := fun _ => rfl
  rw [h0, BitVec.zero_add]
  simp only [h1]
  rw [← hcard] at hle ⊢
  exact sum_ones_toNat _ (lt_of_le_of_lt hle (by norm_num))

/-- The histogram's total is the number of positions whose prefix count is below the length: at most the length. -/
private theorem binc_sum_lt (adj : IVec S1024x1024 32) :
    (∑ p : Fin 1048576, (Stages.binc adj (ix1 p)).toNat) < 2 ^ 31 := by
  simp only [binc_toNat]
  rw [Fin.sum_univ_eq_sum_range
      (fun j => ((Finset.range 1048576).filter (fun q => Nat.count (Cert.Spec.maskP adj) (q + 1) = j)).card) 1048576,
    show (1048576 : Nat) = 1048575 + 1 from rfl, CountNth.sum_card_count_eq]
  exact lt_of_le_of_lt (le_trans (Finset.card_filter_le _ _) (le_of_eq (Finset.card_range _))) (by norm_num)

/-- `q[k]`: the position of the `k`-th nonzero below the count, the array's length from the count on. -/
theorem cum2_toNat (adj : IVec S1024x1024 32) (k : Fin 1048576) :
    (Stages.cum2 adj (ix1 k)).toNat
      = if k.val < Cert.Spec.cntN adj then Nat.nth (Cert.Spec.maskP adj) k.val else 1048576 := by
  unfold Stages.cum2
  rw [Words.cumsum0_toNat _ (binc_sum_lt adj) k]
  simp only [binc_toNat]
  rw [sum_fin_le 1048576 k.val k.isLt
      (fun j => ((Finset.range 1048576).filter (fun q => Nat.count (Cert.Spec.maskP adj) (q + 1) = j)).card),
    CountNth.sum_card_count_eq, CountNth.card_count_le]
  rfl

/-- `q[k]` is at most the array's length. -/
private theorem cum2_le (adj : IVec S1024x1024 32) (k : Fin 1048576) :
    (Stages.cum2 adj (ix1 k)).toNat ≤ 1048576 := by
  rw [cum2_toNat]
  split_ifs with h
  · exact le_of_lt (CountNth.nth_mem_of_lt_count (Cert.Spec.maskP adj) 1048576 k.val h).1
  · exact le_refl _

/-- The raw row word: `(q[k] / 1024) % 1024`. -/
private theorem srcRaw_toNat (adj : IVec S1024x1024 32) (k : Fin 1048576) :
    (Stages.srcRaw adj (ix1 k)).toNat = (Stages.cum2 adj (ix1 k)).toNat / 1024 % 1024 := by
  have hc := cum2_le adj k
  have hq : (Stages.floorDiv (Stages.cum2 adj) (constantI S_ 32 1024#32) (ix1 k)).toNat
      = (Stages.cum2 adj (ix1 k)).toNat / 1024 :=
    Words.floorDiv_toNat (Stages.cum2 adj) 1024#32 (by decide) (by decide) k (by omega)
  unfold Stages.srcRaw
  rw [Words.remainder_toNat _ 1024#32 (by decide) (by decide) k (by rw [hq]; omega), hq]
  rfl

/-- The raw column word: `(q[k] / 1) % 1024`. -/
private theorem dstRaw_toNat (adj : IVec S1024x1024 32) (k : Fin 1048576) :
    (Stages.dstRaw adj (ix1 k)).toNat = (Stages.cum2 adj (ix1 k)).toNat / 1 % 1024 := by
  have hc := cum2_le adj k
  have hq : (Stages.floorDiv (Stages.cum2 adj) (constantI S_ 32 1#32) (ix1 k)).toNat
      = (Stages.cum2 adj (ix1 k)).toNat / 1 :=
    Words.floorDiv_toNat (Stages.cum2 adj) 1#32 (by decide) (by decide) k (by omega)
  unfold Stages.dstRaw
  rw [Words.remainder_toNat _ 1024#32 (by decide) (by decide) k (by rw [hq]; omega), hq]
  rfl

/-- Every row word is below 1024. -/
theorem src_lt (adj : IVec S1024x1024 32) (k : Fin 1048576) : (Stages.src adj (ix1 k)).toNat < 1024 := by
  unfold Stages.src
  rw [Words.fill_apply]
  split_ifs
  · rw [srcRaw_toNat]; exact Nat.mod_lt _ (by norm_num)
  · exact (by decide : (0#32 : BitVec 32).toNat < 1024)

/-- Every column word is below 1024. -/
theorem dst_lt (adj : IVec S1024x1024 32) (k : Fin 1048576) : (Stages.dst adj (ix1 k)).toNat < 1024 := by
  unfold Stages.dst
  rw [Words.fill_apply]
  split_ifs
  · rw [dstRaw_toNat]; exact Nat.mod_lt _ (by norm_num)
  · exact (by decide : (0#32 : BitVec 32).toNat < 1024)

/-- Below the count, slot `k` holds the row and column of the `k`-th nonzero. -/
theorem enum_eq (adj : IVec S1024x1024 32) (k : Fin 1048576) (hk : k.val < Cert.Spec.cntN adj) :
    (Stages.src adj (ix1 k)).toNat * 1024 + (Stages.dst adj (ix1 k)).toNat = Nat.nth (Cert.Spec.maskP adj) k.val := by
  have hn := (CountNth.nth_mem_of_lt_count (Cert.Spec.maskP adj) 1048576 k.val hk).1
  unfold Stages.src Stages.dst
  rw [Words.fill_apply, Words.fill_apply, if_pos hk, if_pos hk, srcRaw_toNat, dstRaw_toNat, cum2_toNat, if_pos hk]
  omega

end Cert.ReferenceIdeal.Edges

end
-- ==== Proof.EdgeMath.lean ====
/-
  The edge-list form and the dense form are one function.

  If the valid slots are exactly those below the number of nonzeros and slot `k` below it holds the row and column
  of the `k`-th nonzero of `adj` (row-major), then summing a function of (row, column) over the valid slots of row
  `i` is summing it over the nonzero columns of row `i`; the invalid slots carry weight zero.  The edge score
  `Σ_{c < 256} a[c] · [h[s]; h[t]][c]` splits into `Σ_d h[s,d] · a[d] + Σ_d a[128 + d] · h[t,d]`.  Hence the two
  numerators agree, the two denominators agree, and so do the results.
-/
import proofs.«175874_g83193516523656_cont_sun_m_929_3_alg».proof.Proof.Spec
import proofs.«175874_g83193516523656_cont_sun_m_929_3_alg».proof.Proof.CountNth

noncomputable section

namespace Cert.Spec

open Idealize.ShloMosaic Idealize.ShloMosaic.ValueIdx
open scoped BigOperators

/-! ### The score splits into a source part and a destination part -/

/-- A sum over `256` positions is the sum over the first `128` plus the sum over the last `128`. -/
private theorem sum_halves (f : Fin 256 → EReal) :
    ∑ c : Fin 256, f c
      = ∑ d : Fin 128, f ⟨d.val, by omega⟩ + ∑ d : Fin 128, f ⟨128 + d.val, by omega⟩ :=
  Fin.sum_univ_add (a := 128) (b := 128) f

private theorem cat_lo (x : SX.Idx → EReal) (W : SW.Idx → EReal) (s t : Fin 1024) (d : Fin 128) :
    cat x W s t ⟨d.val, by omega⟩ = h x W s d := by
  unfold cat
  rw [dif_pos d.isLt]

private theorem cat_hi (x : SX.Idx → EReal) (W : SW.Idx → EReal) (s t : Fin 1024) (d : Fin 128) :
    cat x W s t ⟨128 + d.val, by omega⟩ = h x W t d := by
  unfold cat
  rw [dif_neg (by simp)]
  congr 1
  ext
  simp

/-- The edge score is the source's score plus the destination's score. -/
private theorem scoreR_eq (x : SX.Idx → EReal) (W : SW.Idx → EReal) (a : Sa.Idx → EReal)
    (src dst : Fin NE → Fin 1024) (k : Fin NE) :
    scoreR x W a src dst k = fsc x W a (src k) + gsc x W a (dst k) := by
  unfold scoreR fsc gsc
  rw [sum_halves]
  refine congrArg₂ (· + ·) (Finset.sum_congr rfl fun d _ => ?_) (Finset.sum_congr rfl fun d _ => ?_)
  · rw [cat_lo]
    exact mul_comm _ _
  · rw [cat_hi]
    rfl

/-- The dense weight as a case distinction on the entry of `adj`. -/
private theorem E_eq (x : SX.Idx → EReal) (adj : SA.Idx → BitVec 32) (W : SW.Idx → EReal) (a : Sa.Idx → EReal)
    (i j : Fin 1024) :
    E x adj W a i j = if adj (ix2 i j) ≠ 0#32 then act (fsc x W a i + gsc x W a j) else 0 := by
  unfold E Scalar.select
  by_cases h0 : adj (ix2 i j) = 0#32
  · have hc : IntOp.cmpi .ne (adj (ix2 i j)) 0#32 = 0#1 := by rw [h0]; rfl
    rw [hc, if_neg (by decide), if_neg (not_not.2 h0)]
  · have hc : IntOp.cmpi .ne (adj (ix2 i j)) 0#32 = 1#1 := by
      unfold IntOp.cmpi
      have hb : (adj (ix2 i j) != 0#32) = true := by simpa using h0
      simp only [hb]
      rfl
    rw [hc, if_pos (by decide), if_pos h0]

/-! ### Rows and columns of a flat position -/

/-- The row of flat position `q` (read modulo the number of rows, so that it is defined for every `q`). -/
private def rowOf (q : Nat) : Fin 1024 := ⟨q / 1024 % 1024, Nat.mod_lt _ (by norm_num)⟩
/-- The column of flat position `q`. -/
private def colOf (q : Nat) : Fin 1024 := ⟨q % 1024, Nat.mod_lt _ (by norm_num)⟩

private theorem rowOf_add (i j : Fin 1024) : rowOf (i.val * 1024 + j.val) = i := by
  ext
  simp only [rowOf]
  omega

private theorem colOf_add (i j : Fin 1024) : colOf (i.val * 1024 + j.val) = j := by
  ext
  simp only [colOf]
  omega

/-- Below the array's size, the mask at `q` says that the entry at (row, column) of `q` is nonzero. -/
private theorem maskP_iff (adj : SA.Idx → BitVec 32) (q : Nat) (hq : q < 1048576) :
    maskP adj q ↔ adj (ix2 (rowOf q) (colOf q)) ≠ 0#32 := by
  show maskB adj q = true ↔ _
  unfold maskB
  rw [dif_pos hq, decide_eq_true_iff]
  have h1 : (⟨q / 1024, by omega⟩ : Fin 1024) = rowOf q := by
    ext
    simp only [rowOf]
    omega
  rw [h1]
  rfl

/-- The summand at flat position `q` of the sum over row `i`: `F` at (row, column) when the row is `i`. -/
private def rowTerm (i : Fin 1024) (F : Fin 1024 → Fin 1024 → EReal) (q : Nat) : EReal :=
  if rowOf q = i then F (rowOf q) (colOf q) else 0

/-! ### The sum over the valid slots of row `i` is the sum over the nonzero columns of row `i` -/

section
variable (adj : SA.Idx → BitVec 32) (src dst : Fin NE → Fin 1024) (valid : Fin NE → Prop) [DecidablePred valid]
  (i : Fin 1024) (F : Fin 1024 → Fin 1024 → EReal)

/-- Slot by slot: a valid slot `k` carries the summand of the `k`-th nonzero position, an invalid slot zero. -/
private theorem slots_to_nth
    (hvalid : ∀ k : Fin NE, valid k ↔ k.val < cntN adj)
    (henum : ∀ k : Fin NE, k.val < cntN adj → (src k).val * 1024 + (dst k).val = Nat.nth (maskP adj) k.val) :
    ∑ k ∈ Finset.univ.filter (fun k : Fin NE => src k = i), (if valid k then F (src k) (dst k) else 0)
      = ∑ k : Fin NE, (if k.val < cntN adj then rowTerm i F (Nat.nth (maskP adj) k.val) else 0) := by
  rw [Finset.sum_filter]
  refine Finset.sum_congr rfl fun k _ => ?_
  by_cases hk : k.val < cntN adj
  · have hv : valid k := (hvalid k).2 hk
    have hq := henum k hk
    have hs : rowOf (Nat.nth (maskP adj) k.val) = src k := by
      ext
      simp only [rowOf]
      have := (src k).isLt
      have := (dst k).isLt
      omega
    have hd : colOf (Nat.nth (maskP adj) k.val) = dst k := by
      ext
      simp only [colOf]
      have := (dst k).isLt
      omega
    rw [if_pos hv, if_pos hk, rowTerm, hs, hd]
  · have hv : ¬ valid k := fun hv => hk ((hvalid k).1 hv)
    rw [if_neg hv, if_neg hk, ite_self]

/-- The slots below the count, as a range of the naturals. -/
private theorem nth_to_range :
    ∑ k : Fin NE, (if k.val < cntN adj then rowTerm i F (Nat.nth (maskP adj) k.val) else 0)
      = ∑ n ∈ Finset.range (cntN adj), rowTerm i F (Nat.nth (maskP adj) n) := by
  refine (Fin.sum_univ_eq_sum_range
    (fun n => if n < cntN adj then rowTerm i F (Nat.nth (maskP adj) n) else 0) NE).trans ?_
  have hset : (Finset.range NE).filter (fun n => n < cntN adj) = Finset.range (cntN adj) := by
    ext n
    have hle : cntN adj ≤ NE := by
      unfold cntN
      exact Nat.count_le _
    simp only [Finset.mem_filter, Finset.mem_range]
    omega
  rw [← Finset.sum_filter, hset]

/-- Of the positions below the array's size only those of row `i` contribute, and they are `i · 1024 + j`. -/
private theorem mask_to_cols :
    ∑ q ∈ (Finset.range NE).filter (maskP adj), rowTerm i F q
      = ∑ j : Fin 1024, if adj (ix2 i j) ≠ 0#32 then F i j else 0 := by
  rw [Finset.sum_filter]
  have h1 : ∑ q ∈ Finset.Ico (i.val * 1024) (i.val * 1024 + 1024), (if maskP adj q then rowTerm i F q else 0)
      = ∑ q ∈ Finset.range NE, (if maskP adj q then rowTerm i F q else 0) := by
    refine Finset.sum_subset ?_ ?_
    · intro q hq
      simp only [Finset.mem_Ico] at hq
      simp only [Finset.mem_range]
      have hNE : NE = 1048576 := rfl
      have := i.isLt
      omega
    · intro q hq hq'
      simp only [Finset.mem_range] at hq
      simp only [Finset.mem_Ico, not_and, not_lt] at hq'
      have hne : rowOf q ≠ i := by
        intro he
        have hv := congrArg Fin.val he
        simp only [rowOf] at hv
        have hNE : NE = 1048576 := rfl
        omega
      rw [rowTerm, if_neg hne, ite_self]
  rw [← h1, Finset.sum_Ico_eq_sum_range]
  have h2 : i.val * 1024 + 1024 - i.val * 1024 = 1024 := by omega
  rw [h2]
  refine (Fin.sum_univ_eq_sum_range
    (fun j => if maskP adj (i.val * 1024 + j) then rowTerm i F (i.val * 1024 + j) else 0) 1024).symm.trans ?_
  refine Finset.sum_congr rfl fun j _ => ?_
  have hlt : i.val * 1024 + j.val < 1048576 := by
    have := i.isLt
    have := j.isLt
    omega
  have hm : maskP adj (i.val * 1024 + j.val) ↔ adj (ix2 i j) ≠ 0#32 := by
    have := maskP_iff adj _ hlt
    rwa [rowOf_add, colOf_add] at this
  rw [rowTerm, rowOf_add, colOf_add, if_pos rfl]
  by_cases hz : adj (ix2 i j) ≠ 0#32
  · rw [if_pos hz, if_pos (hm.2 hz)]
  · rw [if_neg hz, if_neg (fun hp => hz (hm.1 hp))]

/-- Summing over the valid slots of row `i` is summing over the nonzero columns of row `i`. -/
private theorem edge_sum
    (hvalid : ∀ k : Fin NE, valid k ↔ k.val < cntN adj)
    (henum : ∀ k : Fin NE, k.val < cntN adj → (src k).val * 1024 + (dst k).val = Nat.nth (maskP adj) k.val) :
    ∑ k ∈ Finset.univ.filter (fun k : Fin NE => src k = i), (if valid k then F (src k) (dst k) else 0)
      = ∑ j : Fin 1024, if adj (ix2 i j) ≠ 0#32 then F i j else 0 := by
  rw [slots_to_nth adj src dst valid i F hvalid henum, nth_to_range adj i F]
  exact (CountNth.sum_nth (maskP adj) NE (rowTerm i F)).trans (mask_to_cols adj i F)

end

theorem outR_eq_outK (x : SX.Idx → EReal) (adj : SA.Idx → BitVec 32) (W : SW.Idx → EReal) (a : Sa.Idx → EReal)
    (src dst : Fin NE → Fin 1024) (valid : Fin NE → Prop) [DecidablePred valid]
    (hvalid : ∀ k : Fin NE, valid k ↔ k.val < cntN adj)
    (henum : ∀ k : Fin NE, k.val < cntN adj → (src k).val * 1024 + (dst k).val = Nat.nth (maskP adj) k.val)
    (i : Fin 1024) (d : Fin 128) :
    outR x W a src dst valid i d = outK x adj W a i d := by
  have hden : denR x W a src dst valid i = den x adj W a i := by
    unfold denR den
    rw [zero_add]
    have h1 : ∀ k : Fin NE, eR x W a src dst valid k
        = if valid k then (fun s t => act (fsc x W a s + gsc x W a t)) (src k) (dst k) else 0 := by
      intro k
      unfold eR
      rw [scoreR_eq]
    refine (Finset.sum_congr rfl fun k _ => h1 k).trans ?_
    refine (edge_sum adj src dst valid i (fun s t => act (fsc x W a s + gsc x W a t)) hvalid henum).trans ?_
    exact Finset.sum_congr rfl fun j _ => (E_eq x adj W a i j).symm
  have hnum : numR x W a src dst valid i d = num x adj W a i d := by
    unfold numR num
    rw [zero_add]
    have h1 : ∀ k : Fin NE, eR x W a src dst valid k * h x W (dst k) d
        = if valid k then (fun s t => act (fsc x W a s + gsc x W a t) * h x W t d) (src k) (dst k) else 0 := by
      intro k
      unfold eR
      rw [scoreR_eq, ite_mul, zero_mul]
    refine (Finset.sum_congr rfl fun k _ => h1 k).trans ?_
    refine (edge_sum adj src dst valid i (fun s t => act (fsc x W a s + gsc x W a t) * h x W t d) hvalid henum).trans ?_
    refine Finset.sum_congr rfl fun j _ => ?_
    rw [E_eq, ite_mul, zero_mul]
  unfold outR outK
  rw [hnum, hden]

end Cert.Spec

end
-- ==== Proof.lean ====
/-
  The certificate of the graph-attention kernel against its edge-list reference.

  The kernel computes the layer DENSELY: with `h = x · W`, `f = h · a₁`, `g = a₂ · hᵀ` it forms the masked weights
  `E i j = exp (- leaky_relu (f i + g j))` where `adj[i,j] ≠ 0` and `0` elsewhere, and returns
  `elu ((E · h) / (E · 1))` row block by row block.  The reference lists the nonzeros of `adj` (`jnp.nonzero` with a
  fixed size and fill value `0`), gathers `h` at the two ends of every slot, weights the valid slots by the same
  function of `a · [h[src]; h[dst]]`, and takes two segment sums over the rows.  The enumeration's valid slots are a
  bijection onto the nonzeros, row-major, so each segment sum is the dense row sum; the score splits into `f + g`;
  the invalid slots carry weight zero.  Addition and multiplication on the extended reals are commutative and
  associative and `0 · y = 0`, so the equality needs no finiteness of the inputs.
  The three frames: the kernel's two are the generated frames; the reference's is its run with the result dropped.
  The ideal pass rewrote nothing, so `preserves` is trivial.
-/
import proofs.«175874_g83193516523656_cont_sun_m_929_3_alg».proof.Defs
import proofs.«175874_g83193516523656_cont_sun_m_929_3_alg».proof.Proof.Gen.Kernel
import proofs.«175874_g83193516523656_cont_sun_m_929_3_alg».proof.Proof.Gen.Kernel.Frame
import proofs.«175874_g83193516523656_cont_sun_m_929_3_alg».proof.Proof.Gen.KernelIdeal
import proofs.«175874_g83193516523656_cont_sun_m_929_3_alg».proof.Proof.Gen.KernelIdeal.Frame
import proofs.«175874_g83193516523656_cont_sun_m_929_3_alg».proof.Proof.Gen.ReferenceIdeal
import proofs.«175874_g83193516523656_cont_sun_m_929_3_alg».proof.Proof.Gen.Pre_finite_inputs
import proofs.«175874_g83193516523656_cont_sun_m_929_3_alg».proof.Proof.KernelValue
import proofs.«175874_g83193516523656_cont_sun_m_929_3_alg».proof.Proof.RefRun
import proofs.«175874_g83193516523656_cont_sun_m_929_3_alg».proof.Proof.RefRead
import proofs.«175874_g83193516523656_cont_sun_m_929_3_alg».proof.Proof.IndexWords
import proofs.«175874_g83193516523656_cont_sun_m_929_3_alg».proof.Proof.EdgeIndex
import proofs.«175874_g83193516523656_cont_sun_m_929_3_alg».proof.Proof.EdgeMath
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Run.run (F := Ideal) m ρ)

/-- The reference's stage function of the arguments, at an entry, is the dense form: its float stages read as the
    edge-list form over the index stages, whose valid slots enumerate the nonzeros. -/
theorem out_eq_at (x : FVec Ideal Cert.ReferenceIdeal.S1024x128 .f32) (adj : IVec Cert.ReferenceIdeal.S1024x1024 32)
    (W : FVec Ideal Cert.ReferenceIdeal.S128x128 .f32) (a : FVec Ideal Cert.ReferenceIdeal.S1x256 .f32) (i : Fin 1024) (c : Fin 128) :
    Cert.ReferenceIdeal.Stages.out (F := Ideal) x adj W a (ix2 i c) = Cert.Spec.outK x adj W a i c := by
  have h1 := Cert.ReferenceIdeal.Read.read x W a (Cert.ReferenceIdeal.Stages.src adj) (Cert.ReferenceIdeal.Stages.dst adj)
    (Cert.ReferenceIdeal.Stages.valid adj) (Cert.ReferenceIdeal.Edges.src_lt adj) (Cert.ReferenceIdeal.Edges.dst_lt adj) i c
  have h2 := Cert.Spec.outR_eq_outK x adj W a
    (fun k => (⟨(Cert.ReferenceIdeal.Stages.src adj (ix1 k)).toNat, Cert.ReferenceIdeal.Edges.src_lt adj k⟩ : Fin 1024))
    (fun k => (⟨(Cert.ReferenceIdeal.Stages.dst adj (ix1 k)).toNat, Cert.ReferenceIdeal.Edges.dst_lt adj k⟩ : Fin 1024))
    (fun k => Cert.ReferenceIdeal.Stages.valid adj (ix1 k) = 1#1)
    (fun k => Cert.ReferenceIdeal.Words.valid_iff adj k)
    (fun k hk => Cert.ReferenceIdeal.Edges.enum_eq adj k hk) i c
  exact h1.trans h2

/-- … and so as whole arrays. -/
theorem out_eq (x : FVec Ideal Cert.ReferenceIdeal.S1024x128 .f32) (adj : IVec Cert.ReferenceIdeal.S1024x1024 32)
    (W : FVec Ideal Cert.ReferenceIdeal.S128x128 .f32) (a : FVec Ideal Cert.ReferenceIdeal.S1x256 .f32) :
    Cert.ReferenceIdeal.Stages.out (F := Ideal) x adj W a = fun y => Cert.Spec.outK x adj W a (y 0) (y 1) := by
  funext y
  obtain ⟨i, c, rfl⟩ : ∃ (i : Fin 1024) (c : Fin 128), y = ix2 i c := ⟨y 0, y 1, eq_ix2 y⟩
  exact out_eq_at x adj W a i c

theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2.1, (hagree c).2.2.2]
  exact out_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
